-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S512x1024 : Shape := ⟨2, ![512, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel

variable [Facts]

def fn {F : FTy → Type} [FloatOps F] (main_arg0 : FVec F S512x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  main_v3
-- ==== Kernel.lean ====
abbrev S512x256 : Shape := ⟨2, ![512, 256]⟩
abbrev S4x1x512 : Shape := ⟨3, ![4, 1, 512]⟩
abbrev S3 : Shape := ⟨1, ![3]⟩
abbrev S4 : Shape := ⟨1, ![4]⟩
abbrev S_ : Shape := ⟨0, ![]⟩
abbrev S512 : Shape := ⟨1, ![512]⟩
abbrev S512x1 : Shape := ⟨2, ![512, 1]⟩
abbrev S1x512 : Shape := ⟨2, ![1, 512]⟩
abbrev S1x1x512 : Shape := ⟨3, ![1, 1, 512]⟩
abbrev S1 : Shape := ⟨1, ![1]⟩
abbrev S4x512 : Shape := ⟨2, ![4, 512]⟩

abbrev nBuf : Space → Nat
  | .hbm => 2
  | .vmem => 3
  | .smem => 0
  | _ => 0

abbrev bufTy : (tb : Table) → Fin (tcTables nBuf tb) → BufTy
  | .hbm, ⟨0, _⟩ => ⟨S512x256, .f32⟩
  | .hbm, ⟨1, _⟩ => ⟨S512x256, .bf16⟩
  | .local _ .vmem, ⟨0, _⟩ => ⟨S512x256, .f32⟩
  | .local _ .vmem, ⟨1, _⟩ => ⟨S512x256, .bf16⟩
  | .local _ .vmem, ⟨2, _⟩ => ⟨S4x1x512, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v26 : Index := Scalar.indexCast v2
  let c0_13 : Index := 0#32
  let c0_14 : Index := 0#32
  ![v26.toNat, 0, 0]
def k0_off2 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let c0_i32_22 : BitVec 32 := 0#32
  ![v2.toNat, 0, 0]
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v30 : BitVec 32 := Scalar.addi v2 c1_i32_16
  let c4_i32_17 : BitVec 32 := 4#32
  let v31 : BitVec 32 := Scalar.remsi v30 c4_i32_17
  let c1_i32_19 : BitVec 32 := 1#32
  let v32 : BitVec 32 := Scalar.muli v31 c1_i32_19
  let v33 : BitVec 32 := Scalar.addi c0_i32_20 v32
  v33.toNat
def k0_dev5 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_25 : BitVec 32 := 2#32
  let v42 : BitVec 32 := Scalar.addi v2 c2_i32_25
  let c4_i32_26 : BitVec 32 := 4#32
  let v43 : BitVec 32 := Scalar.remsi v42 c4_i32_26
  let c1_i32_28 : BitVec 32 := 1#32
  let v44 : BitVec 32 := Scalar.muli v43 c1_i32_28
  let v45 : BitVec 32 := Scalar.addi c0_i32_29 v44
  v45.toNat
def k0_dev6 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v54 : BitVec 32 := Scalar.addi v2 c3_i32_34
  let c4_i32_35 : BitVec 32 := 4#32
  let v55 : BitVec 32 := Scalar.remsi v54 c4_i32_35
  let c1_i32_37 : BitVec 32 := 1#32
  let v56 : BitVec 32 := Scalar.muli v55 c1_i32_37
  let v57 : BitVec 32 := Scalar.addi c0_i32_38 v56
  v57.toNat
def k0_off4 (d0 : Dev nD) (c1_i32_43 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v66 : BitVec 32 := Scalar.addi v2 c1_i32_43
  let c4_i32_44 : BitVec 32 := 4#32
  let v67 : BitVec 32 := Scalar.remsi v66 c4_i32_44
  ![v67.toNat]
def k0_off5 (d0 : Dev nD) (c1_i32_43 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v66 : BitVec 32 := Scalar.addi v2 c1_i32_43
  let c4_i32_44 : BitVec 32 := 4#32
  let v67 : BitVec 32 := Scalar.remsi v66 c4_i32_44
  let c0_i32_48 : BitVec 32 := 0#32
  let c0_i32_49 : BitVec 32 := 0#32
  ![v67.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  reduces_S512x256_S512 : S512x256.Reduces [1] S512
  shapeCasts_S512_S512x1 : S512.ShapeCasts S512x1
  shapeCasts_S512x1_S512 : S512x1.ShapeCasts S512
  shapeCasts_S512_S1x512 : S512.ShapeCasts S1x512
  shapeCasts_S1x512_S1x1x512 : S1x512.ShapeCasts S1x1x512
  h_S1x1x512 : 0 < S1x1x512.numel
  shapeCasts_S1x1x512_S1x1x512 : S1x1x512.ShapeCasts S1x1x512
  hamt_3 : (3#32 : BitVec 32).msb = false
  inb_S3_S1_0 : ∀ a, (![0] : Fin 1 → Nat) a + S1.size a ≤ S3.size a
  squeezes_S1_S_ : S1.Squeezes S_
  squeezes_S1x1x512_S1x512 : S1x1x512.Squeezes S1x512
  inb_S3_S1_1 : ∀ a, (![1] : Fin 1 → Nat) a + S1.size a ≤ S3.size a
  inb_S3_S1_2 : ∀ a, (![2] : Fin 1 → Nat) a + S1.size a ≤ S3.size a
  inb_S4x1x512_S4x1x512_0_0_0 : ∀ a, (![0, 0, 0] : Fin 3 → Nat) a + S4x1x512.size a ≤ S4x1x512.size a
  h_S4x1x512 : 0 < S4x1x512.numel
  shapeCasts_S4x1x512_S4x512 : S4x1x512.ShapeCasts S4x512
  reduces_S4x512_S512 : S4x512.Reduces [0] S512
  broadcasts_S512x1_S512x256 : S512x1.Broadcasts S512x256
  packedbf16_S512x256_S512x256_0_0 : (Rect.unit (s := S512x256) ![0, 0] S512x256.size inb_S512x256_S512x256_0_0).PackedRows (EltTy.packing .bf16)
  hcc0_scratch1 : 2 + S3.numel ≤ 9
  hcc0_scratch2 : 5 + S4.numel ≤ 9
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S1x1x512.size a ≤ S4x1x512.size a
  k0_off2_inb : ∀ d0 : Dev nD, ∀ a, (k0_off2 d0) a + S1.size a ≤ S4.size a
  k0_off3_inb : ∀ d0 : Dev nD, ∀ a, (k0_off3 d0) a + S1x1x512.size a ≤ S4x1x512.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off4_inb : ∀ d0 : Dev nD, ∀ (r : Fin 3), ∀ a, (k0_off4 d0 (BitVec.ofNat 32 (1 + r.val))) a + S1.size a ≤ S4.size a
  k0_off5_inb : ∀ d0 : Dev nD, ∀ (r : Fin 3), ∀ a, (k0_off5 d0 (BitVec.ofNat 32 (1 + r.val))) a + S1x1x512.size a ≤ S4x1x512.size a
  hstage0_0 : ∀ j, (stage0_0 j).IsWhole
  hstage0_1 : ∀ j, (stage0_1 j).IsWhole

variable [Facts₀]

abbrev cc0_scratch1 : DmaSems sig S3 := SemArray.consecutive 2 S3 hcc0_scratch1
abbrev cc0_scratch2 : DmaSems sig S4 := SemArray.consecutive 5 S4 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x1024 : Shape := ⟨2, ![512, 1024]⟩
abbrev S_ : Shape := ⟨0, ![]⟩
abbrev S512 : Shape := ⟨1, ![512]⟩
abbrev S512x1 : Shape := ⟨2, ![512, 1]⟩

abbrev nBuf : Space → Nat
  | .hbm => 13
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S_, .f32⟩
  | .hbm, ⟨2, _⟩ => ⟨S512, .f32⟩
  | .hbm, ⟨3, _⟩ => ⟨S512x1, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S512x1024, .f32⟩
  | .hbm, ⟨11, _⟩ => ⟨S512x1024, .f32⟩
  | .hbm, ⟨12, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  reducesTo_S512x1024_S512_d1 : S512x1024.ReducesTo [1] S512
  h_S_ : 0 < S_.numel
  bcast_S512_S512x1_0 : S512.BroadcastsInDim S512x1 (![0] : Fin 1 → Fin S512x1.rank)
  bcast_S512x1_S512x1024_0_1 : S512x1.BroadcastsInDim S512x1024 (![0, 1] : Fin 2 → Fin S512x1024.rank)
  bitsLt_bf16_f32 : FTy.bits .bf16 < FTy.bits .f32

variable [Facts₀]

class Facts : Prop extends Facts₀ where

variable [Facts]
-- ==== Proof.K.Out.lean ====
/-
  What one device's kernel leaves in its result block, as a pure term of ALL devices' input blocks:
  the scratch ends holding, in slot p, device p's row sums of exponentials; the result is the device's own
  exponentials times the reciprocal of the slots' sum.
-/
import proofs.«900605_g7700000000000606_dist_softmax_colshard_i_m512_n256_v7x_i4_bf16_1_alg».proof.Proof.Gen.Kernel.Skeleton
import Idealize.ShloMosaic.Lib.ValueIdx

noncomputable section

namespace Cert.Kernel.Out

open Cert.Kernel Cert.Kernel.Gen Idealize.ShloMosaic Idealize.ShloMosaic.ValueIdx

variable {F : FTy → Type} [FloatOps F]

/-- The gathered scratch: slot `p` is device `p`'s row sums. -/
def gath (xs : Dev nD → Vec F S512x256 .f32) : Vec F S4x1x512 .f32 := fun i =>
  k0_pay2 (xs ⟨(i 0).val, (i 0).isLt⟩) (ix3 (0 : Fin 1) (0 : Fin 1) (⟨(i 2).val, (i 2).isLt⟩ : Fin 512))

/-- Device `c`'s result block. -/
def outAt (xs : Dev nD → Vec F S512x256 .f32) (c : Dev nD) : Vec F S512x256 .bf16 :=
  k0_pay3 (k0_pay1 (xs c)) (gath xs)

end Cert.Kernel.Out

end
-- ==== Proof.K.Proto.lean ====
/-
  The cross-device protocol of the column-sharded softmax, as data: who signals and copies onto which semaphore,
  how much, and what each landing hands its waiter.

  Each of the four devices computes its block's row sums of exponentials into slot `c` (its own number) of a
  four-slot scratch, tells the three others it has entered (one unit on each one's barrier semaphore), waits for
  their three units, copies its slot into slot `c` of each of the others' scratch, waits for the three slots coming in,
  adds the four slots, and scales its exponentials by the reciprocal.

  Cells and duties, all in round 0. Device `c`'s barrier cell has three duties, one per other device: duty `d` is
  paid by the device `d + 1` places BEFORE `c` (whose signal number `d` names `c`), one unit, and hands `c` that
  device's slot `c` — where `c`'s copy to it will land — at any contents. Send cell `k` of `c` has one duty, paid as
  copy `k`'s source is read: it hands back the quarter share of slot `c` the copy read through. Receive cell `s` of
  `c` (s ≠ c) has one duty, paid as device `s`'s copy lands: it hands `c` its slot `s` holding device `s`'s sums.
  Every slot's contents is one function of all four input blocks (`gathB`), whoever holds it.
-/
import proofs.«900605_g7700000000000606_dist_softmax_colshard_i_m512_n256_v7x_i4_bf16_1_alg».proof.Proof.K.Out
import proofs.«900605_g7700000000000606_dist_softmax_colshard_i_m512_n256_v7x_i4_bf16_1_alg».proof.Proof.Gen.Kernel
import proofs.«900605_g7700000000000606_dist_softmax_colshard_i_m512_n256_v7x_i4_bf16_1_alg».proof.Proof.Gen.Kernel.Skeleton
import proofs.«900605_g7700000000000606_dist_softmax_colshard_i_m512_n256_v7x_i4_bf16_1_alg».proof.Proof.Gen.Kernel.Launch
import proofs.«900605_g7700000000000606_dist_softmax_colshard_i_m512_n256_v7x_i4_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds' (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The device `d + 1` places after `c`, and the one `d + 1` places before it. -/
def peer (c : Dev nD) (d : Fin 3) : Dev nD := ⟨(c.val + d.val + 1) % 4, Nat.mod_lt _ (by decide)⟩
def back (c : Dev nD) (d : Fin 3) : Dev nD := ⟨(c.val + 3 - d.val) % 4, Nat.mod_lt _ (by decide)⟩

theorem back_peer (c : Dev nD) (d : Fin 3) : back (peer c d) d = c := by revert c d; decide
theorem peer_back (c : Dev nD) (d : Fin 3) : peer (back c d) d = c := by revert c d; decide
theorem peer_ne (c : Dev nD) (d : Fin 3) : peer c d ≠ c := by revert c d; decide
theorem back_ne (c : Dev nD) (d : Fin 3) : back c d ≠ c := by revert c d; decide
theorem peer_inj (c : Dev nD) : Function.Injective (peer c) := by revert c; decide

/-- Turning by `d + 1` places, as a permutation of the devices. -/
def turn (d : Fin 3) : Dev nD ≃ Dev nD := ⟨fun c => peer c d, fun c => back c d, fun c => back_peer c d, fun c => peer_back c d⟩

/-- The kernel's `device_id` chains: signal and copy number `d` both name `peer c d`. -/
theorem dev1_eq (c : Dev nD) : (⟨k0_dev1 c, k0_dev1_lt c⟩ : Dev nD) = peer c 0 := Fin.ext (by show k0_dev1 c = _; rw [k0_dev1_eq c]; rfl)
theorem dev2_eq (c : Dev nD) : (⟨k0_dev2 c, k0_dev2_lt c⟩ : Dev nD) = peer c 1 := Fin.ext (by show k0_dev2 c = _; rw [k0_dev2_eq c]; rfl)
theorem dev3_eq (c : Dev nD) : (⟨k0_dev3 c, k0_dev3_lt c⟩ : Dev nD) = peer c 2 := Fin.ext (by show k0_dev3 c = _; rw [k0_dev3_eq c]; rfl)
theorem dev4_eq (c : Dev nD) : (⟨k0_dev4 c, k0_dev4_lt c⟩ : Dev nD) = peer c 0 := Fin.ext (by show k0_dev4 c = _; rw [k0_dev4_eq c]; rfl)
theorem dev5_eq (c : Dev nD) : (⟨k0_dev5 c, k0_dev5_lt c⟩ : Dev nD) = peer c 1 := Fin.ext (by show k0_dev5 c = _; rw [k0_dev5_eq c]; rfl)
theorem dev6_eq (c : Dev nD) : (⟨k0_dev6 c, k0_dev6_lt c⟩ : Dev nD) = peer c 2 := Fin.ext (by show k0_dev6 c = _; rw [k0_dev6_eq c]; rfl)

/-! ## The memrefs, the slots and the cells -/

abbrev xM : Memref sig .tc .vmem S512x256 .f32 := Memref.whole cc0_stg0_0
abbrev oM : Memref sig .tc .vmem S512x256 .bf16 := Memref.whole cc0_stg1_0
abbrev gM : Memref sig .tc .vmem S4x1x512 .f32 := Memref.whole cc0_scratch0

/-- Slot `s` of the scratch: row `s`, all 512 sums. -/
def slotOff (s : Fin 4) : Fin 3 → Nat := ![s.val, 0, 0]
theorem slotOff_inb (s : Fin 4) : ∀ a, slotOff s a + S1x1x512.size a ≤ S4x1x512.size a := by revert s; decide
abbrev slotR (s : Fin 4) : Rect S4x1x512 := Rect.unit (s := S4x1x512) (slotOff s) S1x1x512.size (slotOff_inb s)
/-- The slot as a copy names it (a [1, 512] memref). -/
abbrev slotM (s : Fin 4) : Memref sig .tc .vmem S1x512 .f32 :=
  ((gM.slice (slotR s) (fun _ => rfl)).squeeze S1x512 squeezes_S1x1x512_S1x512)

theorem sendOff_inb (k : Fin 3) : ∀ a, (![k.val] : Fin 1 → Nat) a + S1.size a ≤ S3.size a := by revert k; decide
theorem recvOff_inb (s : Fin 4) : ∀ a, (![s.val] : Fin 1 → Nat) a + S1.size a ≤ S4.size a := by revert s; decide

/-- The runtime's barrier semaphore of collective id 0 (not scoped); send semaphore `k`; receive semaphore `s`. -/
abbrev barS : Sem sig := (SemArray.scalar (sig.barrier 0 rfl) : Sems sig S_).sem
abbrev sendQ (k : Fin 3) : DmaSem sig :=
  ((cc0_scratch1.slice (Rect.unit (s := S3) ![k.val] S1.size (sendOff_inb k))).squeeze S_ squeezes_S1_S_).sem
abbrev recvQ (s : Fin 4) : DmaSem sig :=
  ((cc0_scratch2.slice (Rect.unit (s := S4) ![s.val] S1.size (recvOff_inb s))).squeeze S_ squeezes_S1_S_).sem

theorem sendQ_val (k : Fin 3) : (sendQ k).val = 2 + k.val := by revert k; decide
theorem recvQ_val (s : Fin 4) : (recvQ s).val = 5 + s.val := by revert s; decide

abbrev barCell (c : Dev nD) : GSem nD τ sig := ((c : Thread nD τ), .reg barS)
abbrev sendCell (c : Dev nD) (k : Fin 3) : GSem nD τ sig := ((c : Thread nD τ), .dma (sendQ k))
abbrev recvCell (c : Dev nD) (s : Fin 4) : GSem nD τ sig := ((c : Thread nD τ), .dma (recvQ s))

/-- The kernel's OWN (scoped) semaphores, as the launch indexes them: the three send ones, then the four receive ones. -/
abbrev osem : Fin 7 → SemLoc sig := fun
  | 0 => .dma (sendQ 0) | 1 => .dma (sendQ 1) | 2 => .dma (sendQ 2)
  | 3 => .dma (recvQ 0) | 4 => .dma (recvQ 1) | 5 => .dma (recvQ 2) | 6 => .dma (recvQ 3)

/-- The seven cells of a device the protocol runs on: the barrier, the three send cells, the three receive cells of
    the OTHER devices' slots (receive semaphore `c` of device `c` is never touched). -/
abbrev kcell (ck : Dev nD × Fin 7) : GSem nD τ sig := match ck.2 with
  | 0 => barCell ck.1
  | 1 => sendCell ck.1 0 | 2 => sendCell ck.1 1 | 3 => sendCell ck.1 2
  | 4 => recvCell ck.1 (peer ck.1 0) | 5 => recvCell ck.1 (peer ck.1 1) | 6 => recvCell ck.1 (peer ck.1 2)

/-- The units a slot's copy credits. -/
abbrev N : ℕ := (slotM 0 : Memref sig .tc .vmem S1x512 .f32).view.dmaCredit

/-! ## Contents -/

/-- Device `c`'s input block, as staged. -/
def xs (c : Dev nD) : Vec F S512x256 .f32 :=
  (win0_0.blk (0 : Fin 1)).view.read (Elt F) ((s₀ m ρ).mem ((c : Thread nD τ).loc main_arg0))

/-- The gathered scratch, on whichever device: slot `p` holds device `p`'s row sums. -/
def gathB (c : Dev nD) : Buf (Elt F) ((c : Thread nD τ).loc cc0_scratch0) := Out.gath (xs m ρ)

/-- Device `c`'s result block. -/
def outB (c : Dev nD) : (cc0_stg1_0 : Ref sig .tc).ty.Contents (Elt F) := Out.outAt (xs m ρ) c

/-! ## Shares of a device's own slot: a quarter per copy, a quarter kept to read through -/

def qs : Fin 3 → PosShare TreeShare
  | 0 => fullShare.left.left | 1 => fullShare.left.right | 2 => fullShare.right.left
def qK : PosShare TreeShare := fullShare.right.right

/-! ## The slots as assertions -/

/-- Slot `s` of device `c`'s scratch, share `q`, holding `f` there. -/
def slotPts (c : Dev nD) (s : Fin 4) (q : PosShare TreeShare) (f : Buf (Elt F) ((slotM s : Memref sig .tc .vmem S1x512 .f32).view.loc (c : Thread nD τ))) : sProp 𝕄 :=
  (slotM s : Memref sig .tc .vmem S1x512 .f32).view.loc (c : Thread nD τ) ↦[(slotM s : Memref sig .tc .vmem S1x512 .f32).view.set]{q} f

/-- The whole scratch of device `c`. -/
def scrPts (c : Dev nD) (f : Buf (Elt F) ((c : Thread nD τ).loc cc0_scratch0)) : sProp 𝕄 :=
  ((c : Thread nD τ).loc cc0_scratch0) ↦{fullShare} f

/-! ## The schedule -/

/-- Duty `d` of `c`'s barrier cell hands `c` slot `c` of the device `d + 1` places before it, at any contents. -/
def barPay (c : Dev nD) (d : Fin 3) : sProp 𝕄 := iprop(∃ f, slotPts (back c d) c fullShare f)
/-- Send cell `k` of `c` hands back the share of slot `c` copy `k` read through. -/
def sendPay (c : Dev nD) (k : Fin 3) : sProp 𝕄 := slotPts c c (qs k) (gathB m ρ c)
/-- Receive cell `s` of `c` hands `c` its slot `s`, holding device `s`'s sums. -/
def recvPay (c : Dev nD) (s : Fin 4) : sProp 𝕄 := slotPts c s fullShare (gathB m ρ c)

abbrev IsBar (g : GSem nD τ sig) : Prop := g.1.2 = .tc ∧ g.2 = .reg barS
abbrev IsXfer (g : GSem nD τ sig) : Prop := g.1.2 = .tc ∧ ∃ q : DmaSem sig, g.2 = .dma q ∧ 2 ≤ q.val

/-- The payload of a cell's duty, by the cell's semaphore. -/
def payOf (g : GSem nD τ sig) (d : Fin 3) : sProp 𝕄 :=
  match g.2 with
  | .reg _ => barPay g.1.1 d
  | .dma q =>
    if 5 ≤ q.val then recvPay m ρ g.1.1 ⟨(q.val - 5) % 4, Nat.mod_lt _ (by decide)⟩
    else if 2 ≤ q.val then sendPay m ρ g.1.1 ⟨(q.val - 2) % 3, Nat.mod_lt _ (by decide)⟩
    else iprop(emp)

instance : DecidablePred (IsXfer : GSem nD τ sig → Prop) := fun g => by unfold IsXfer; infer_instance

/-- One round, round 0: a barrier cell has all three duties, one unit each; a send or receive cell the duty `0` of a
    slot's credit. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d := payOf m ρ g d
  amount_pos g _ _ _ := by
    by_cases h : g.2 = .reg barS
    · rw [if_pos h]; exact Nat.one_pos
    · rw [if_neg h]; exact View.dmaCredit_pos _ (by decide)

/-! ## What each device owes at launch; the levels -/

/-- Device `c` owes each other device's barrier cell one unit and each other device's receive cell `c` a slot's
    credit, summed so that the three signals peel the last three summands in order and the three copies the next. -/
def A1 (c : Dev nD) : CellTallies nD τ sig Unit := tallyAt (recvCell (peer c 2) c) () N
def A2 (c : Dev nD) : CellTallies nD τ sig Unit := A1 c + tallyAt (recvCell (peer c 1) c) () N
def A3 (c : Dev nD) : CellTallies nD τ sig Unit := A2 c + tallyAt (recvCell (peer c 0) c) () N
def A4 (c : Dev nD) : CellTallies nD τ sig Unit := A3 c + tallyAt (barCell (peer c 2)) () 1
def A5 (c : Dev nD) : CellTallies nD τ sig Unit := A4 c + tallyAt (barCell (peer c 1)) () 1
def O₀ (c : Dev nD) : CellTallies nD τ sig Unit := A5 c + tallyAt (barCell (peer c 0)) () 1

def L (g : GSem nD τ sig) : Finset Unit := if g.1.2 = .tc then {()} else ∅
/-- Barrier cells at 1, receive cells at 2, everything else (staging, send) at 0. -/
def lv (g : GSem nD τ sig) (_ : Unit) : ℕ :=
  match g.2 with
  | .reg _ => 1
  | .dma q => if 5 ≤ q.val then 2 else 0

/-! ## The ghost state -/

/-- The cells' invariants under the names the launch allocated them at, and that every cell is at round 0: persistent. -/
def records (K : Dev nD × Fin 7 → ℕ) : sProp 𝕄 :=
  iprop((bigSep Finset.univ fun ck : Dev nD × Fin 7 => cellInv ER (Rd m ρ) (K ck) (kcell ck))
    ∗ bigSep Finset.univ fun ck : Dev nD × Fin 7 => reached ER (kcell ck) 0)

/-- The tokens of the duties device `c` PAYS: each other device's barrier duty, each other device's receive duty for
    slot `c`, its own three send duties. -/
def payToks (c : Dev nD) : sProp 𝕄 :=
  iprop((bigSep Finset.univ fun d : Fin 3 => dutyTok ER (barCell (peer c d)) 0 d)
    ∗ (bigSep Finset.univ fun d : Fin 3 => dutyTok ER (recvCell (peer c d) c) 0 (0 : Fin 3))
    ∗ (bigSep Finset.univ fun k : Fin 3 => dutyTok ER (sendCell c k) 0 (0 : Fin 3)))

/-- What stays with device `c`: its positions in its seven cells, and those tokens. -/
def linear (c : Dev nD) : sProp 𝕄 :=
  iprop((bigSep Finset.univ fun k : Fin 7 => atPos ER (kcell (c, k)) 0 ∅ 0) ∗ payToks c)

def ghost (K : Dev nD × Fin 7 → ℕ) (c : Dev nD) : sProp 𝕄 := iprop(records m ρ K ∗ linear c)

/-- Device `c`'s credit at launch: three units on its barrier cell, a slot's credit on each of its three receive cells. -/
def creds (c : Dev nD) : sProp 𝕄 :=
  iprop(cred (tallyAt (barCell c) () 3) ∗ bigSep Finset.univ fun d : Fin 3 => cred (tallyAt (recvCell c (peer c d)) () N))

/-- What device `c`'s body starts from, beside its scratch. -/
def start (c : Dev nD) : sProp 𝕄 :=
  iprop((∃ K, ghost m ρ K c) ∗ semVal (recvCell c c) 0 ∗ creds c ∗ levAts L lv)

def Φ₀ (c : Dev nD) : sProp 𝕄 := iprop(start m ρ c ∗ ∃ f, scrPts c f)
/-- After the point: the scratch whole again, holding the gathered sums; the seven own semaphores at zero. -/
def Φ₁ (c : Dev nD) : sProp 𝕄 :=
  iprop(scrPts c (gathB m ρ c) ∗ semVal (recvCell c c) 0
    ∗ (bigSep Finset.univ fun k : Fin 3 => semVal (sendCell c k) 0)
    ∗ bigSep Finset.univ fun d : Fin 3 => semVal (recvCell c (peer c d)) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outB m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-! ## The body's pre and post -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 7 → ℕ) (c : Dev nD) : sProp 𝕄 :=
  iprop((ghost m ρ K c ∗ semVal (recvCell c c) 0 ∗ creds c ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xs m ρ c) ∗ stg c cc0_stg1_0 (outB m ρ c))

end Cert.Kernel.Proto

end
-- ==== Proof.K.Tables.lean ====
/-
  The schedule read cell by cell: which duties a barrier, send or receive cell has in round 0, how many units each is
  worth, what each hands over, and that no cell has a duty after round 0; and the order in which a device may wait:
  a barrier cell (level 1) while it still owes only receive cells (level 2), anything once it owes nothing.
-/
import proofs.«900605_g7700000000000606_dist_softmax_colshard_i_m512_n256_v7x_i4_bf16_1_alg».proof.Proof.K.Proto

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD)

omit [FloatOps F] in
/-- A send cell's semaphore is a transfer semaphore, not the barrier's. -/
theorem not_bar_send (k : Fin 3) : ¬ IsBar (sendCell c k) := fun h => by
  have h2 : (SemLoc.dma (sendQ k) : SemLoc sig) = .reg barS := h.2
  cases h2
omit [FloatOps F] in
/-- Nor is a receive cell's. -/
theorem not_bar_recv (s : Fin 4) : ¬ IsBar (recvCell c s) := fun h => by
  have h2 : (SemLoc.dma (recvQ s) : SemLoc sig) = .reg barS := h.2
  cases h2
omit [FloatOps F] in
/-- Send semaphore `k` is number `2 + k`, receive semaphore `s` number `5 + s`: both transfer cells. -/
theorem xfer_send (k : Fin 3) : IsXfer (sendCell c k) := ⟨rfl, sendQ k, rfl, by rw [sendQ_val]; omega⟩
omit [FloatOps F] in
theorem xfer_recv (s : Fin 4) : IsXfer (recvCell c s) := ⟨rfl, recvQ s, rfl, by rw [recvQ_val]; omega⟩

theorem duties_bar : (Rd (F := F) m ρ).duties (barCell c) 0 = Finset.univ := by
  dsimp only [Rd]; exact if_pos ⟨rfl, rfl, rfl⟩
theorem duties_send (k : Fin 3) : (Rd (F := F) m ρ).duties (sendCell c k) 0 = {0} := by
  dsimp only [Rd]; rw [if_neg (fun h => not_bar_send c k h.2)]; exact if_pos ⟨rfl, xfer_send c k⟩
theorem duties_recv (s : Fin 4) : (Rd (F := F) m ρ).duties (recvCell c s) 0 = {0} := by
  dsimp only [Rd]; rw [if_neg (fun h => not_bar_recv c s h.2)]; exact if_pos ⟨rfl, xfer_recv c s⟩
theorem duties_later (g : GSem nD τ sig) : ∀ r, 1 ≤ r → (Rd (F := F) m ρ).duties g r = ∅ :=
  fun r hr => by dsimp only [Rd]; rw [if_neg fun h => by omega, if_neg fun h => by omega]

theorem amount_bar (d : Fin 3) : (Rd (F := F) m ρ).amount (barCell c) 0 d = 1 := by
  dsimp only [Rd]; exact if_pos rfl
theorem amount_send (k : Fin 3) (d : Fin 3) : (Rd (F := F) m ρ).amount (sendCell c k) 0 d = N := by
  dsimp only [Rd]; exact if_neg (fun h => by cases h)
theorem amount_recv (s : Fin 4) (d : Fin 3) : (Rd (F := F) m ρ).amount (recvCell c s) 0 d = N := by
  dsimp only [Rd]; exact if_neg (fun h => by cases h)

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (k : Fin 3) : (Rd (F := F) m ρ).expect (sendCell c k) 0 = N := by
  unfold Schedule.expect Schedule.amountOf; rw [duties_send, Finset.sum_singleton, amount_send]
theorem expect_recv (s : Fin 4) : (Rd (F := F) m ρ).expect (recvCell c s) 0 = N := by
  unfold Schedule.expect Schedule.amountOf; rw [duties_recv, Finset.sum_singleton, amount_recv]

theorem payload_bar (d : Fin 3) : (Rd (F := F) m ρ).payload (barCell c) 0 d = barPay c d := rfl
theorem payload_send (k : Fin 3) (d : Fin 3) : (Rd (F := F) m ρ).payload (sendCell c k) 0 d = sendPay m ρ c k := by
  show (if 5 ≤ (sendQ k).val then recvPay m ρ c ⟨((sendQ k).val - 5) % 4, Nat.mod_lt _ (by decide)⟩
    else if 2 ≤ (sendQ k).val then sendPay m ρ c ⟨((sendQ k).val - 2) % 3, Nat.mod_lt _ (by decide)⟩ else iprop(emp)) = _
  rw [if_neg (by rw [sendQ_val]; omega), if_pos (by rw [sendQ_val]; omega)]
  exact congrArg (sendPay m ρ c) (Fin.ext (by show ((sendQ k).val - 2) % 3 = k.val; rw [sendQ_val]; omega))
theorem payload_recv (s : Fin 4) (d : Fin 3) : (Rd (F := F) m ρ).payload (recvCell c s) 0 d = recvPay m ρ c s := by
  show (if 5 ≤ (recvQ s).val then recvPay m ρ c ⟨((recvQ s).val - 5) % 4, Nat.mod_lt _ (by decide)⟩
    else if 2 ≤ (recvQ s).val then sendPay m ρ c ⟨((recvQ s).val - 2) % 3, Nat.mod_lt _ (by decide)⟩ else iprop(emp)) = _
  rw [if_pos (by rw [recvQ_val]; omega)]
  exact congrArg (recvPay m ρ c) (Fin.ext (by show ((recvQ s).val - 5) % 4 = s.val; rw [recvQ_val]; omega))

/-- The rest of a barrier cell's round, no duty taken: the three other devices' slots `c`. -/
theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send (k : Fin 3) : bigSep ((Rd (F := F) m ρ).duties (sendCell c k) 0 \ ∅) (fun d => (Rd (F := F) m ρ).payload (sendCell c k) 0 d)
    = sendPay m ρ c k := by
  rw [Finset.sdiff_empty, duties_send, bigSep_singleton, payload_send]
theorem rest_recv (s : Fin 4) : bigSep ((Rd (F := F) m ρ).duties (recvCell c s) 0 \ ∅) (fun d => (Rd (F := F) m ρ).payload (recvCell c s) 0 d)
    = recvPay m ρ c s := by
  rw [Finset.sdiff_empty, duties_recv, bigSep_singleton, payload_recv]

end Sched

instance Rd_payload_storable (g : GSem nD τ sig) (r : ℕ) (d : Fin 3) :
    BI.Storable (upEmb : UEmb _ 𝕄) ((Rd (F := F) m ρ).payload g r d) := by
  show BI.Storable upEmb (payOf m ρ g d)
  unfold payOf barPay sendPay recvPay slotPts
  (repeat' split) <;> infer_instance

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- A one-cell tally is positive at that cell only. -/
theorem tallyAt_pos {g₀ g : GSem nD τ sig} {k : ℕ} {u : Unit}
    (h : 0 < (tallyAt g₀ () k : CellTallies nD τ sig Unit) g u) : g = g₀ := by
  rw [tallyAt_apply] at h
  by_contra hn
  rw [if_neg fun h' => hn h'.1] at h
  exact Nat.lt_irrefl 0 h

/-- What a device still owes at its barrier wait is owed to the other devices' receive cells of its own slot. -/
theorem A3_pos {c : Dev nD} {g : GSem nD τ sig} {u : Unit} (h : 0 < A3 c g u) : ∃ d : Fin 3, g = recvCell (peer c d) c := by
  unfold A3 A2 A1 at h
  rcases Pipeline.add_pos_cases h with h | h
  · rcases Pipeline.add_pos_cases h with h | h
    · exact ⟨2, tallyAt_pos h⟩
    · exact ⟨1, tallyAt_pos h⟩
  · exact ⟨0, tallyAt_pos h⟩

/-- What a device owes at launch is owed to those receive cells and to the other devices' barrier cells. -/
theorem O₀_pos {c : Dev nD} {g : GSem nD τ sig} {u : Unit} (h : 0 < O₀ c g u) :
    (∃ d : Fin 3, g = recvCell (peer c d) c) ∨ ∃ d : Fin 3, g = barCell (peer c d) := by
  unfold O₀ A5 A4 at h
  rcases Pipeline.add_pos_cases h with h | h
  · rcases Pipeline.add_pos_cases h with h | h
    · rcases Pipeline.add_pos_cases h with h | h
      · exact .inl (A3_pos h)
      · exact .inr ⟨2, tallyAt_pos h⟩
    · exact .inr ⟨1, tallyAt_pos h⟩
  · exact .inr ⟨0, tallyAt_pos h⟩

/-- A barrier cell is at level 1, a receive cell at level 2. -/
theorem lv_bar (c : Dev nD) (u : Unit) : lv (barCell c) u = 1 := rfl
theorem lv_recv (c : Dev nD) (s : Fin 4) (u : Unit) : lv (recvCell c s) u = 2 := by
  show (if 5 ≤ (recvQ s).val then 2 else 0) = 2
  rw [if_pos (by rw [recvQ_val]; omega)]

omit [FloatOps F] in
/-- A staging or send semaphore (level 0) may be waited on while owing everything a device owes at launch, or nothing. -/
theorem mayWait_low (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨d, rfl⟩ | ⟨d, rfl⟩ <;> exact Finset.mem_singleton_self _)
      (fun p hp => by
        rw [Finset.mem_singleton.mp hp]
        show (if 5 ≤ q.val then 2 else 0) ≤ 0
        rw [if_neg (by omega)])
      (fun g u hg => by
        rcases O₀_pos hg with ⟨d, rfl⟩ | ⟨d, rfl⟩
        · rw [lv_recv]; decide
        · rw [lv_bar]; decide)
  · rw [MayWait_zero]; iintro -; iempintro

omit [FloatOps F] in
/-- At its barrier wait a device owes the three receive credits only: receive cells, above its barrier cell. -/
theorem mayWait_bar (c : Dev nD) : (levAts L lv : sProp 𝕄) ⊢ MayWait (c : Thread nD τ) (.reg barS) () (A3 c) :=
  MayOwe.of_cut (L := L) (lev := lv) 1
    (fun p hp => by rw [Finset.mem_singleton.mp hp, L_tc]; exact Finset.mem_singleton_self _)
    (fun g u hg => by obtain ⟨d, rfl⟩ := A3_pos hg; exact Finset.mem_singleton_self _)
    (fun p hp => by rw [Finset.mem_singleton.mp hp]; exact le_of_eq (lv_bar c ()))
    (fun g u hg => by obtain ⟨d, rfl⟩ := A3_pos hg; rw [lv_recv]; decide)

end Cert.Kernel.Proto

end
-- ==== Proof.K.Geom.lean ====
/-
  The scratch by slots: an index lies in slot `s` exactly when its first coordinate is `s`; the whole scratch is its four
  slots side by side, and a slot's full share is four quarter shares; what a device's own store and a neighbour's landing
  copy leave in a slot is the gathered sums there; read whole, the gathered scratch is the four devices' row sums.
-/
import proofs.«900605_g7700000000000606_dist_softmax_colshard_i_m512_n256_v7x_i4_bf16_1_alg».proof.Proof.K.Proto
import Idealize.ShloMosaic.Lib.Pipeline.Value

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- In the scratch, a rectangle of one row (sizes 1 × 1 × 512) starting at row `k` is the indices of first coordinate `k`:
    the other two coordinates range over the whole of their axes. -/
theorem mem_unit_row {off : Fin 3 → Nat} {inb : ∀ a, off a + S1x1x512.size a ≤ S4x1x512.size a} (k : Nat)
    (h : off = ![k, 0, 0]) (i : S4x1x512.Idx) :
    i ∈ (Rect.unit (s := S4x1x512) off S1x1x512.size inb).set ↔ (i (0 : Fin 3)).val = k := by
  subst h
  rw [Rect.mem_set_unit]
  constructor
  · intro h
    have h0 : k ≤ (i (0 : Fin 3)).val ∧ (i (0 : Fin 3)).val < k + 1 := h 0
    omega
  · intro h a
    match a with
    | ⟨0, _⟩ => exact ⟨show k ≤ (i (0 : Fin 3)).val by omega, show (i (0 : Fin 3)).val < k + 1 by omega⟩
    | ⟨1, _⟩ =>
      have h1 : (i (1 : Fin 3)).val < 1 := (i (1 : Fin 3)).isLt
      exact ⟨Nat.zero_le _, show (i (1 : Fin 3)).val < 0 + 1 by omega⟩
    | ⟨2, _⟩ =>
      have h2 : (i (2 : Fin 3)).val < 512 := (i (2 : Fin 3)).isLt
      exact ⟨Nat.zero_le _, show (i (2 : Fin 3)).val < 0 + 512 by omega⟩

omit [FloatOps F] in
/-- A slot's elements are its rectangle's: the squeeze to 1 × 512 re-indexes the same elements. -/
theorem slot_set (s : Fin 4) : (slotM s : Memref sig .tc .vmem S1x512 .f32).view.set = (slotR s).set := by
  show (((View.whole cc0_scratch0).slice (slotR s)).reshape S1x512 _).set = _
  rw [View.set_reshape, View.set_slice_whole]

omit [FloatOps F] in
/-- Slot `s` is the indices whose first coordinate is `s`. -/
theorem mem_slot (c : Dev nD) (s : Fin 4) (i : Idx ((slotM s : Memref sig .tc .vmem S1x512 .f32).view.loc (c : Thread nD τ))) :
    i ∈ (slotM s : Memref sig .tc .vmem S1x512 .f32).view.set ↔ (i (0 : Fin 3)).val = s.val := by
  rw [slot_set s]
  exact mem_unit_row s.val rfl i

omit [FloatOps F] in
/-- What the load of the own slot reads lies in the slot. -/
theorem own_load_sub (c : Dev nD) :
    (gM : Memref sig .tc .vmem S4x1x512 .f32).view.setOn (Rect.unit (s := S4x1x512) (k0_off1 c) S1x1x512.size (k0_off1_inb c)).toLoadRect.set
      ⊆ (slotM c : Memref sig .tc .vmem S1x512 .f32).view.set := by
  intro i hi
  rw [slot_set c]
  have hi' : i ∈ (Rect.unit (s := S4x1x512) (k0_off1 c) S1x1x512.size (k0_off1_inb c)).set := by
    obtain ⟨j, hj, rfl⟩ := Finset.mem_map.mp hi
    exact hj
  exact (mem_unit_row c.val rfl i).mpr ((mem_unit_row c.val (k0_off1_eq c) i).mp hi')

omit [FloatOps F] in
/-- What the store into the own slot writes lies in the slot. -/
theorem own_store_sub (c : Dev nD) :
    (((gM : Memref sig .tc .vmem S4x1x512 .f32).access (Rect.unit (s := S4x1x512) (k0_off1 c) S1x1x512.size (k0_off1_inb c)) : View sig .tc _ _ _).setOn Finset.univ)
      ⊆ (slotM c : Memref sig .tc .vmem S1x512 .f32).view.set := by
  intro i hi
  rw [slot_set c]
  have hi' : i ∈ (Rect.unit (s := S4x1x512) (k0_off1 c) S1x1x512.size (k0_off1_inb c)).set := by
    rw [View.setOn_univ] at hi
    exact (Finset.ext_iff.mp (View.set_slice_whole cc0_scratch0 _) i).mp hi
  exact (mem_unit_row c.val rfl i).mpr ((mem_unit_row c.val (k0_off1_eq c) i).mp hi')

omit [FloatOps F] in
/-- Every slot's copy credits the same number of units on a DMA semaphore. -/
theorem slot_amount (s : Fin 4) (q : DmaSem sig) : (slotM s : Memref sig .tc .vmem S1x512 .f32).view.amount (.dma q) = N := by
  rfl

omit [FloatOps F] in
/-- The whole scratch is its four slots. -/
theorem scr_split (c : Dev nD) (q : PosShare TreeShare) (f : Buf (Elt F) ((c : Thread nD τ).loc cc0_scratch0)) :
    ((((c : Thread nD τ).loc cc0_scratch0) ↦{q} f : sProp 𝕄)) ⊣⊢ iprop(slotPts c 0 q f ∗ slotPts c 1 q f ∗ slotPts c 2 q f ∗ slotPts c 3 q f) := by
  -- the four slots' element sets, as sets of the scratch's indices
  let A : Fin 4 → Finset (Idx ((c : Thread nD τ).loc cc0_scratch0)) :=
    fun s => (slotM s : Memref sig .tc .vmem S1x512 .f32).view.set
  have hmem : ∀ (s : Fin 4) (i : Idx ((c : Thread nD τ).loc cc0_scratch0)), i ∈ A s ↔ (i (0 : Fin 3)).val = s.val :=
    fun s i => mem_slot c s i
  -- every index has a first coordinate below 4, so lies in one of them
  have huniv : (Finset.univ : Finset (Idx ((c : Thread nD τ).loc cc0_scratch0))) = A 0 ∪ (A 1 ∪ (A 2 ∪ A 3)) := by
    ext i
    simp only [Finset.mem_univ, Finset.mem_union, hmem, true_iff]
    have h4 : (i (0 : Fin 3)).val < 4 := (i (0 : Fin 3)).isLt
    show (i (0 : Fin 3)).val = 0 ∨ (i (0 : Fin 3)).val = 1 ∨ (i (0 : Fin 3)).val = 2 ∨ (i (0 : Fin 3)).val = 3
    omega
  -- and two different slots share no index
  have hdis : ∀ s t : Fin 4, s.val ≠ t.val → Disjoint (A s) (A t) := fun s t hst =>
    Finset.disjoint_left.mpr fun i hs ht => hst (((hmem s i).mp hs).symm.trans ((hmem t i).mp ht))
  unfold slotPts
  rw [huniv]
  refine (Region.is_union ?_).trans (Laws.sep_congr_right ((Region.is_union ?_).trans (Laws.sep_congr_right (Region.is_union ?_))))
  · exact Finset.disjoint_union_right.mpr ⟨hdis 0 1 (by decide), Finset.disjoint_union_right.mpr ⟨hdis 0 2 (by decide), hdis 0 3 (by decide)⟩⟩
  · exact Finset.disjoint_union_right.mpr ⟨hdis 1 2 (by decide), hdis 1 3 (by decide)⟩
  · exact hdis 2 3 (by decide)

omit [FloatOps F] in
/-- A slot's assertion sees its contents only on the slot. -/
theorem slot_congr (c : Dev nD) (s : Fin 4) (q : PosShare TreeShare) (f g : Buf (Elt F) ((c : Thread nD τ).loc cc0_scratch0))
    (h : ∀ i, (i (0 : Fin 3)).val = s.val → f i = g i) : (slotPts c s q f : sProp 𝕄) = slotPts c s q g := by
  unfold slotPts
  exact Region.is_congr fun i hi => h i ((mem_slot c s i).mp hi)

omit [FloatOps F] in
/-- A slot's full share is the three copies' quarters and the kept quarter. -/
theorem slot_shares (c : Dev nD) (s : Fin 4) (f : Buf (Elt F) ((c : Thread nD τ).loc cc0_scratch0)) :
    (slotPts c s fullShare f : sProp 𝕄) ⊣⊢ iprop(slotPts c s (qs 0) f ∗ slotPts c s (qs 1) f ∗ slotPts c s (qs 2) f ∗ slotPts c s qK f) := by
  unfold slotPts
  -- the full share is its two halves, each half its two quarters
  refine (Region.is_share (PosShare.mem_left_op_right fullShare)).trans ?_
  refine (Laws.sep_congr (Region.is_share (PosShare.mem_left_op_right fullShare.left))
    (Region.is_share (PosShare.mem_left_op_right fullShare.right))).trans ?_
  exact Laws.sep_assoc

/-- A store through a rectangle of a whole buffer, read back at the element the rectangle's index `x` lands on,
    is the payload at `x`. -/
theorem write_slice_whole_emb {sg : RefSig} {κ : Kind} (Val : EltTy → Type) (b : Ref sg κ) (r : Rect b.ty.shape)
    (f : b.ty.Contents Val) (w : r.shape.Idx → Val b.ty.elt) (x : r.shape.Idx) :
    ((View.whole b).slice r).write Val f w Finset.univ (r.emb x) = w x :=
  View.read_slice_write_emb (v := View.whole b) r f w (Finset.mem_univ x)

/-- What device `c`'s store of its row sums leaves in its own slot, over any prior contents. -/
theorem stored_own (c : Dev nD) (f0 : Buf (Elt F) ((c : Thread nD τ).loc cc0_scratch0)) (i : Idx ((c : Thread nD τ).loc cc0_scratch0))
    (hi : (i (0 : Fin 3)).val = c.val) :
    ((gM : Memref sig .tc .vmem S4x1x512 .f32).access (Rect.unit (s := S4x1x512) (k0_off1 c) S1x1x512.size (k0_off1_inb c)) : View sig .tc _ _ _).write (Elt F) f0
        (k0_pay2 (xs m ρ c)) Finset.univ i = gathB m ρ c i := by
  have h1 : (i (1 : Fin 3)).val < 1 := (i (1 : Fin 3)).isLt
  have h2 : (i (2 : Fin 3)).val < 512 := (i (2 : Fin 3)).isLt
  -- the index of the stored row that lands at i: (0, 0, i's last coordinate)
  let x : S1x1x512.Idx := ValueIdx.ix3 (0 : Fin 1) (0 : Fin 1) (⟨(i (2 : Fin 3)).val, h2⟩ : Fin 512)
  have e0 : k0_off1 c = ![c.val, 0, 0] := k0_off1_eq c
  -- the row's rectangle starts at (c, 0, 0) with unit strides, so x lands at (c, 0, i's last coordinate) = i
  have hx : (Rect.unit (s := S4x1x512) (k0_off1 c) S1x1x512.size (k0_off1_inb c)).emb x = i := by
    funext a
    apply Fin.ext
    match a with
    | ⟨0, _⟩ =>
      show k0_off1 c (0 : Fin 3) + 1 * 0 = (i (0 : Fin 3)).val
      rw [e0]
      show c.val + 1 * 0 = (i (0 : Fin 3)).val
      omega
    | ⟨1, _⟩ =>
      show k0_off1 c (1 : Fin 3) + 1 * 0 = (i (1 : Fin 3)).val
      rw [e0]
      show 0 + 1 * 0 = (i (1 : Fin 3)).val
      omega
    | ⟨2, _⟩ =>
      show k0_off1 c (2 : Fin 3) + 1 * (i (2 : Fin 3)).val = (i (2 : Fin 3)).val
      rw [e0]
      show 0 + 1 * (i (2 : Fin 3)).val = (i (2 : Fin 3)).val
      omega
  -- the store leaves its payload there
  have hw := write_slice_whole_emb (Elt F) cc0_scratch0
    (Rect.unit (s := S4x1x512) (k0_off1 c) S1x1x512.size (k0_off1_inb c)) f0 (k0_pay2 (xs m ρ c)) x
  rw [hx] at hw
  refine hw.trans ?_
  have hc : (⟨(i (0 : Fin 3)).val, (i (0 : Fin 3)).isLt⟩ : Dev nD) = c := Fin.ext hi
  have hg : gathB m ρ c i = Out.gath (xs m ρ) i := rfl
  rw [hg]
  unfold Out.gath
  rw [hc]

/-- What the landing of device `p`'s copy of its slot `p` leaves in slot `p` of device `c`, over any prior contents. -/
theorem landed_slot (c p : Dev nD) (fd : Buf (Elt F) ((c : Thread nD τ).loc cc0_scratch0)) (i : Idx ((c : Thread nD τ).loc cc0_scratch0))
    (hi : (i (0 : Fin 3)).val = p.val) :
    (slotM p : Memref sig .tc .vmem S1x512 .f32).view.write (Elt F) fd ((slotM p : Memref sig .tc .vmem S1x512 .f32).view.read (Elt F) (gathB m ρ p)) Finset.univ i
      = gathB m ρ c i := by
  -- writing what the slot reads off the sender's gathered sums pieces those in on the slot, and i lies in it;
  -- the gathered sums are one function of the four input blocks on every device
  rw [View.write_read_eq_piecewise, View.setOn_univ, Finset.piecewise_eq_of_mem _ _ _ ((mem_slot c p i).mpr hi)]
  rfl

/-- The whole scratch read back is the gathered sums. -/
theorem read_gath (c : Dev nD) :
    (gM : Memref sig .tc .vmem S4x1x512 .f32).view.readAt (Elt F) (Rect.unit (s := S4x1x512) ![0, 0, 0] S4x1x512.size inb_S4x1x512_S4x1x512_0_0_0).toLoadRect (gathB m ρ c)
      = Out.gath (xs m ρ) := by
  have hz : (![0, 0, 0] : Fin 3 → Nat) = fun _ => 0 := by
    funext a
    match a with
    | ⟨0, _⟩ => rfl
    | ⟨1, _⟩ => rfl
    | ⟨2, _⟩ => rfl
  exact Memref.readAt_unit_zero (Elt F) cc0_scratch0 hz inb_S4x1x512_S4x1x512_0_0_0 (gathB m ρ c)

end Cert.Kernel.Proto

end
-- ==== Proof.K.Ghost.lean ====
/-
  The rounds' ghost state at launch: the twenty-eight cells the protocol runs on (seven a device), the duty tokens as
  minted for each device's OWN cells (its barrier's three, its three send cells', its three receive cells'), what the
  launch element deals each device, the allocation of a device's seven invariants over its own semaphores and the
  runtime's barrier semaphore, and the dealing of each token to the device that PAYS its duty (a barrier duty and a
  receive duty go `d + 1` places back around the mesh).
-/
import proofs.«900605_g7700000000000606_dist_softmax_colshard_i_m512_n256_v7x_i4_bf16_1_alg».proof.Proof.K.Proto
import proofs.«900605_g7700000000000606_dist_softmax_colshard_i_m512_n256_v7x_i4_bf16_1_alg».proof.Proof.K.Tables

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Four things indexed by the slots, regrouped as device `c`'s own and its three peers'. -/
theorem slots_perm (c : Dev nD) (Φ : Fin 4 → sProp 𝕄) :
    iprop(Φ 0 ∗ Φ 1 ∗ Φ 2 ∗ Φ 3) ⊣⊢ iprop(Φ c ∗ Φ (peer c 0) ∗ Φ (peer c 1) ∗ Φ (peer c 2)) := by
  fin_cases c
  · exact .rfl
  · show iprop(Φ 0 ∗ Φ 1 ∗ Φ 2 ∗ Φ 3) ⊣⊢ iprop(Φ 1 ∗ Φ 2 ∗ Φ 3 ∗ Φ 0)
    constructor
    · iintro ⟨H0, H1, H2, H3⟩
      isplitl [H1]; · iexact H1
      isplitl [H2]; · iexact H2
      isplitl [H3]; · iexact H3
      iexact H0
    · iintro ⟨H1, H2, H3, H0⟩
      isplitl [H0]; · iexact H0
      isplitl [H1]; · iexact H1
      isplitl [H2]; · iexact H2
      iexact H3
  · show iprop(Φ 0 ∗ Φ 1 ∗ Φ 2 ∗ Φ 3) ⊣⊢ iprop(Φ 2 ∗ Φ 3 ∗ Φ 0 ∗ Φ 1)
    constructor
    · iintro ⟨H0, H1, H2, H3⟩
      isplitl [H2]; · iexact H2
      isplitl [H3]; · iexact H3
      isplitl [H0]; · iexact H0
      iexact H1
    · iintro ⟨H2, H3, H0, H1⟩
      isplitl [H0]; · iexact H0
      isplitl [H1]; · iexact H1
      isplitl [H2]; · iexact H2
      iexact H3
  · show iprop(Φ 0 ∗ Φ 1 ∗ Φ 2 ∗ Φ 3) ⊣⊢ iprop(Φ 3 ∗ Φ 0 ∗ Φ 1 ∗ Φ 2)
    constructor
    · iintro ⟨H0, H1, H2, H3⟩
      isplitl [H3]; · iexact H3
      isplitl [H0]; · iexact H0
      isplitl [H1]; · iexact H1
      iexact H2
    · iintro ⟨H3, H0, H1, H2⟩
      isplitl [H0]; · iexact H0
      isplitl [H1]; · iexact H1
      isplitl [H2]; · iexact H2
      iexact H3

theorem ownSemFacts : Pipeline.OwnSemFacts cfg0.spec osem := by decide

omit [FloatOps F] in
theorem kcell_injective : Function.Injective (kcell : Dev nD × Fin 7 → GSem nD τ sig) := by decide
def ringCells : Finset (GSem nD τ sig) := Finset.univ.map ⟨kcell, kcell_injective⟩

/-- A device's own cells' duty tokens as minted: (device, which): its barrier's three duties, its three send cells' duty 0,
    its three receive cells' duty 0. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 (peer cj.1 0), 0, 0) | 7 => (recvCell cj.1 (peer cj.1 1), 0, 0) | 8 => (recvCell cj.1 (peer cj.1 2), 0, 0)
omit [FloatOps F] in
theorem tokOf_injective : Function.Injective (tokOf : Dev nD × Fin 9 → GSem nD τ sig × ℕ × Fin 3) := by decide
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 3 => dutyTok ER (barCell c) 0 d)
    ∗ (bigSep Finset.univ fun k : Fin 3 => dutyTok ER (sendCell c k) 0 (0 : Fin 3))
    ∗ (bigSep Finset.univ fun d : Fin 3 => dutyTok ER (recvCell c (peer c d)) 0 (0 : Fin 3)))

/-- What the launch element deals device `c`. -/
def G (c : Dev nD) : sProp 𝕄 :=
  iprop((bigSep Finset.univ fun k : Fin 7 => roundState ER (Rd m ρ) (kcell (c, k)) 0)
    ∗ (bigSep Finset.univ fun k : Fin 7 => iprop(atPos ER (kcell (c, k)) 0 ∅ 0 ∗ reached ER (kcell (c, k)) 0)) ∗ toks c)

/-- What the global step makes of it: the device's ghost state, and its one untouched own semaphore at zero. -/
def G' (c : Dev nD) : sProp 𝕄 := iprop((∃ K, ghost m ρ K c) ∗ semVal (recvCell c c) 0)

omit [FloatOps F] in
private theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
private theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
private theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The rounds' launch element funds every device's share. -/
theorem fund_rounds : BI.own (ER (initOf ringCells ringToks)) ⊢ (|==> bigSep Finset.univ (G m ρ) : sProp 𝕄) := by
  have hX (Φ : GSem nD τ sig → sProp 𝕄) :
      bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    refine bigSep_mono fun c _ => ?_
    unfold toks
    rw [bigSep_fin9, bigSep_fin3, bigSep_fin3, bigSep_fin3]
    show iprop(dutyTok ER (barCell c) 0 (0 : Fin 3) ∗ dutyTok ER (barCell c) 0 (1 : Fin 3) ∗ dutyTok ER (barCell c) 0 (2 : Fin 3)
        ∗ dutyTok ER (sendCell c 0) 0 (0 : Fin 3) ∗ dutyTok ER (sendCell c 1) 0 (0 : Fin 3) ∗ dutyTok ER (sendCell c 2) 0 (0 : Fin 3)
        ∗ dutyTok ER (recvCell c (peer c 0)) 0 (0 : Fin 3) ∗ dutyTok ER (recvCell c (peer c 1)) 0 (0 : Fin 3)
        ∗ dutyTok ER (recvCell c (peer c 2)) 0 (0 : Fin 3)) ⊢ _
    iintro ⟨H0, H1, H2, H3, H4, H5, H6, H7, H8⟩
    isplitl [H0 H1 H2]
    · isplitl [H0]; · iexact H0
      isplitl [H1]; · iexact H1
      iexact H2
    isplitl [H3 H4 H5]
    · isplitl [H3]; · iexact H3
      isplitl [H4]; · iexact H4
      iexact H5
    isplitl [H6]; · iexact H6
    isplitl [H7]; · iexact H7
    iexact H8
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
private theorem ownSems0_chain (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0 ∗ semVal (recvCell c 3) 0) := by
  rw [Pipeline.ownSems0_eq_of_list c osem [0, 1, 2, 3, 4, 5, 6] (by decide) (by decide)]; rfl

omit [FloatOps F] in
/-- The barrier semaphore is the launch's one unscoped semaphore. -/
private theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's eight semaphores at zero: the seven its cells stand on, and its own slot's receive semaphore. -/
private theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ semVal (recvCell c c) 0) : sProp 𝕄) := by
  rw [ownSems0_chain, unscopedSems0_eq, bigSep_fin7]
  iintro ⟨⟨HS0, HS1, HS2, HR⟩, HB⟩
  ihave HR' := (slots_perm c (fun s : Fin 4 => (semVal (recvCell c s) 0 : sProp 𝕄))).1 $$ HR
  icases HR' with ⟨HRc, HR0, HR1, HR2⟩
  isplitr [HRc]
  · isplitl [HB]; · iexact HB
    isplitl [HS0]; · iexact HS0
    isplitl [HS1]; · iexact HS1
    isplitl [HS2]; · iexact HS2
    isplitl [HR0]; · iexact HR0
    isplitl [HR1]; · iexact HR1
    iexact HR2
  iexact HRc

/-- One device's seven invariants, allocated over its semaphores at zero and what the launch element dealt it. -/
private theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 7 => iprop(∃ κ : ℕ, cellInv ER (Rd m ρ) κ (kcell (c, k))))
          ∗ (bigSep Finset.univ fun k : Fin 7 => iprop(atPos ER (kcell (c, k)) 0 ∅ 0 ∗ reached ER (kcell (c, k)) 0)) ∗ toks c
          ∗ semVal (recvCell c c) 0) := by
  unfold G
  iintro ⟨Hos, Hus, Hst, Hat, Htok⟩
  ihave Hv := (sems0_eq (F := F) c) $$ [Hos Hus]
  · isplitl [Hos] <;> iassumption
  icases Hv with ⟨Hv, Hcc⟩
  imod (show iprop((bigSep Finset.univ fun k : Fin 7 => semVal (kcell (c, k)) 0) ∗ bigSep Finset.univ fun k : Fin 7 => roundState ER (Rd m ρ) (kcell (c, k)) 0)
      ⊢ (|={Set.univ}=> bigSep Finset.univ fun k : Fin 7 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hcc

private theorem records_persistent (K : Dev nD × Fin 7 → ℕ) : BI.Persistent (records m ρ K) := by
  unfold records; infer_instance

omit [FloatOps F] in
/-- A barrier duty's tokens, one a device, dealt `d + 1` places back: each to the device that pays it. -/
private theorem bar_around (d : Fin 3) :
    bigSep Finset.univ (fun c : Dev nD => (dutyTok ER (barCell c) 0 d : sProp 𝕄))
      = bigSep Finset.univ (fun c : Dev nD => (dutyTok ER (barCell (peer c d)) 0 d : sProp 𝕄)) :=
  bigSep_univ_equiv (turn d) (fun c : Dev nD => (dutyTok ER (barCell c) 0 d : sProp 𝕄))

omit [FloatOps F] in
/-- Anything indexed by a device and the device `d + 1` places before it, re-indexed from the latter. -/
private theorem turn_bigSep (d : Fin 3) (R : Dev nD → Dev nD → sProp 𝕄) :
    bigSep Finset.univ (fun c : Dev nD => R c (back c d)) = bigSep Finset.univ (fun c : Dev nD => R (peer c d) c) := by
  rw [bigSep_univ_equiv (turn d) (fun c : Dev nD => R c (back c d))]
  exact bigSep_congr fun c _ => by show R (peer c d) (back (peer c d) d) = _; rw [back_peer]

omit [FloatOps F] in
/-- A device's receive token for the slot of the device `d' + 1` places after it goes to that device, which sees the
    receiver `d + 1` places after itself: the two offsets are complementary. -/
private theorem recv_around (d d' : Fin 3) (hd : ∀ c : Dev nD, peer c d' = back c d) :
    bigSep Finset.univ (fun c : Dev nD => (dutyTok ER (recvCell c (peer c d')) 0 (0 : Fin 3) : sProp 𝕄))
      = bigSep Finset.univ (fun c : Dev nD => (dutyTok ER (recvCell (peer c d) c) 0 (0 : Fin 3) : sProp 𝕄)) := by
  have e : (fun c : Dev nD => (dutyTok ER (recvCell c (peer c d')) 0 (0 : Fin 3) : sProp 𝕄))
      = fun c : Dev nD => dutyTok ER (recvCell c (back c d)) 0 (0 : Fin 3) := funext fun c => by rw [hd c]
  rw [e]
  exact turn_bigSep d (fun c s : Dev nD => (dutyTok ER (recvCell c s) 0 (0 : Fin 3) : sProp 𝕄))

omit [FloatOps F] in
/-- The tokens dealt around the mesh: every duty's token to the device that pays it. -/
private theorem toks_around : (bigSep Finset.univ fun c : Dev nD => (toks c : sProp 𝕄)) ⊢ bigSep Finset.univ fun c : Dev nD => payToks c := by
  unfold toks payToks
  simp only [bigSep_fin3, bigSep_sep']
  iintro ⟨⟨HB0, HB1, HB2⟩, HS, HR0, HR1, HR2⟩
  isplitl [HB0 HB1 HB2]
  · isplitl [HB0]; · iapply (Entails.of_eq (bar_around (F := F) 0)); iexact HB0
    isplitl [HB1]; · iapply (Entails.of_eq (bar_around (F := F) 1)); iexact HB1
    iapply (Entails.of_eq (bar_around (F := F) 2)); iexact HB2
  isplitr [HS]
  · isplitl [HR2]; · iapply (Entails.of_eq (recv_around (F := F) 0 2 (by decide))); iexact HR2
    isplitl [HR1]; · iapply (Entails.of_eq (recv_around (F := F) 1 1 (by decide))); iexact HR1
    iapply (Entails.of_eq (recv_around (F := F) 2 0 (by decide))); iexact HR0
  iexact HS

omit [FloatOps F] in
private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

private theorem ghost_intro (K : Dev nD × Fin 7 → ℕ) (c : Dev nD) :
    iprop(records m ρ K ∗ (linear c ∗ semVal (recvCell c c) 0)) ⊢ G' m ρ c := by
  unfold G' ghost
  iintro ⟨HR, Hl, Hs⟩
  isplitl [HR Hl]
  · iexists K
    isplitl [HR]; · iexact HR
    iexact Hl
  iexact Hs

private theorem regroup :
    (bigSep Finset.univ fun c : Dev nD => iprop((bigSep Finset.univ fun k : Fin 7 => iprop(∃ κ : ℕ, cellInv ER (Rd m ρ) κ (kcell (c, k))))
          ∗ (bigSep Finset.univ fun k : Fin 7 => iprop(atPos ER (kcell (c, k)) 0 ∅ 0 ∗ reached ER (kcell (c, k)) 0)) ∗ toks c
          ∗ semVal (recvCell c c) 0) : sProp 𝕄)
      ⊢ bigSep Finset.univ (G' m ρ) := by
  rw [bigSep_sep', bigSep_sep', bigSep_sep', ← bigSep_univ_prod (fun ck : Dev nD × Fin 7 => iprop(∃ κ : ℕ, cellInv ER (Rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hcc⟩
  ihave HK := (BI.bigSep_exists_pi Finset.univ (fun (ck : Dev nD × Fin 7) (κ : ℕ) => (cellInv ER (Rd m ρ) κ (kcell ck) : sProp 𝕄))) $$ HI
  icases HK with ⟨%K, #HI⟩
  ihave Htk := (toks_around (F := F)) $$ Htok
  haveI := records_persistent m ρ K
  iapply (bigSep_with_persistent (R := records m ρ K) fun c _ => ghost_intro m ρ K c)
  isplitr
  · unfold records; isplitl; · iexact HI
    iexact HR
  · iapply (show iprop((bigSep Finset.univ fun c : Dev nD => bigSep Finset.univ fun k : Fin 7 => (atPos ER (kcell (c, k)) 0 ∅ 0 : sProp 𝕄))
          ∗ (bigSep Finset.univ fun c : Dev nD => (payToks c : sProp 𝕄))
          ∗ bigSep Finset.univ fun c : Dev nD => (semVal (recvCell c c) 0 : sProp 𝕄))
        ⊢ bigSep Finset.univ fun c : Dev nD => iprop(linear c ∗ semVal (recvCell c c) 0) from by
          unfold linear
          rw [bigSep_sep', bigSep_sep']
          iintro ⟨H1, H2, H3⟩
          isplitl [H1 H2]
          · isplitl [H1] <;> iassumption
          iexact H3)
    isplitl [Hat]; · iexact Hat
    isplitl [Htk]; · iexact Htk
    iexact Hcc

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

omit [FloatOps F] in
/-- The seven own semaphores of a device, one by one. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0 ∗ semVal (recvCell c 3) 0) := by
  rw [Pipeline.ownSems0_eq_of_list c osem [0, 1, 2, 3, 4, 5, 6] (by decide) (by decide)]; rfl

end Cert.Kernel.Proto

end
-- ==== Proof.K.Body.lean ====
/-
  One device's kernel body, stepped once at a symbolic device `c`: the three entry signals (each handing a peer the slot
  it will write), the block's exponentials and row sums stored into the device's own slot, the barrier wait (the three
  peers' slots come with it), the three copies of the own slot (each through a quarter share of it), the three receive
  waits (the peers' sums land), the whole scratch read through the kept quarter, the result stored, the three send
  waits (the quarters come back), and the scratch whole again.
-/
import proofs.«900605_g7700000000000606_dist_softmax_colshard_i_m512_n256_v7x_i4_bf16_1_alg».proof.Proof.K.Proto
import proofs.«900605_g7700000000000606_dist_softmax_colshard_i_m512_n256_v7x_i4_bf16_1_alg».proof.Proof.K.Tables
import proofs.«900605_g7700000000000606_dist_softmax_colshard_i_m512_n256_v7x_i4_bf16_1_alg».proof.Proof.K.Geom
import proofs.«900605_g7700000000000606_dist_softmax_colshard_i_m512_n256_v7x_i4_bf16_1_alg».proof.Proof.K.Ghost

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Small facts about the mesh and the cells -/

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The device `d + 1` places back is the device `3 - d` places on; going on from a peer by the complementary number of
    places comes back. -/
theorem back0 (c : Dev nD) : back c 0 = peer c 2 := by revert c; decide
theorem back1 (c : Dev nD) : back c 1 = peer c 1 := by revert c; decide
theorem back2 (c : Dev nD) : back c 2 = peer c 0 := by revert c; decide
theorem pp0 (c : Dev nD) : peer (peer c 0) 2 = c := by revert c; decide
theorem pp1 (c : Dev nD) : peer (peer c 1) 1 = c := by revert c; decide
theorem pp2 (c : Dev nD) : peer (peer c 2) 0 = c := by revert c; decide

theorem inv_at (K : Dev nD × Fin 7 → ℕ) (ck : Dev nD × Fin 7) :
    (bigSep Finset.univ fun ck : Dev nD × Fin 7 => (cellInv ER (Rd m ρ) (K ck) (kcell ck) : sProp 𝕄)) ⊢ cellInv ER (Rd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-! ## The program's own spelling of its slots and semaphores -/

theorem slot_of_off (off : Fin 3 → Nat) (h : ∀ a, off a + S1x1x512.size a ≤ S4x1x512.size a) (s : Fin 4) (e : off = slotOff s) :
    (((gM : Memref sig .tc .vmem S4x1x512 .f32).slice (Rect.unit (s := S4x1x512) off S1x1x512.size h) (fun _ => rfl)).squeeze S1x512 squeezes_S1x1x512_S1x512
      : Memref sig .tc .vmem S1x512 .f32) = slotM s := by
  subst e; rfl
theorem recvQ_of_off (off : Fin 1 → Nat) (h : ∀ a, off a + S1.size a ≤ S4.size a) (s : Fin 4) (e : off = ![s.val]) :
    ((cc0_scratch2.slice (Rect.unit (s := S4) off S1.size h)).squeeze S_ squeezes_S1_S_).sem = recvQ s := by
  subst e; rfl

/-- A device's own slot and receive semaphore, and its peers', as the kernel computes them. -/
theorem own_slot_eq (c : Dev nD) :
    (((gM : Memref sig .tc .vmem S4x1x512 .f32).slice (Rect.unit (s := S4x1x512) (k0_off3 c) S1x1x512.size (k0_off3_inb c)) (fun _ => rfl)).squeeze S1x512 squeezes_S1x1x512_S1x512
      : Memref sig .tc .vmem S1x512 .f32) = slotM c := slot_of_off _ _ c (k0_off3_eq c)
theorem peer_slot_eq0 (c : Dev nD) :
    (((gM : Memref sig .tc .vmem S4x1x512 .f32).slice (Rect.unit (s := S4x1x512) (k0_off5 c 1#32) S1x1x512.size (k0_off5_inb c 0)) (fun _ => rfl)).squeeze S1x512 squeezes_S1x1x512_S1x512
      : Memref sig .tc .vmem S1x512 .f32) = slotM (peer c 0) := slot_of_off _ _ _ (k0_off5_eq c ⟨0, by decide⟩)
theorem peer_slot_eq1 (c : Dev nD) :
    (((gM : Memref sig .tc .vmem S4x1x512 .f32).slice (Rect.unit (s := S4x1x512) (k0_off5 c 2#32) S1x1x512.size (k0_off5_inb c 1)) (fun _ => rfl)).squeeze S1x512 squeezes_S1x1x512_S1x512
      : Memref sig .tc .vmem S1x512 .f32) = slotM (peer c 1) := slot_of_off _ _ _ (k0_off5_eq c ⟨1, by decide⟩)
theorem peer_slot_eq2 (c : Dev nD) :
    (((gM : Memref sig .tc .vmem S4x1x512 .f32).slice (Rect.unit (s := S4x1x512) (k0_off5 c 3#32) S1x1x512.size (k0_off5_inb c 2)) (fun _ => rfl)).squeeze S1x512 squeezes_S1x1x512_S1x512
      : Memref sig .tc .vmem S1x512 .f32) = slotM (peer c 2) := slot_of_off _ _ _ (k0_off5_eq c ⟨2, by decide⟩)
theorem recv_own_eq (c : Dev nD) :
    ((cc0_scratch2.slice (Rect.unit (s := S4) (k0_off2 c) S1.size (k0_off2_inb c))).squeeze S_ squeezes_S1_S_).sem = recvQ c :=
  recvQ_of_off _ _ c (k0_off2_eq c)
theorem recv_peer_eq0 (c : Dev nD) :
    ((cc0_scratch2.slice (Rect.unit (s := S4) (k0_off4 c 1#32) S1.size (k0_off4_inb c 0))).squeeze S_ squeezes_S1_S_).sem = recvQ (peer c 0) :=
  recvQ_of_off _ _ _ (k0_off4_eq c ⟨0, by decide⟩)
theorem recv_peer_eq1 (c : Dev nD) :
    ((cc0_scratch2.slice (Rect.unit (s := S4) (k0_off4 c 2#32) S1.size (k0_off4_inb c 1))).squeeze S_ squeezes_S1_S_).sem = recvQ (peer c 1) :=
  recvQ_of_off _ _ _ (k0_off4_eq c ⟨1, by decide⟩)
theorem recv_peer_eq2 (c : Dev nD) :
    ((cc0_scratch2.slice (Rect.unit (s := S4) (k0_off4 c 3#32) S1.size (k0_off4_inb c 2))).squeeze S_ squeezes_S1_S_).sem = recvQ (peer c 2) :=
  recvQ_of_off _ _ _ (k0_off4_eq c ⟨2, by decide⟩)

/-! ## Whole-buffer reads and the result's store -/

abbrev rX : Rect S512x256 := Rect.unit (s := S512x256) ![0, 0] S512x256.size inb_S512x256_S512x256_0_0
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S512x256 .bf16).access rX : View sig .tc _ _ _).write (Elt F) f w Finset.univ = w :=
  Memref.write_access_unit_zero_univ (Elt F) cc0_stg1_0 hz2 _ f w

/-- A slot's copy credits the slot's units. -/
theorem slot_credit (s : Fin 4) : (slotM s : Memref sig .tc .vmem S1x512 .f32).view.dmaCredit = N := slot_amount s 0

set_option maxHeartbeats 1600000 in
/-- Copy number `d` of device `c`: its own slot, read through the quarter share `qs d`, into slot `c` of the device `peer c d`
    (the program's `n`), which `c` holds at any contents; the send cell's duty will hand the quarter back, the peer's receive
    cell's duty hands the peer its slot `c` holding the gathered sums. -/
theorem wp_send_slot (c n : Dev nD) (d : Fin 3) (hn : n = peer c d) (κ₁ κ₂ : ℕ)
    {hsc : (slotM c : Memref sig (Dev.tc n : Thread nD τ).2.kind .vmem S1x512 .f32).view.ref.isScScratch = false}
    {hsrc : (slotM c : Memref sig .tc .vmem S1x512 .f32).view.WordExact} {hdst : (slotM c : Memref sig .tc .vmem S1x512 .f32).view.WordExact}
    {hsem : DmaTarget.Typed .vmem (.dma (recvQ c)) (.remote (Dev.tc n : Thread nD τ) (slotM c : Memref sig .tc .vmem S1x512 .f32) (.dma (sendQ d)) hsc)}
    {α : Type} {Q : α → sProp 𝕄} {k : PUnit → Prog (TpuEff nD τ sig (Elt F) Λ₀ .tc) α}
    (fn : Buf (Elt F) ((peer c d : Thread nD τ).loc cc0_scratch0)) (O₀ O : CellTallies nD τ sig Unit)
    (hO : O₀ = O + tallyAt (recvCell (peer c d) c) () N) (W : Waits sig Unit) :
    iprop(cellInv ER (Rd m ρ) κ₁ (sendCell c d) ∗ cellInv ER (Rd m ρ) κ₂ (recvCell (peer c d) c)
        ∗ slotPts c c (qs d) (gathB m ρ c) ∗ slotPts (peer c d) c fullShare fn
        ∗ owes (c : Thread nD τ) O₀ W
        ∗ dutyTok ER (sendCell c d) 0 (0 : Fin 3) ∗ reached ER (sendCell c d) 0
        ∗ dutyTok ER (recvCell (peer c d) c) 0 (0 : Fin 3) ∗ reached ER (recvCell (peer c d) c) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc n : Thread nD τ) (slotM c) (.dma (sendQ d)) hsc) (.dma (recvQ c)) hsrc hdst hsem) k) Q) := by
  subst hn
  unfold slotPts
  exact Rounds.wp_send_pointsTo 𝒱₀ ER (Rd m ρ) (c : Thread nD τ) none
    (c' := (peer c d : Thread nD τ)) (src := (slotM c : Memref sig .tc .vmem S1x512 .f32)) (dst := (slotM c : Memref sig .tc .vmem S1x512 .f32))
    (sS := .dma (sendQ d)) (sem := .dma (recvQ c)) (hsc := hsc) (hsrc := hsrc) (hdst := hdst) (hsem := hsem) (k := k) (Q := Q)
    (κ₁ := κ₁) (κ₂ := κ₂) (r₁ := 0) (r₂ := 0) (d₁ := 0) (d₂ := 0) (fs := gathB m ρ c) (fd := fn) (q := qs d)
    (by rw [duties_send]; exact Finset.mem_singleton_self _) (by rw [duties_recv]; exact Finset.mem_singleton_self _)
    () () N (slot_amount c _) (amount_send m ρ c d 0) (amount_recv m ρ (peer c d) c 0) O hO (W := W)
    (by rw [payload_send]; exact BI.Entails.refl _)
    (by rw [payload_recv]; unfold recvPay slotPts
        exact Entails.of_eq (slot_congr (peer c d) c fullShare _ _ (fun i hi => landed_slot m ρ (peer c d) c fn i hi)))

set_option maxHeartbeats 800000 in
/-- The body, from `bodyPre` to `bodyPost`. -/
theorem sound_body (K : Dev nD × Fin 7 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  -- the program's own spelling of its devices, slots and semaphores, in closed form
  have e1 : k0_off1 c = slotOff c := k0_off1_eq c
  have e3 : k0_off3 c = slotOff c := k0_off3_eq c
  have e2 : k0_off2 c = ![c.val] := k0_off2_eq c
  have e41 : k0_off4 c 1#32 = ![(peer c 0).val] := k0_off4_eq c ⟨0, by decide⟩
  have e42 : k0_off4 c 2#32 = ![(peer c 1).val] := k0_off4_eq c ⟨1, by decide⟩
  have e43 : k0_off4 c 3#32 = ![(peer c 2).val] := k0_off4_eq c ⟨2, by decide⟩
  have e51 : k0_off5 c 1#32 = slotOff (peer c 0) := k0_off5_eq c ⟨0, by decide⟩
  have e52 : k0_off5 c 2#32 = slotOff (peer c 1) := k0_off5_eq c ⟨1, by decide⟩
  have e53 : k0_off5 c 3#32 = slotOff (peer c 2) := k0_off5_eq c ⟨2, by decide⟩
  simp only [e1, e2, e3, e41, e42, e43, e51, e52, e53, dev1_eq c, dev2_eq c, dev3_eq c, dev4_eq c, dev5_eq c, dev6_eq c]
  unfold bodyPre ghost records linear payToks creds
  simp only [bigSep_fin3, bigSep_fin7]
  iintro ⟨⟨⟨⟨⟨#HI, #HR⟩, ⟨HaB, HaS0, HaS1, HaS2, HaV0, HaV1, HaV2⟩, ⟨HtB0, HtB1, HtB2⟩, ⟨HtV0, HtV1, HtV2⟩, ⟨HtS0, HtS1, HtS2⟩⟩,
      HzSelf, ⟨HcB, HcV0, HcV1, HcV2⟩, #Hlev, ⟨%f0, Hscr⟩⟩, Ho, ⟨%d0, %g0, %hg0, Hx⟩, ⟨%d1, %g1, %hg1, Hout⟩⟩, Hk⟩
  have hx : g0 = xs m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  -- the scratch by slots: the device's own, and the three it hands its peers
  unfold scrPts
  ihave Hs := (scr_split c fullShare f0).1 $$ Hscr
  ihave Hs' := (slots_perm c (fun s => (slotPts c s fullShare f0 : sProp 𝕄))).1 $$ Hs
  icases Hs' with ⟨Hown, Hp0, Hp1, Hp2⟩
  -- the three entry signals: signal `d` pays duty `d` of `peer c d`'s barrier cell with the slot that peer will write
  iapply (Rounds.wp_signal 𝒱₀ ER (Rd m ρ) (c : Thread nD τ) none (dst := (peer c 0 : Thread nD τ)) (κ := K (peer c 0, 0))
      (d := 0) (by rw [duties_bar]; exact Finset.mem_univ _) ((amount_bar m ρ (peer c 0) 0).trans (by decide)) () (A5 c) rfl)
    $$ [HO HtB0 Hp0]
  · isplitr; · iapply (inv_at m ρ K (peer c 0, 0)); iexact HI
    isplitl [HO]; · iexact HO
    isplitl [HtB0]; · iexact HtB0
    isplitl [Hp0]
    · rw [payload_bar]; unfold barPay; rw [back_peer]; iexists f0; iexact Hp0
    · iapply (reached_at (F := F) (peer c 0, 0)); iexact HR
  iintro HO
  iapply (Rounds.wp_signal 𝒱₀ ER (Rd m ρ) (c : Thread nD τ) none (dst := (peer c 1 : Thread nD τ)) (κ := K (peer c 1, 0))
      (d := 1) (by rw [duties_bar]; exact Finset.mem_univ _) ((amount_bar m ρ (peer c 1) 1).trans (by decide)) () (A4 c) rfl)
    $$ [HO HtB1 Hp1]
  · isplitr; · iapply (inv_at m ρ K (peer c 1, 0)); iexact HI
    isplitl [HO]; · iexact HO
    isplitl [HtB1]; · iexact HtB1
    isplitl [Hp1]
    · rw [payload_bar]; unfold barPay; rw [back_peer]; iexists f0; iexact Hp1
    · iapply (reached_at (F := F) (peer c 1, 0)); iexact HR
  iintro HO
  iapply (Rounds.wp_signal 𝒱₀ ER (Rd m ρ) (c : Thread nD τ) none (dst := (peer c 2 : Thread nD τ)) (κ := K (peer c 2, 0))
      (d := 2) (by rw [duties_bar]; exact Finset.mem_univ _) ((amount_bar m ρ (peer c 2) 2).trans (by decide)) () (A3 c) rfl)
    $$ [HO HtB2 Hp2]
  · isplitr; · iapply (inv_at m ρ K (peer c 2, 0)); iexact HI
    isplitl [HO]; · iexact HO
    isplitl [HtB2]; · iexact HtB2
    isplitl [Hp2]
    · rw [payload_bar]; unfold barPay; rw [back_peer]; iexists f0; iexact Hp2
    · iapply (reached_at (F := F) (peer c 2, 0)); iexact HR
  iintro HO
  -- the block, read; the own slot read (the value is not used) and stored with the block's row sums
  iapply (wp_load 𝒱₀ (c : Thread nD τ) none Set.univ (m := xM) (Finset.subset_univ _)) $$ Hx; iintro Hx
  rw [read_x]
  ihave Hown := (show (slotPts c c fullShare f0 : sProp 𝕄)
      ⊢ ((gM : Memref sig .tc .vmem S4x1x512 .f32).view.loc (c : Thread nD τ) ↦[(slotM c : Memref sig .tc .vmem S1x512 .f32).view.set]{fullShare} f0)
      from BI.Entails.refl _) $$ Hown
  iapply (wp_load 𝒱₀ (c : Thread nD τ) none Set.univ (m := gM) (S := (slotM c : Memref sig .tc .vmem S1x512 .f32).view.set) (own_load_sub c)) $$ Hown; iintro Hown
  iapply (wp_store 𝒱₀ (c : Thread nD τ) none Set.univ (m := gM) (r := Rect.unit (s := S4x1x512) (k0_off1 c) S1x1x512.size (k0_off1_inb c)) (Mk := Finset.univ)
      (S := (slotM c : Memref sig .tc .vmem S1x512 .f32).view.set) (own_store_sub c)) $$ Hown; iintro Hown
  ihave Hown := (show ((((gM : Memref sig .tc .vmem S4x1x512 .f32).access (Rect.unit (s := S4x1x512) (k0_off1 c) S1x1x512.size (k0_off1_inb c)) : View sig .tc _ _ _).loc (c : Thread nD τ))
        ↦[(slotM c : Memref sig .tc .vmem S1x512 .f32).view.set]{fullShare}
        (((gM : Memref sig .tc .vmem S4x1x512 .f32).access (Rect.unit (s := S4x1x512) (k0_off1 c) S1x1x512.size (k0_off1_inb c)) : View sig .tc _ _ _).write (Elt F) f0 (k0_pay2 (xs m ρ c)) Finset.univ) : sProp 𝕄)
      ⊢ slotPts c c fullShare (gathB m ρ c)
      from Entails.of_eq (slot_congr (F := F) c c fullShare _ (gathB m ρ c) (fun i hi => stored_own m ρ c f0 i hi))) $$ Hown
  -- the own slot's full share: a quarter per copy, a quarter kept
  ihave Hsh := (slot_shares (F := F) c c (gathB m ρ c)).1 $$ Hown
  icases Hsh with ⟨Hq0, Hq1, Hq2, HqK⟩
  -- the WAIT for 3 on the own barrier, owing the three receive credits: the three peers' slots `c` come with it
  iapply (Rounds.wp_wait_rest_token 𝒱₀ ER (Rd m ρ) (c : Thread nD τ) none (κ := K (c, 0))
      (wpE_semWait_eq 𝒱₀ (c : Thread nD τ) none Set.univ) (Set.mem_univ _) () (O := A3 c) (R := 0) (m := 0) (T := ∅)
      (by rw [expect_bar]; decide)) $$ [HcB HO HaB]
  · isplitr; · iapply (inv_at m ρ K (c, 0)); iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  rw [back0, back1, back2]
  icases Hp with ⟨⟨%fn2, Hd2⟩, ⟨%fn1, Hd1⟩, ⟨%fn0, Hd0⟩⟩
  -- the program's slots and semaphores by their numbers
  simp only [own_slot_eq c, peer_slot_eq0 c, peer_slot_eq1 c, peer_slot_eq2 c, recv_own_eq c, recv_peer_eq0 c, recv_peer_eq1 c, recv_peer_eq2 c]
  -- the three COPIES of the own slot
  iapply (wp_send_slot m ρ c _ 0 (dev4_eq c) (K (c, 1)) (K (peer c 0, 6)) fn0 (A3 c) (A2 c) rfl _) $$ [Hq0 Hd0 HO HtS0 HtV0]
  · isplitr; · iapply (inv_at m ρ K (c, 1)); iexact HI
    isplitr
    · ihave Hi := (inv_at m ρ K (peer c 0, 6)) $$ HI
      rw [show kcell (peer c 0, 6) = recvCell (peer c 0) c from by show recvCell (peer c 0) (peer (peer c 0) 2) = _; rw [pp0]]
      iexact Hi
    isplitl [Hq0]; · iexact Hq0
    isplitl [Hd0]; · iexact Hd0
    isplitl [HO]; · iexact HO
    isplitl [HtS0]; · iexact HtS0
    isplitr; · iapply (reached_at (F := F) (c, 1)); iexact HR
    isplitl [HtV0]; · iexact HtV0
    ihave Hi := (reached_at (F := F) (peer c 0, 6)) $$ HR
    rw [show kcell (peer c 0, 6) = recvCell (peer c 0) c from by show recvCell (peer c 0) (peer (peer c 0) 2) = _; rw [pp0]]
    iexact Hi
  iintro ⟨HcS0, HO⟩
  -- (the rest of the chain)
  iapply (wp_send_slot m ρ c _ 1 (dev5_eq c) (K (c, 2)) (K (peer c 1, 5)) fn1 (A2 c) (A1 c) rfl _) $$ [Hq1 Hd1 HO HtS1 HtV1]
  · isplitr; · iapply (inv_at m ρ K (c, 2)); iexact HI
    isplitr
    · ihave Hi := (inv_at m ρ K (peer c 1, 5)) $$ HI
      rw [show kcell (peer c 1, 5) = recvCell (peer c 1) c from by show recvCell (peer c 1) (peer (peer c 1) 1) = _; rw [pp1]]
      iexact Hi
    isplitl [Hq1]; · iexact Hq1
    isplitl [Hd1]; · iexact Hd1
    isplitl [HO]; · iexact HO
    isplitl [HtS1]; · iexact HtS1
    isplitr; · iapply (reached_at (F := F) (c, 2)); iexact HR
    isplitl [HtV1]; · iexact HtV1
    ihave Hi := (reached_at (F := F) (peer c 1, 5)) $$ HR
    rw [show kcell (peer c 1, 5) = recvCell (peer c 1) c from by show recvCell (peer c 1) (peer (peer c 1) 1) = _; rw [pp1]]
    iexact Hi
  iintro ⟨HcS1, HO⟩
  iapply (wp_send_slot m ρ c _ 2 (dev6_eq c) (K (c, 3)) (K (peer c 2, 4)) fn2 (A1 c) 0 (by unfold A1; rw [zero_add]) _) $$ [Hq2 Hd2 HO HtS2 HtV2]
  · isplitr; · iapply (inv_at m ρ K (c, 3)); iexact HI
    isplitr
    · ihave Hi := (inv_at m ρ K (peer c 2, 4)) $$ HI
      rw [show kcell (peer c 2, 4) = recvCell (peer c 2) c from by show recvCell (peer c 2) (peer (peer c 2) 0) = _; rw [pp2]]
      iexact Hi
    isplitl [Hq2]; · iexact Hq2
    isplitl [Hd2]; · iexact Hd2
    isplitl [HO]; · iexact HO
    isplitl [HtS2]; · iexact HtS2
    isplitr; · iapply (reached_at (F := F) (c, 3)); iexact HR
    isplitl [HtV2]; · iexact HtV2
    ihave Hi := (reached_at (F := F) (peer c 2, 4)) $$ HR
    rw [show kcell (peer c 2, 4) = recvCell (peer c 2) c from by show recvCell (peer c 2) (peer (peer c 2) 0) = _; rw [pp2]]
    iexact Hi
  iintro ⟨HcS2, HO⟩
  -- the three receive WAITS: each peer's sums land in its slot
  iapply (Rounds.wp_wait_rest_token 𝒱₀ ER (Rd m ρ) (c : Thread nD τ) none (κ := K (c, 4))
      (wpE_waitDma2_eq 𝒱₀ (c : Thread nD τ) none Set.univ) (Set.mem_univ _) () (O := 0) (R := 0) (m := 0) (T := ∅)
      (by rw [Nat.zero_add, expect_recv])) $$ [HcV0 HO HaV0]
  · isplitr; · iapply (inv_at m ρ K (c, 4)); iexact HI
    isplitl [HcV0]; · iexact HcV0
    isplitl [HO]; · iexact HO
    isplitr; · rw [MayWait_zero]; iempintro
    iexact HaV0
  iintro ⟨HO, HaV0, -, Hpay⟩
  ihave Hr0 := (Entails.of_eq (rest_recv m ρ c (peer c 0))) $$ Hpay
  iapply (Rounds.wp_wait_rest_token 𝒱₀ ER (Rd m ρ) (c : Thread nD τ) none (κ := K (c, 5))
      (wpE_waitDma2_eq 𝒱₀ (c : Thread nD τ) none Set.univ) (Set.mem_univ _) () (O := 0) (R := 0) (m := 0) (T := ∅)
      (by rw [Nat.zero_add, expect_recv])) $$ [HcV1 HO HaV1]
  · isplitr; · iapply (inv_at m ρ K (c, 5)); iexact HI
    isplitl [HcV1]; · iexact HcV1
    isplitl [HO]; · iexact HO
    isplitr; · rw [MayWait_zero]; iempintro
    iexact HaV1
  iintro ⟨HO, HaV1, -, Hpay⟩
  ihave Hr1 := (Entails.of_eq (rest_recv m ρ c (peer c 1))) $$ Hpay
  iapply (Rounds.wp_wait_rest_token 𝒱₀ ER (Rd m ρ) (c : Thread nD τ) none (κ := K (c, 6))
      (wpE_waitDma2_eq 𝒱₀ (c : Thread nD τ) none Set.univ) (Set.mem_univ _) () (O := 0) (R := 0) (m := 0) (T := ∅)
      (by rw [Nat.zero_add, expect_recv])) $$ [HcV2 HO HaV2]
  · isplitr; · iapply (inv_at m ρ K (c, 6)); iexact HI
    isplitl [HcV2]; · iexact HcV2
    isplitl [HO]; · iexact HO
    isplitr; · rw [MayWait_zero]; iempintro
    iexact HaV2
  iintro ⟨HO, HaV2, -, Hpay⟩
  ihave Hr2 := (Entails.of_eq (rest_recv m ρ c (peer c 2))) $$ Hpay
  unfold recvPay
  -- the whole scratch read through the kept quarter of every slot
  ihave Hs0 := (slot_shares (F := F) c (peer c 0) (gathB m ρ c)).1 $$ Hr0
  icases Hs0 with ⟨Ha0, Hb0, Hc0, Hk0⟩
  ihave Hs1 := (slot_shares (F := F) c (peer c 1) (gathB m ρ c)).1 $$ Hr1
  icases Hs1 with ⟨Ha1, Hb1, Hc1, Hk1⟩
  ihave Hs2 := (slot_shares (F := F) c (peer c 2) (gathB m ρ c)).1 $$ Hr2
  icases Hs2 with ⟨Ha2, Hb2, Hc2, Hk2⟩
  ihave Hall := (slots_perm c (fun s => (slotPts c s qK (gathB m ρ c) : sProp 𝕄))).2 $$ [HqK Hk0 Hk1 Hk2]
  · isplitl [HqK]; · iexact HqK
    isplitl [Hk0]; · iexact Hk0
    isplitl [Hk1]; · iexact Hk1
    iexact Hk2
  ihave Hwh := (scr_split c qK (gathB m ρ c)).2 $$ Hall
  iapply (wp_load 𝒱₀ (c : Thread nD τ) none Set.univ (m := gM) (Finset.subset_univ _)) $$ Hwh; iintro Hwh
  rw [read_gath]
  ihave Hall := (scr_split c qK (gathB m ρ c)).1 $$ Hwh
  ihave Hall' := (slots_perm c (fun s => (slotPts c s qK (gathB m ρ c) : sProp 𝕄))).1 $$ Hall
  icases Hall' with ⟨HqK, Hk0, Hk1, Hk2⟩
  ihave Hr0 := (slot_shares (F := F) c (peer c 0) (gathB m ρ c)).2 $$ [Ha0 Hb0 Hc0 Hk0]
  · isplitl [Ha0]; · iexact Ha0
    isplitl [Hb0]; · iexact Hb0
    isplitl [Hc0]; · iexact Hc0
    iexact Hk0
  ihave Hr1 := (slot_shares (F := F) c (peer c 1) (gathB m ρ c)).2 $$ [Ha1 Hb1 Hc1 Hk1]
  · isplitl [Ha1]; · iexact Ha1
    isplitl [Hb1]; · iexact Hb1
    isplitl [Hc1]; · iexact Hc1
    iexact Hk1
  ihave Hr2 := (slot_shares (F := F) c (peer c 2) (gathB m ρ c)).2 $$ [Ha2 Hb2 Hc2 Hk2]
  · isplitl [Ha2]; · iexact Ha2
    isplitl [Hb2]; · iexact Hb2
    isplitl [Hc2]; · iexact Hc2
    iexact Hk2
  -- the result: read (the value is not used) and stored
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the three send WAITS: the quarters of the own slot come back
  iapply (Rounds.wp_wait_rest_token 𝒱₀ ER (Rd m ρ) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_send m ρ c 0).symm)) $$ [HcS0 HO HaS0]
  · isplitr; · iapply (inv_at m ρ K (c, 1)); iexact HI
    isplitl [HcS0]; · iexact HcS0
    isplitl [HO]; · iexact HO
    isplitr; · rw [MayWait_zero]; iempintro
    iexact HaS0
  iintro ⟨HO, HaS0, -, Hpay⟩
  ihave Hq0 := (Entails.of_eq (rest_send m ρ c 0)) $$ [Hpay]
  · iexact Hpay
  iapply (Rounds.wp_wait_rest_token 𝒱₀ ER (Rd m ρ) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_send m ρ c 1).symm)) $$ [HcS1 HO HaS1]
  · isplitr; · iapply (inv_at m ρ K (c, 2)); iexact HI
    isplitl [HcS1]; · iexact HcS1
    isplitl [HO]; · iexact HO
    isplitr; · rw [MayWait_zero]; iempintro
    iexact HaS1
  iintro ⟨HO, HaS1, -, Hpay⟩
  ihave Hq1 := (Entails.of_eq (rest_send m ρ c 1)) $$ [Hpay]
  · iexact Hpay
  iapply (Rounds.wp_wait_rest_token 𝒱₀ ER (Rd m ρ) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_send m ρ c 2).symm)) $$ [HcS2 HO HaS2]
  · isplitr; · iapply (inv_at m ρ K (c, 3)); iexact HI
    isplitl [HcS2]; · iexact HcS2
    isplitl [HO]; · iexact HO
    isplitr; · rw [MayWait_zero]; iempintro
    iexact HaS2
  iintro ⟨HO, HaS2, -, Hpay⟩
  ihave Hq2 := (Entails.of_eq (rest_send m ρ c 2)) $$ [Hpay]
  · iexact Hpay
  unfold sendPay
  ihave Hown := (slot_shares (F := F) c c (gathB m ρ c)).2 $$ [Hq0 Hq1 Hq2 HqK]
  · isplitl [Hq0]; · iexact Hq0
    isplitl [Hq1]; · iexact Hq1
    isplitl [Hq2]; · iexact Hq2
    iexact HqK
  ihave Hall := (slots_perm c (fun s => (slotPts c s fullShare (gathB m ρ c) : sProp 𝕄))).2 $$ [Hown Hr0 Hr1 Hr2]
  · isplitl [Hown]; · iexact Hown
    isplitl [Hr0]; · iexact Hr0
    isplitl [Hr1]; · iexact Hr1
    iexact Hr2
  ihave Hscr := (scr_split c fullShare (gathB m ρ c)).2 $$ Hall
  -- the six own cells close: their counters at zero are the device's again
  imod (Rounds.cell_close ER (Rd m ρ) (Set.mem_univ (K (c, 1))) (fun h => h) (R := 0 + 1) (duties_later m ρ (sendCell c 0))) $$ [HaS0] with HzS0
  · isplitr; · iapply (inv_at m ρ K (c, 1)); iexact HI
    iexact HaS0
  imod (Rounds.cell_close ER (Rd m ρ) (Set.mem_univ (K (c, 2))) (fun h => h) (R := 0 + 1) (duties_later m ρ (sendCell c 1))) $$ [HaS1] with HzS1
  · isplitr; · iapply (inv_at m ρ K (c, 2)); iexact HI
    iexact HaS1
  imod (Rounds.cell_close ER (Rd m ρ) (Set.mem_univ (K (c, 3))) (fun h => h) (R := 0 + 1) (duties_later m ρ (sendCell c 2))) $$ [HaS2] with HzS2
  · isplitr; · iapply (inv_at m ρ K (c, 3)); iexact HI
    iexact HaS2
  imod (Rounds.cell_close ER (Rd m ρ) (Set.mem_univ (K (c, 4))) (fun h => h) (R := 0 + 1) (duties_later m ρ (recvCell c (peer c 0)))) $$ [HaV0] with HzV0
  · isplitr; · iapply (inv_at m ρ K (c, 4)); iexact HI
    iexact HaV0
  imod (Rounds.cell_close ER (Rd m ρ) (Set.mem_univ (K (c, 5))) (fun h => h) (R := 0 + 1) (duties_later m ρ (recvCell c (peer c 1)))) $$ [HaV1] with HzV1
  · isplitr; · iapply (inv_at m ρ K (c, 5)); iexact HI
    iexact HaV1
  imod (Rounds.cell_close ER (Rd m ρ) (Set.mem_univ (K (c, 6))) (fun h => h) (R := 0 + 1) (duties_later m ρ (recvCell c (peer c 2)))) $$ [HaV2] with HzV2
  · isplitr; · iapply (inv_at m ρ K (c, 6)); iexact HI
    iexact HaV2
  rw [wp_ret]; imodintro
  iapply Hk
  unfold bodyPost Φ₁ Dat.owesAt Pipeline.owesWithin scrPts
  rw [show (dats m ρ 0 c).owed t₀.succ = 0 from rfl]
  simp only [bigSep_fin3]
  isplitl [Hscr HzSelf HzS0 HzS1 HzS2 HzV0 HzV1 HzV2]
  · isplitl [Hscr]; · iexact Hscr
    isplitl [HzSelf]; · iexact HzSelf
    isplitl [HzS0 HzS1 HzS2]
    · isplitl [HzS0]; · iexact HzS0
      isplitl [HzS1]; · iexact HzS1
      iexact HzS2
    · isplitl [HzV0]; · iexact HzV0
      isplitl [HzV1]; · iexact HzV1
      iexact HzV2
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hz, Hcr, Hlev⟩, Hscr⟩, Ho, Hx, Hout⟩
  iapply (sound_body m ρ K c fun _ => bodyPost m ρ c)
  unfold bodyPre
  isplitr []
  · isplitl [Hg Hz Hcr Hlev Hscr]
    · isplitl [Hg]; · iexact Hg
      isplitl [Hz]; · iexact Hz
      isplitl [Hcr]; · iexact Hcr
      isplitl [Hlev]; · iexact Hlev
      iexact Hscr
    isplitl [Ho]; · iexact Ho
    isplitl [Hx] <;> iassumption
  · iintro H; iexact H

/-- info: 'Cert.Kernel.Proto.body_obligation' depends on axioms: [propext, Classical.choice, Quot.sound] -/
#guard_msgs in #print axioms body_obligation

end Cert.Kernel.Proto

end
-- ==== Proof.K.Launch.lean ====
/-
  The launch: from "each device's body is proved" to the run of the whole mesh. The rounds' ghost state is minted for
  all twenty-eight cells at once, each device's seven cells' invariants allocated over its own semaphores and the
  runtime's barrier semaphore, the duty tokens dealt to the devices that pay them, the launch credit read off what the
  devices owe each other; then every weakly fair execution terminates with each device's result block at its named
  value and its input block unchanged.
-/
import proofs.«900605_g7700000000000606_dist_softmax_colshard_i_m512_n256_v7x_i4_bf16_1_alg».proof.Proof.K.Proto
import proofs.«900605_g7700000000000606_dist_softmax_colshard_i_m512_n256_v7x_i4_bf16_1_alg».proof.Proof.K.Tables
import proofs.«900605_g7700000000000606_dist_softmax_colshard_i_m512_n256_v7x_i4_bf16_1_alg».proof.Proof.K.Body
import proofs.«900605_g7700000000000606_dist_softmax_colshard_i_m512_n256_v7x_i4_bf16_1_alg».proof.Proof.K.Ghost

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### Small regroupings -/

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-! ### The launch credit

Device `d` owes six one-cell tallies; the launch's credit splits along the sum, and each summand, summed over the
devices, puts its amount on exactly one cell of each device. -/

omit [FloatOps F] in
/-- Every device owing `n` on one cell of its choosing, no two devices the same cell: the device the cell of `d₀` sits on
    is dealt the matching credit on it. -/
theorem launchCred_cell (cell : Dev nD → GSem nD τ sig) (hinj : Function.Injective cell) (n : ℕ) (c d₀ : Dev nD)
    (h : (cell d₀).1 = (c : Thread nD τ)) :
    (Pipeline.launchCred (fun d => tallyAt (cell d) () n) c : sProp 𝕄) ⊢ cred (tallyAt (cell d₀) () n) := by
  refine (Pipeline.launchCred_elim _ c (cell d₀).2).trans (Entails.of_eq (congrArg cred ?_))
  rw [Pipeline.tallyOn_launchCredit_owing]
  have hg : ((c : Thread nD τ), (cell d₀).2) = cell d₀ := by rw [← h]
  rw [hg]
  unfold tallyAt
  refine congrArg _ ?_
  rw [Finset.sum_apply, Finset.sum_eq_single d₀ (fun d _ hd => ?_) (fun hn => absurd (Finset.mem_univ _) hn)]
  · exact tallyOn_self _ _
  · exact tallyOn_ne (fun e => hd (hinj e.symm)) _

omit [FloatOps F] in
theorem recvOf_inj (e : Fin 3) : Function.Injective (fun d : Dev nD => recvCell (peer d e) d) := fun a b h => by
  have h2 : (SemLoc.dma (recvQ a) : SemLoc sig) = .dma (recvQ b) := congrArg Prod.snd h
  have h3 : (recvQ a).val = (recvQ b).val := by injection h2 with h2; rw [h2]
  rw [recvQ_val, recvQ_val] at h3
  exact Fin.ext (by omega)

omit [FloatOps F] in
/-- The copies numbered `e`: device `peer c d'` is the one whose copy `e` names `c`, and its slot's credit lands on
    `c`'s receive cell of that slot. -/
theorem launch_recv (c : Dev nD) (e d' : Fin 3) (h : peer (peer c d') e = c) :
    (Pipeline.launchCred (fun d => tallyAt (recvCell (peer d e) d) () N) c : sProp 𝕄) ⊢ cred (tallyAt (recvCell c (peer c d')) () N) :=
  (launchCred_cell (fun d => recvCell (peer d e) d) (recvOf_inj e) N c (peer c d')
      (show ((peer (peer c d') e : Dev nD) : Thread nD τ) = _ by rw [h])).trans
    (Entails.of_eq (show cred (tallyAt (recvCell (peer (peer c d') e) (peer c d')) () N) = _ by rw [h]))

omit [FloatOps F] in
/-- The signals numbered `e`: one unit on each device's barrier cell. -/
theorem launch_bar (c : Dev nD) (e : Fin 3) :
    (Pipeline.launchCred (fun d => tallyAt (barCell (peer d e)) () 1) c : sProp 𝕄) ⊢ cred (tallyAt (barCell c) () 1) :=
  Pipeline.launchCred_tallyAt (.reg barS) (fun d => peer d e) (fun d => back d e) (fun d => peer_back d e) (fun d => back_peer d e) () 1 c

theorem peer_peer (c : Dev nD) : peer (peer c 2) 0 = c ∧ peer (peer c 1) 1 = c ∧ peer (peer c 0) 2 = c := by revert c; decide

omit [FloatOps F] in
theorem creds_intro (c : Dev nD) : (Pipeline.launchCred O₀ c : sProp 𝕄) ⊢ creds c := by
  have e6 : (Pipeline.launchCred O₀ c : sProp 𝕄) = iprop(Pipeline.launchCred A5 c ∗ Pipeline.launchCred (fun d => tallyAt (barCell (peer d 0)) () 1) c) :=
    Pipeline.launchCred_add A5 _ c
  have e5 : (Pipeline.launchCred A5 c : sProp 𝕄) = iprop(Pipeline.launchCred A4 c ∗ Pipeline.launchCred (fun d => tallyAt (barCell (peer d 1)) () 1) c) :=
    Pipeline.launchCred_add A4 _ c
  have e4 : (Pipeline.launchCred A4 c : sProp 𝕄) = iprop(Pipeline.launchCred A3 c ∗ Pipeline.launchCred (fun d => tallyAt (barCell (peer d 2)) () 1) c) :=
    Pipeline.launchCred_add A3 _ c
  have e3 : (Pipeline.launchCred A3 c : sProp 𝕄) = iprop(Pipeline.launchCred A2 c ∗ Pipeline.launchCred (fun d => tallyAt (recvCell (peer d 0) d) () N) c) :=
    Pipeline.launchCred_add A2 _ c
  have e2 : (Pipeline.launchCred A2 c : sProp 𝕄) = iprop(Pipeline.launchCred A1 c ∗ Pipeline.launchCred (fun d => tallyAt (recvCell (peer d 1) d) () N) c) :=
    Pipeline.launchCred_add A1 _ c
  have e1 : (Pipeline.launchCred A1 c : sProp 𝕄) = Pipeline.launchCred (fun d => tallyAt (recvCell (peer d 2) d) () N) c := rfl
  rw [e6, e5, e4, e3, e2, e1]
  unfold creds
  have h3 : (tallyAt (barCell c) () 3 : CellTallies nD τ sig Unit)
      = tallyAt (barCell c) () 1 + tallyAt (barCell c) () 1 + tallyAt (barCell c) () 1 := by rw [tallyAt_add, tallyAt_add]
  rw [bigSep_three, h3]
  iintro ⟨⟨⟨⟨⟨H1, H2⟩, H3⟩, H4⟩, H5⟩, H6⟩
  ihave B0 := (launch_bar (F := F) c 0) $$ H6
  ihave B1 := (launch_bar (F := F) c 1) $$ H5
  ihave B2 := (launch_bar (F := F) c 2) $$ H4
  ihave R2 := (launch_recv (F := F) c 0 2 (peer_peer c).1) $$ H3
  ihave R1 := (launch_recv (F := F) c 1 1 (peer_peer c).2.1) $$ H2
  ihave R0 := (launch_recv (F := F) c 2 0 (peer_peer c).2.2) $$ H1
  isplitl [B0 B1 B2]
  · iapply (cred_add _ _).2
    isplitl [B0 B1]
    · iapply (cred_add _ _).2
      isplitl [B0] <;> iassumption
    · iexact B2
  · isplitl [R0]; · iexact R0
    isplitl [R1] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  icases HG with ⟨HK, Hz⟩
  isplitl
  · isplitl [HK]; · iexact HK
    isplitl [Hz]; · iexact Hz
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ scrPts
  rw [bigSep_three, bigSep_three]
  iintro ⟨Hr, Hc, ⟨S0, S1, S2⟩, ⟨R0, R1, R2⟩⟩
  isplitr; · iempintro
  isplitr [Hr]
  · isplitl [S0]; · iexact S0
    isplitl [S1]; · iexact S1
    isplitl [S2]; · iexact S2
    iapply (slots_perm (F := F) c (fun s => semVal (recvCell c s) 0)).2
    isplitl [Hc]; · iexact Hc
    isplitl [R0]; · iexact R0
    isplitl [R1] <;> iassumption
  · iexists (gathB m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every weakly fair execution of @main on the four devices terminates with every window's array at its final contents. -/
theorem run_main : θ_run defs (onTc (τ := τ) (main (F := F))) (s₀ m ρ) (QC m ρ) := by
  exact Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_rounds m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the device's result block. -/
theorem finalA_out (c : Dev nD) : finalA m ρ c (1 : Fin 2) = outB m ρ c := by
  -- the one point writes the result window back; the block is the whole array, so the write leaves the payload
  have h1 : (dats m ρ 0 c).arrAt (1 : Fin 2) cfg0.N = (dats m ρ 0 c).arrAt (1 : Fin 2) (t₀.val + 1) :=
    congrArg ((dats m ρ 0 c).arrAt (1 : Fin 2)) (show cfg0.N = t₀.val + 1 from cfg0_N)
  unfold finalA
  rw [h1, Dat.arrAt_succ, flush0_1 t₀, if_pos rfl]
  exact Memref.write_access_unit_zero_univ (Elt F) main_v1 (funext fun a => Nat.zero_mul _) _ _ _

/-- A device's staged input block is its input array (no grid: the block is the whole array). -/
theorem xs_eq (c : Dev nD) : xs m ρ c = m ((c.tc : Thread nD τ).loc main_arg0) := by
  unfold xs
  exact Memref.read_access_unit_zero (Elt F) main_arg0 (funext fun a => Nat.zero_mul _) _ _

/-- The run with its values named: each device's result block is `outAt` of the four input blocks, its input unchanged. -/
theorem run : θ_run defs (onTc (τ := τ) (main (F := F))) ⟨m, fun _ => 0, ρ⟩ (fun r => ∀ c : Dev nD,
    r.2.mem ((c.tc : Thread nD τ).loc main_v1) = Out.outAt (fun c' => m ((c'.tc : Thread nD τ).loc main_arg0)) c
    ∧ r.2.mem ((c.tc : Thread nD τ).loc main_arg0) = m ((c.tc : Thread nD τ).loc main_arg0)) := by
  refine (θ_run defs _ _).mono (fun r h c => ⟨?_, ?_⟩) (run_main m ρ)
  · refine ((h c (1 : Fin 2)).trans (finalA_out m ρ c)).trans ?_
    unfold outB
    rw [show xs m ρ = fun c' : Dev nD => m ((c'.tc : Thread nD τ).loc main_arg0) from funext (xs_eq m ρ)]
  · exact (h c (0 : Fin 2)).trans (finalA_x m ρ c)

end Cert.Kernel.Proto

end
-- ==== Proof.KI.Out.lean ====
/-
  What one device's kernel leaves in its result block, as a pure term of ALL devices' input blocks:
  the scratch ends holding, in slot p, device p's row sums of exponentials; the result is the device's own
  exponentials times the reciprocal of the slots' sum.
-/
import proofs.«900605_g7700000000000606_dist_softmax_colshard_i_m512_n256_v7x_i4_bf16_1_alg».proof.Proof.Gen.KernelIdeal.Skeleton
import Idealize.ShloMosaic.Lib.ValueIdx

noncomputable section

namespace Cert.KernelIdeal.Out

open Cert.KernelIdeal Cert.KernelIdeal.Gen Idealize.ShloMosaic Idealize.ShloMosaic.ValueIdx

variable {F : FTy → Type} [FloatOps F]

/-- The gathered scratch: slot `p` is device `p`'s row sums. -/
def gath (xs : Dev nD → Vec F S512x256 .f32) : Vec F S4x1x512 .f32 := fun i =>
  k0_pay2 (xs ⟨(i 0).val, (i 0).isLt⟩) (ix3 (0 : Fin 1) (0 : Fin 1) (⟨(i 2).val, (i 2).isLt⟩ : Fin 512))

/-- Device `c`'s result block. -/
def outAt (xs : Dev nD → Vec F S512x256 .f32) (c : Dev nD) : Vec F S512x256 .bf16 :=
  k0_pay3 (k0_pay1 (xs c)) (gath xs)

end Cert.KernelIdeal.Out

end
-- ==== Proof.KI.Proto.lean ====
/-
  The cross-device protocol of the column-sharded softmax, as data: who signals and copies onto which semaphore,
  how much, and what each landing hands its waiter.

  Each of the four devices computes its block's row sums of exponentials into slot `c` (its own number) of a
  four-slot scratch, tells the three others it has entered (one unit on each one's barrier semaphore), waits for
  their three units, copies its slot into slot `c` of each of the others' scratch, waits for the three slots coming in,
  adds the four slots, and scales its exponentials by the reciprocal.

  Cells and duties, all in round 0. Device `c`'s barrier cell has three duties, one per other device: duty `d` is
  paid by the device `d + 1` places BEFORE `c` (whose signal number `d` names `c`), one unit, and hands `c` that
  device's slot `c` — where `c`'s copy to it will land — at any contents. Send cell `k` of `c` has one duty, paid as
  copy `k`'s source is read: it hands back the quarter share of slot `c` the copy read through. Receive cell `s` of
  `c` (s ≠ c) has one duty, paid as device `s`'s copy lands: it hands `c` its slot `s` holding device `s`'s sums.
  Every slot's contents is one function of all four input blocks (`gathB`), whoever holds it.
-/
import proofs.«900605_g7700000000000606_dist_softmax_colshard_i_m512_n256_v7x_i4_bf16_1_alg».proof.Proof.KI.Out
import proofs.«900605_g7700000000000606_dist_softmax_colshard_i_m512_n256_v7x_i4_bf16_1_alg».proof.Proof.Gen.KernelIdeal
import proofs.«900605_g7700000000000606_dist_softmax_colshard_i_m512_n256_v7x_i4_bf16_1_alg».proof.Proof.Gen.KernelIdeal.Skeleton
import proofs.«900605_g7700000000000606_dist_softmax_colshard_i_m512_n256_v7x_i4_bf16_1_alg».proof.Proof.Gen.KernelIdeal.Launch
import proofs.«900605_g7700000000000606_dist_softmax_colshard_i_m512_n256_v7x_i4_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the rounds' (duty names `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

/-- The device `d + 1` places after `c`, and the one `d + 1` places before it. -/
def peer (c : Dev nD) (d : Fin 3) : Dev nD := ⟨(c.val + d.val + 1) % 4, Nat.mod_lt _ (by decide)⟩
def back (c : Dev nD) (d : Fin 3) : Dev nD := ⟨(c.val + 3 - d.val) % 4, Nat.mod_lt _ (by decide)⟩

theorem back_peer (c : Dev nD) (d : Fin 3) : back (peer c d) d = c := by revert c d; decide
theorem peer_back (c : Dev nD) (d : Fin 3) : peer (back c d) d = c := by revert c d; decide
theorem peer_ne (c : Dev nD) (d : Fin 3) : peer c d ≠ c := by revert c d; decide
theorem back_ne (c : Dev nD) (d : Fin 3) : back c d ≠ c := by revert c d; decide
theorem peer_inj (c : Dev nD) : Function.Injective (peer c) := by revert c; decide

/-- Turning by `d + 1` places, as a permutation of the devices. -/
def turn (d : Fin 3) : Dev nD ≃ Dev nD := ⟨fun c => peer c d, fun c => back c d, fun c => back_peer c d, fun c => peer_back c d⟩

/-- The kernel's `device_id` chains: signal and copy number `d` both name `peer c d`. -/
theorem dev1_eq (c : Dev nD) : (⟨k0_dev1 c, k0_dev1_lt c⟩ : Dev nD) = peer c 0 := Fin.ext (by show k0_dev1 c = _; rw [k0_dev1_eq c]; rfl)
theorem dev2_eq (c : Dev nD) : (⟨k0_dev2 c, k0_dev2_lt c⟩ : Dev nD) = peer c 1 := Fin.ext (by show k0_dev2 c = _; rw [k0_dev2_eq c]; rfl)
theorem dev3_eq (c : Dev nD) : (⟨k0_dev3 c, k0_dev3_lt c⟩ : Dev nD) = peer c 2 := Fin.ext (by show k0_dev3 c = _; rw [k0_dev3_eq c]; rfl)
theorem dev4_eq (c : Dev nD) : (⟨k0_dev4 c, k0_dev4_lt c⟩ : Dev nD) = peer c 0 := Fin.ext (by show k0_dev4 c = _; rw [k0_dev4_eq c]; rfl)
theorem dev5_eq (c : Dev nD) : (⟨k0_dev5 c, k0_dev5_lt c⟩ : Dev nD) = peer c 1 := Fin.ext (by show k0_dev5 c = _; rw [k0_dev5_eq c]; rfl)
theorem dev6_eq (c : Dev nD) : (⟨k0_dev6 c, k0_dev6_lt c⟩ : Dev nD) = peer c 2 := Fin.ext (by show k0_dev6 c = _; rw [k0_dev6_eq c]; rfl)

/-! ## The memrefs, the slots and the cells -/

abbrev xM : Memref sig .tc .vmem S512x256 .f32 := Memref.whole cc0_stg0_0
abbrev oM : Memref sig .tc .vmem S512x256 .bf16 := Memref.whole cc0_stg1_0
abbrev gM : Memref sig .tc .vmem S4x1x512 .f32 := Memref.whole cc0_scratch0

/-- Slot `s` of the scratch: row `s`, all 512 sums. -/
def slotOff (s : Fin 4) : Fin 3 → Nat := ![s.val, 0, 0]
theorem slotOff_inb (s : Fin 4) : ∀ a, slotOff s a + S1x1x512.size a ≤ S4x1x512.size a := by revert s; decide
abbrev slotR (s : Fin 4) : Rect S4x1x512 := Rect.unit (s := S4x1x512) (slotOff s) S1x1x512.size (slotOff_inb s)
/-- The slot as a copy names it (a [1, 512] memref). -/
abbrev slotM (s : Fin 4) : Memref sig .tc .vmem S1x512 .f32 :=
  ((gM.slice (slotR s) (fun _ => rfl)).squeeze S1x512 squeezes_S1x1x512_S1x512)

theorem sendOff_inb (k : Fin 3) : ∀ a, (![k.val] : Fin 1 → Nat) a + S1.size a ≤ S3.size a := by revert k; decide
theorem recvOff_inb (s : Fin 4) : ∀ a, (![s.val] : Fin 1 → Nat) a + S1.size a ≤ S4.size a := by revert s; decide

/-- The runtime's barrier semaphore of collective id 0 (not scoped); send semaphore `k`; receive semaphore `s`. -/
abbrev barS : Sem sig := (SemArray.scalar (sig.barrier 0 rfl) : Sems sig S_).sem
abbrev sendQ (k : Fin 3) : DmaSem sig :=
  ((cc0_scratch1.slice (Rect.unit (s := S3) ![k.val] S1.size (sendOff_inb k))).squeeze S_ squeezes_S1_S_).sem
abbrev recvQ (s : Fin 4) : DmaSem sig :=
  ((cc0_scratch2.slice (Rect.unit (s := S4) ![s.val] S1.size (recvOff_inb s))).squeeze S_ squeezes_S1_S_).sem

theorem sendQ_val (k : Fin 3) : (sendQ k).val = 2 + k.val := by revert k; decide
theorem recvQ_val (s : Fin 4) : (recvQ s).val = 5 + s.val := by revert s; decide

abbrev barCell (c : Dev nD) : GSem nD τ sig := ((c : Thread nD τ), .reg barS)
abbrev sendCell (c : Dev nD) (k : Fin 3) : GSem nD τ sig := ((c : Thread nD τ), .dma (sendQ k))
abbrev recvCell (c : Dev nD) (s : Fin 4) : GSem nD τ sig := ((c : Thread nD τ), .dma (recvQ s))

/-- The kernel's OWN (scoped) semaphores, as the launch indexes them: the three send ones, then the four receive ones. -/
abbrev osem : Fin 7 → SemLoc sig := fun
  | 0 => .dma (sendQ 0) | 1 => .dma (sendQ 1) | 2 => .dma (sendQ 2)
  | 3 => .dma (recvQ 0) | 4 => .dma (recvQ 1) | 5 => .dma (recvQ 2) | 6 => .dma (recvQ 3)

/-- The seven cells of a device the protocol runs on: the barrier, the three send cells, the three receive cells of
    the OTHER devices' slots (receive semaphore `c` of device `c` is never touched). -/
abbrev kcell (ck : Dev nD × Fin 7) : GSem nD τ sig := match ck.2 with
  | 0 => barCell ck.1
  | 1 => sendCell ck.1 0 | 2 => sendCell ck.1 1 | 3 => sendCell ck.1 2
  | 4 => recvCell ck.1 (peer ck.1 0) | 5 => recvCell ck.1 (peer ck.1 1) | 6 => recvCell ck.1 (peer ck.1 2)

/-- The units a slot's copy credits. -/
abbrev N : ℕ := (slotM 0 : Memref sig .tc .vmem S1x512 .f32).view.dmaCredit

/-! ## Contents -/

/-- Device `c`'s input block, as staged. -/
def xs (c : Dev nD) : Vec F S512x256 .f32 :=
  (win0_0.blk (0 : Fin 1)).view.read (Elt F) ((s₀ m ρ).mem ((c : Thread nD τ).loc main_arg0))

/-- The gathered scratch, on whichever device: slot `p` holds device `p`'s row sums. -/
def gathB (c : Dev nD) : Buf (Elt F) ((c : Thread nD τ).loc cc0_scratch0) := Out.gath (xs m ρ)

/-- Device `c`'s result block. -/
def outB (c : Dev nD) : (cc0_stg1_0 : Ref sig .tc).ty.Contents (Elt F) := Out.outAt (xs m ρ) c

/-! ## Shares of a device's own slot: a quarter per copy, a quarter kept to read through -/

def qs : Fin 3 → PosShare TreeShare
  | 0 => fullShare.left.left | 1 => fullShare.left.right | 2 => fullShare.right.left
def qK : PosShare TreeShare := fullShare.right.right

/-! ## The slots as assertions -/

/-- Slot `s` of device `c`'s scratch, share `q`, holding `f` there. -/
def slotPts (c : Dev nD) (s : Fin 4) (q : PosShare TreeShare) (f : Buf (Elt F) ((slotM s : Memref sig .tc .vmem S1x512 .f32).view.loc (c : Thread nD τ))) : sProp 𝕄 :=
  (slotM s : Memref sig .tc .vmem S1x512 .f32).view.loc (c : Thread nD τ) ↦[(slotM s : Memref sig .tc .vmem S1x512 .f32).view.set]{q} f

/-- The whole scratch of device `c`. -/
def scrPts (c : Dev nD) (f : Buf (Elt F) ((c : Thread nD τ).loc cc0_scratch0)) : sProp 𝕄 :=
  ((c : Thread nD τ).loc cc0_scratch0) ↦{fullShare} f

/-! ## The schedule -/

/-- Duty `d` of `c`'s barrier cell hands `c` slot `c` of the device `d + 1` places before it, at any contents. -/
def barPay (c : Dev nD) (d : Fin 3) : sProp 𝕄 := iprop(∃ f, slotPts (back c d) c fullShare f)
/-- Send cell `k` of `c` hands back the share of slot `c` copy `k` read through. -/
def sendPay (c : Dev nD) (k : Fin 3) : sProp 𝕄 := slotPts c c (qs k) (gathB m ρ c)
/-- Receive cell `s` of `c` hands `c` its slot `s`, holding device `s`'s sums. -/
def recvPay (c : Dev nD) (s : Fin 4) : sProp 𝕄 := slotPts c s fullShare (gathB m ρ c)

abbrev IsBar (g : GSem nD τ sig) : Prop := g.1.2 = .tc ∧ g.2 = .reg barS
abbrev IsXfer (g : GSem nD τ sig) : Prop := g.1.2 = .tc ∧ ∃ q : DmaSem sig, g.2 = .dma q ∧ 2 ≤ q.val

/-- The payload of a cell's duty, by the cell's semaphore. -/
def payOf (g : GSem nD τ sig) (d : Fin 3) : sProp 𝕄 :=
  match g.2 with
  | .reg _ => barPay g.1.1 d
  | .dma q =>
    if 5 ≤ q.val then recvPay m ρ g.1.1 ⟨(q.val - 5) % 4, Nat.mod_lt _ (by decide)⟩
    else if 2 ≤ q.val then sendPay m ρ g.1.1 ⟨(q.val - 2) % 3, Nat.mod_lt _ (by decide)⟩
    else iprop(emp)

instance : DecidablePred (IsXfer : GSem nD τ sig → Prop) := fun g => by unfold IsXfer; infer_instance

/-- One round, round 0: a barrier cell has all three duties, one unit each; a send or receive cell the duty `0` of a
    slot's credit. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d := payOf m ρ g d
  amount_pos g _ _ _ := by
    by_cases h : g.2 = .reg barS
    · rw [if_pos h]; exact Nat.one_pos
    · rw [if_neg h]; exact View.dmaCredit_pos _ (by decide)

/-! ## What each device owes at launch; the levels -/

/-- Device `c` owes each other device's barrier cell one unit and each other device's receive cell `c` a slot's
    credit, summed so that the three signals peel the last three summands in order and the three copies the next. -/
def A1 (c : Dev nD) : CellTallies nD τ sig Unit := tallyAt (recvCell (peer c 2) c) () N
def A2 (c : Dev nD) : CellTallies nD τ sig Unit := A1 c + tallyAt (recvCell (peer c 1) c) () N
def A3 (c : Dev nD) : CellTallies nD τ sig Unit := A2 c + tallyAt (recvCell (peer c 0) c) () N
def A4 (c : Dev nD) : CellTallies nD τ sig Unit := A3 c + tallyAt (barCell (peer c 2)) () 1
def A5 (c : Dev nD) : CellTallies nD τ sig Unit := A4 c + tallyAt (barCell (peer c 1)) () 1
def O₀ (c : Dev nD) : CellTallies nD τ sig Unit := A5 c + tallyAt (barCell (peer c 0)) () 1

def L (g : GSem nD τ sig) : Finset Unit := if g.1.2 = .tc then {()} else ∅
/-- Barrier cells at 1, receive cells at 2, everything else (staging, send) at 0. -/
def lv (g : GSem nD τ sig) (_ : Unit) : ℕ :=
  match g.2 with
  | .reg _ => 1
  | .dma q => if 5 ≤ q.val then 2 else 0

/-! ## The ghost state -/

/-- The cells' invariants under the names the launch allocated them at, and that every cell is at round 0: persistent. -/
def records (K : Dev nD × Fin 7 → ℕ) : sProp 𝕄 :=
  iprop((bigSep Finset.univ fun ck : Dev nD × Fin 7 => cellInv ER (Rd m ρ) (K ck) (kcell ck))
    ∗ bigSep Finset.univ fun ck : Dev nD × Fin 7 => reached ER (kcell ck) 0)

/-- The tokens of the duties device `c` PAYS: each other device's barrier duty, each other device's receive duty for
    slot `c`, its own three send duties. -/
def payToks (c : Dev nD) : sProp 𝕄 :=
  iprop((bigSep Finset.univ fun d : Fin 3 => dutyTok ER (barCell (peer c d)) 0 d)
    ∗ (bigSep Finset.univ fun d : Fin 3 => dutyTok ER (recvCell (peer c d) c) 0 (0 : Fin 3))
    ∗ (bigSep Finset.univ fun k : Fin 3 => dutyTok ER (sendCell c k) 0 (0 : Fin 3)))

/-- What stays with device `c`: its positions in its seven cells, and those tokens. -/
def linear (c : Dev nD) : sProp 𝕄 :=
  iprop((bigSep Finset.univ fun k : Fin 7 => atPos ER (kcell (c, k)) 0 ∅ 0) ∗ payToks c)

def ghost (K : Dev nD × Fin 7 → ℕ) (c : Dev nD) : sProp 𝕄 := iprop(records m ρ K ∗ linear c)

/-- Device `c`'s credit at launch: three units on its barrier cell, a slot's credit on each of its three receive cells. -/
def creds (c : Dev nD) : sProp 𝕄 :=
  iprop(cred (tallyAt (barCell c) () 3) ∗ bigSep Finset.univ fun d : Fin 3 => cred (tallyAt (recvCell c (peer c d)) () N))

/-- What device `c`'s body starts from, beside its scratch. -/
def start (c : Dev nD) : sProp 𝕄 :=
  iprop((∃ K, ghost m ρ K c) ∗ semVal (recvCell c c) 0 ∗ creds c ∗ levAts L lv)

def Φ₀ (c : Dev nD) : sProp 𝕄 := iprop(start m ρ c ∗ ∃ f, scrPts c f)
/-- After the point: the scratch whole again, holding the gathered sums; the seven own semaphores at zero. -/
def Φ₁ (c : Dev nD) : sProp 𝕄 :=
  iprop(scrPts c (gathB m ρ c) ∗ semVal (recvCell c c) 0
    ∗ (bigSep Finset.univ fun k : Fin 3 => semVal (sendCell c k) 0)
    ∗ bigSep Finset.univ fun d : Fin 3 => semVal (recvCell c (peer c d)) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m ρ c
    | ⟨1, _⟩ => outB m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-! ## The body's pre and post -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 7 → ℕ) (c : Dev nD) : sProp 𝕄 :=
  iprop((ghost m ρ K c ∗ semVal (recvCell c c) 0 ∗ creds c ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xs m ρ c) ∗ stg c cc0_stg1_0 (outB m ρ c))

end Cert.KernelIdeal.Proto

end
-- ==== Proof.KI.Tables.lean ====
/-
  The schedule read cell by cell: which duties a barrier, send or receive cell has in round 0, how many units each is
  worth, what each hands over, and that no cell has a duty after round 0; and the order in which a device may wait:
  a barrier cell (level 1) while it still owes only receive cells (level 2), anything once it owes nothing.
-/
import proofs.«900605_g7700000000000606_dist_softmax_colshard_i_m512_n256_v7x_i4_bf16_1_alg».proof.Proof.KI.Proto

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD)

omit [FloatOps F] in
/-- A send cell's semaphore is a transfer semaphore, not the barrier's. -/
theorem not_bar_send (k : Fin 3) : ¬ IsBar (sendCell c k) := fun h => by
  have h2 : (SemLoc.dma (sendQ k) : SemLoc sig) = .reg barS := h.2
  cases h2
omit [FloatOps F] in
/-- Nor is a receive cell's. -/
theorem not_bar_recv (s : Fin 4) : ¬ IsBar (recvCell c s) := fun h => by
  have h2 : (SemLoc.dma (recvQ s) : SemLoc sig) = .reg barS := h.2
  cases h2
omit [FloatOps F] in
/-- Send semaphore `k` is number `2 + k`, receive semaphore `s` number `5 + s`: both transfer cells. -/
theorem xfer_send (k : Fin 3) : IsXfer (sendCell c k) := ⟨rfl, sendQ k, rfl, by rw [sendQ_val]; omega⟩
omit [FloatOps F] in
theorem xfer_recv (s : Fin 4) : IsXfer (recvCell c s) := ⟨rfl, recvQ s, rfl, by rw [recvQ_val]; omega⟩

theorem duties_bar : (Rd (F := F) m ρ).duties (barCell c) 0 = Finset.univ := by
  dsimp only [Rd]; exact if_pos ⟨rfl, rfl, rfl⟩
theorem duties_send (k : Fin 3) : (Rd (F := F) m ρ).duties (sendCell c k) 0 = {0} := by
  dsimp only [Rd]; rw [if_neg (fun h => not_bar_send c k h.2)]; exact if_pos ⟨rfl, xfer_send c k⟩
theorem duties_recv (s : Fin 4) : (Rd (F := F) m ρ).duties (recvCell c s) 0 = {0} := by
  dsimp only [Rd]; rw [if_neg (fun h => not_bar_recv c s h.2)]; exact if_pos ⟨rfl, xfer_recv c s⟩
theorem duties_later (g : GSem nD τ sig) : ∀ r, 1 ≤ r → (Rd (F := F) m ρ).duties g r = ∅ :=
  fun r hr => by dsimp only [Rd]; rw [if_neg fun h => by omega, if_neg fun h => by omega]

theorem amount_bar (d : Fin 3) : (Rd (F := F) m ρ).amount (barCell c) 0 d = 1 := by
  dsimp only [Rd]; exact if_pos rfl
theorem amount_send (k : Fin 3) (d : Fin 3) : (Rd (F := F) m ρ).amount (sendCell c k) 0 d = N := by
  dsimp only [Rd]; exact if_neg (fun h => by cases h)
theorem amount_recv (s : Fin 4) (d : Fin 3) : (Rd (F := F) m ρ).amount (recvCell c s) 0 d = N := by
  dsimp only [Rd]; exact if_neg (fun h => by cases h)

theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send (k : Fin 3) : (Rd (F := F) m ρ).expect (sendCell c k) 0 = N := by
  unfold Schedule.expect Schedule.amountOf; rw [duties_send, Finset.sum_singleton, amount_send]
theorem expect_recv (s : Fin 4) : (Rd (F := F) m ρ).expect (recvCell c s) 0 = N := by
  unfold Schedule.expect Schedule.amountOf; rw [duties_recv, Finset.sum_singleton, amount_recv]

theorem payload_bar (d : Fin 3) : (Rd (F := F) m ρ).payload (barCell c) 0 d = barPay c d := rfl
theorem payload_send (k : Fin 3) (d : Fin 3) : (Rd (F := F) m ρ).payload (sendCell c k) 0 d = sendPay m ρ c k := by
  show (if 5 ≤ (sendQ k).val then recvPay m ρ c ⟨((sendQ k).val - 5) % 4, Nat.mod_lt _ (by decide)⟩
    else if 2 ≤ (sendQ k).val then sendPay m ρ c ⟨((sendQ k).val - 2) % 3, Nat.mod_lt _ (by decide)⟩ else iprop(emp)) = _
  rw [if_neg (by rw [sendQ_val]; omega), if_pos (by rw [sendQ_val]; omega)]
  exact congrArg (sendPay m ρ c) (Fin.ext (by show ((sendQ k).val - 2) % 3 = k.val; rw [sendQ_val]; omega))
theorem payload_recv (s : Fin 4) (d : Fin 3) : (Rd (F := F) m ρ).payload (recvCell c s) 0 d = recvPay m ρ c s := by
  show (if 5 ≤ (recvQ s).val then recvPay m ρ c ⟨((recvQ s).val - 5) % 4, Nat.mod_lt _ (by decide)⟩
    else if 2 ≤ (recvQ s).val then sendPay m ρ c ⟨((recvQ s).val - 2) % 3, Nat.mod_lt _ (by decide)⟩ else iprop(emp)) = _
  rw [if_pos (by rw [recvQ_val]; omega)]
  exact congrArg (recvPay m ρ c) (Fin.ext (by show ((recvQ s).val - 5) % 4 = s.val; rw [recvQ_val]; omega))

/-- The rest of a barrier cell's round, no duty taken: the three other devices' slots `c`. -/
theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons,
    bigSepL_singleton, payload_bar, payload_bar, payload_bar]
  rfl
theorem rest_send (k : Fin 3) : bigSep ((Rd (F := F) m ρ).duties (sendCell c k) 0 \ ∅) (fun d => (Rd (F := F) m ρ).payload (sendCell c k) 0 d)
    = sendPay m ρ c k := by
  rw [Finset.sdiff_empty, duties_send, bigSep_singleton, payload_send]
theorem rest_recv (s : Fin 4) : bigSep ((Rd (F := F) m ρ).duties (recvCell c s) 0 \ ∅) (fun d => (Rd (F := F) m ρ).payload (recvCell c s) 0 d)
    = recvPay m ρ c s := by
  rw [Finset.sdiff_empty, duties_recv, bigSep_singleton, payload_recv]

end Sched

instance Rd_payload_storable (g : GSem nD τ sig) (r : ℕ) (d : Fin 3) :
    BI.Storable (upEmb : UEmb _ 𝕄) ((Rd (F := F) m ρ).payload g r d) := by
  show BI.Storable upEmb (payOf m ρ g d)
  unfold payOf barPay sendPay recvPay slotPts
  (repeat' split) <;> infer_instance

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- A one-cell tally is positive at that cell only. -/
theorem tallyAt_pos {g₀ g : GSem nD τ sig} {k : ℕ} {u : Unit}
    (h : 0 < (tallyAt g₀ () k : CellTallies nD τ sig Unit) g u) : g = g₀ := by
  rw [tallyAt_apply] at h
  by_contra hn
  rw [if_neg fun h' => hn h'.1] at h
  exact Nat.lt_irrefl 0 h

/-- What a device still owes at its barrier wait is owed to the other devices' receive cells of its own slot. -/
theorem A3_pos {c : Dev nD} {g : GSem nD τ sig} {u : Unit} (h : 0 < A3 c g u) : ∃ d : Fin 3, g = recvCell (peer c d) c := by
  unfold A3 A2 A1 at h
  rcases Pipeline.add_pos_cases h with h | h
  · rcases Pipeline.add_pos_cases h with h | h
    · exact ⟨2, tallyAt_pos h⟩
    · exact ⟨1, tallyAt_pos h⟩
  · exact ⟨0, tallyAt_pos h⟩

/-- What a device owes at launch is owed to those receive cells and to the other devices' barrier cells. -/
theorem O₀_pos {c : Dev nD} {g : GSem nD τ sig} {u : Unit} (h : 0 < O₀ c g u) :
    (∃ d : Fin 3, g = recvCell (peer c d) c) ∨ ∃ d : Fin 3, g = barCell (peer c d) := by
  unfold O₀ A5 A4 at h
  rcases Pipeline.add_pos_cases h with h | h
  · rcases Pipeline.add_pos_cases h with h | h
    · rcases Pipeline.add_pos_cases h with h | h
      · exact .inl (A3_pos h)
      · exact .inr ⟨2, tallyAt_pos h⟩
    · exact .inr ⟨1, tallyAt_pos h⟩
  · exact .inr ⟨0, tallyAt_pos h⟩

/-- A barrier cell is at level 1, a receive cell at level 2. -/
theorem lv_bar (c : Dev nD) (u : Unit) : lv (barCell c) u = 1 := rfl
theorem lv_recv (c : Dev nD) (s : Fin 4) (u : Unit) : lv (recvCell c s) u = 2 := by
  show (if 5 ≤ (recvQ s).val then 2 else 0) = 2
  rw [if_pos (by rw [recvQ_val]; omega)]

omit [FloatOps F] in
/-- A staging or send semaphore (level 0) may be waited on while owing everything a device owes at launch, or nothing. -/
theorem mayWait_low (c : Dev nD) (q : DmaSem sig) (hq : q.val < 5) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨d, rfl⟩ | ⟨d, rfl⟩ <;> exact Finset.mem_singleton_self _)
      (fun p hp => by
        rw [Finset.mem_singleton.mp hp]
        show (if 5 ≤ q.val then 2 else 0) ≤ 0
        rw [if_neg (by omega)])
      (fun g u hg => by
        rcases O₀_pos hg with ⟨d, rfl⟩ | ⟨d, rfl⟩
        · rw [lv_recv]; decide
        · rw [lv_bar]; decide)
  · rw [MayWait_zero]; iintro -; iempintro

omit [FloatOps F] in
/-- At its barrier wait a device owes the three receive credits only: receive cells, above its barrier cell. -/
theorem mayWait_bar (c : Dev nD) : (levAts L lv : sProp 𝕄) ⊢ MayWait (c : Thread nD τ) (.reg barS) () (A3 c) :=
  MayOwe.of_cut (L := L) (lev := lv) 1
    (fun p hp => by rw [Finset.mem_singleton.mp hp, L_tc]; exact Finset.mem_singleton_self _)
    (fun g u hg => by obtain ⟨d, rfl⟩ := A3_pos hg; exact Finset.mem_singleton_self _)
    (fun p hp => by rw [Finset.mem_singleton.mp hp]; exact le_of_eq (lv_bar c ()))
    (fun g u hg => by obtain ⟨d, rfl⟩ := A3_pos hg; rw [lv_recv]; decide)

end Cert.KernelIdeal.Proto

end
-- ==== Proof.KI.Geom.lean ====
/-
  The scratch by slots: an index lies in slot `s` exactly when its first coordinate is `s`; the whole scratch is its four
  slots side by side, and a slot's full share is four quarter shares; what a device's own store and a neighbour's landing
  copy leave in a slot is the gathered sums there; read whole, the gathered scratch is the four devices' row sums.
-/
import proofs.«900605_g7700000000000606_dist_softmax_colshard_i_m512_n256_v7x_i4_bf16_1_alg».proof.Proof.KI.Proto
import Idealize.ShloMosaic.Lib.Pipeline.Value

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- In the scratch, a rectangle of one row (sizes 1 × 1 × 512) starting at row `k` is the indices of first coordinate `k`:
    the other two coordinates range over the whole of their axes. -/
theorem mem_unit_row {off : Fin 3 → Nat} {inb : ∀ a, off a + S1x1x512.size a ≤ S4x1x512.size a} (k : Nat)
    (h : off = ![k, 0, 0]) (i : S4x1x512.Idx) :
    i ∈ (Rect.unit (s := S4x1x512) off S1x1x512.size inb).set ↔ (i (0 : Fin 3)).val = k := by
  subst h
  rw [Rect.mem_set_unit]
  constructor
  · intro h
    have h0 : k ≤ (i (0 : Fin 3)).val ∧ (i (0 : Fin 3)).val < k + 1 := h 0
    omega
  · intro h a
    match a with
    | ⟨0, _⟩ => exact ⟨show k ≤ (i (0 : Fin 3)).val by omega, show (i (0 : Fin 3)).val < k + 1 by omega⟩
    | ⟨1, _⟩ =>
      have h1 : (i (1 : Fin 3)).val < 1 := (i (1 : Fin 3)).isLt
      exact ⟨Nat.zero_le _, show (i (1 : Fin 3)).val < 0 + 1 by omega⟩
    | ⟨2, _⟩ =>
      have h2 : (i (2 : Fin 3)).val < 512 := (i (2 : Fin 3)).isLt
      exact ⟨Nat.zero_le _, show (i (2 : Fin 3)).val < 0 + 512 by omega⟩

omit [FloatOps F] in
/-- A slot's elements are its rectangle's: the squeeze to 1 × 512 re-indexes the same elements. -/
theorem slot_set (s : Fin 4) : (slotM s : Memref sig .tc .vmem S1x512 .f32).view.set = (slotR s).set := by
  show (((View.whole cc0_scratch0).slice (slotR s)).reshape S1x512 _).set = _
  rw [View.set_reshape, View.set_slice_whole]

omit [FloatOps F] in
/-- Slot `s` is the indices whose first coordinate is `s`. -/
theorem mem_slot (c : Dev nD) (s : Fin 4) (i : Idx ((slotM s : Memref sig .tc .vmem S1x512 .f32).view.loc (c : Thread nD τ))) :
    i ∈ (slotM s : Memref sig .tc .vmem S1x512 .f32).view.set ↔ (i (0 : Fin 3)).val = s.val := by
  rw [slot_set s]
  exact mem_unit_row s.val rfl i

omit [FloatOps F] in
/-- What the load of the own slot reads lies in the slot. -/
theorem own_load_sub (c : Dev nD) :
    (gM : Memref sig .tc .vmem S4x1x512 .f32).view.setOn (Rect.unit (s := S4x1x512) (k0_off1 c) S1x1x512.size (k0_off1_inb c)).toLoadRect.set
      ⊆ (slotM c : Memref sig .tc .vmem S1x512 .f32).view.set := by
  intro i hi
  rw [slot_set c]
  have hi' : i ∈ (Rect.unit (s := S4x1x512) (k0_off1 c) S1x1x512.size (k0_off1_inb c)).set := by
    obtain ⟨j, hj, rfl⟩ := Finset.mem_map.mp hi
    exact hj
  exact (mem_unit_row c.val rfl i).mpr ((mem_unit_row c.val (k0_off1_eq c) i).mp hi')

omit [FloatOps F] in
/-- What the store into the own slot writes lies in the slot. -/
theorem own_store_sub (c : Dev nD) :
    (((gM : Memref sig .tc .vmem S4x1x512 .f32).access (Rect.unit (s := S4x1x512) (k0_off1 c) S1x1x512.size (k0_off1_inb c)) : View sig .tc _ _ _).setOn Finset.univ)
      ⊆ (slotM c : Memref sig .tc .vmem S1x512 .f32).view.set := by
  intro i hi
  rw [slot_set c]
  have hi' : i ∈ (Rect.unit (s := S4x1x512) (k0_off1 c) S1x1x512.size (k0_off1_inb c)).set := by
    rw [View.setOn_univ] at hi
    exact (Finset.ext_iff.mp (View.set_slice_whole cc0_scratch0 _) i).mp hi
  exact (mem_unit_row c.val rfl i).mpr ((mem_unit_row c.val (k0_off1_eq c) i).mp hi')

omit [FloatOps F] in
/-- Every slot's copy credits the same number of units on a DMA semaphore. -/
theorem slot_amount (s : Fin 4) (q : DmaSem sig) : (slotM s : Memref sig .tc .vmem S1x512 .f32).view.amount (.dma q) = N := by
  rfl

omit [FloatOps F] in
/-- The whole scratch is its four slots. -/
theorem scr_split (c : Dev nD) (q : PosShare TreeShare) (f : Buf (Elt F) ((c : Thread nD τ).loc cc0_scratch0)) :
    ((((c : Thread nD τ).loc cc0_scratch0) ↦{q} f : sProp 𝕄)) ⊣⊢ iprop(slotPts c 0 q f ∗ slotPts c 1 q f ∗ slotPts c 2 q f ∗ slotPts c 3 q f) := by
  -- the four slots' element sets, as sets of the scratch's indices
  let A : Fin 4 → Finset (Idx ((c : Thread nD τ).loc cc0_scratch0)) :=
    fun s => (slotM s : Memref sig .tc .vmem S1x512 .f32).view.set
  have hmem : ∀ (s : Fin 4) (i : Idx ((c : Thread nD τ).loc cc0_scratch0)), i ∈ A s ↔ (i (0 : Fin 3)).val = s.val :=
    fun s i => mem_slot c s i
  -- every index has a first coordinate below 4, so lies in one of them
  have huniv : (Finset.univ : Finset (Idx ((c : Thread nD τ).loc cc0_scratch0))) = A 0 ∪ (A 1 ∪ (A 2 ∪ A 3)) := by
    ext i
    simp only [Finset.mem_univ, Finset.mem_union, hmem, true_iff]
    have h4 : (i (0 : Fin 3)).val < 4 := (i (0 : Fin 3)).isLt
    show (i (0 : Fin 3)).val = 0 ∨ (i (0 : Fin 3)).val = 1 ∨ (i (0 : Fin 3)).val = 2 ∨ (i (0 : Fin 3)).val = 3
    omega
  -- and two different slots share no index
  have hdis : ∀ s t : Fin 4, s.val ≠ t.val → Disjoint (A s) (A t) := fun s t hst =>
    Finset.disjoint_left.mpr fun i hs ht => hst (((hmem s i).mp hs).symm.trans ((hmem t i).mp ht))
  unfold slotPts
  rw [huniv]
  refine (Region.is_union ?_).trans (Laws.sep_congr_right ((Region.is_union ?_).trans (Laws.sep_congr_right (Region.is_union ?_))))
  · exact Finset.disjoint_union_right.mpr ⟨hdis 0 1 (by decide), Finset.disjoint_union_right.mpr ⟨hdis 0 2 (by decide), hdis 0 3 (by decide)⟩⟩
  · exact Finset.disjoint_union_right.mpr ⟨hdis 1 2 (by decide), hdis 1 3 (by decide)⟩
  · exact hdis 2 3 (by decide)

omit [FloatOps F] in
/-- A slot's assertion sees its contents only on the slot. -/
theorem slot_congr (c : Dev nD) (s : Fin 4) (q : PosShare TreeShare) (f g : Buf (Elt F) ((c : Thread nD τ).loc cc0_scratch0))
    (h : ∀ i, (i (0 : Fin 3)).val = s.val → f i = g i) : (slotPts c s q f : sProp 𝕄) = slotPts c s q g := by
  unfold slotPts
  exact Region.is_congr fun i hi => h i ((mem_slot c s i).mp hi)

omit [FloatOps F] in
/-- A slot's full share is the three copies' quarters and the kept quarter. -/
theorem slot_shares (c : Dev nD) (s : Fin 4) (f : Buf (Elt F) ((c : Thread nD τ).loc cc0_scratch0)) :
    (slotPts c s fullShare f : sProp 𝕄) ⊣⊢ iprop(slotPts c s (qs 0) f ∗ slotPts c s (qs 1) f ∗ slotPts c s (qs 2) f ∗ slotPts c s qK f) := by
  unfold slotPts
  -- the full share is its two halves, each half its two quarters
  refine (Region.is_share (PosShare.mem_left_op_right fullShare)).trans ?_
  refine (Laws.sep_congr (Region.is_share (PosShare.mem_left_op_right fullShare.left))
    (Region.is_share (PosShare.mem_left_op_right fullShare.right))).trans ?_
  exact Laws.sep_assoc

/-- A store through a rectangle of a whole buffer, read back at the element the rectangle's index `x` lands on,
    is the payload at `x`. -/
theorem write_slice_whole_emb {sg : RefSig} {κ : Kind} (Val : EltTy → Type) (b : Ref sg κ) (r : Rect b.ty.shape)
    (f : b.ty.Contents Val) (w : r.shape.Idx → Val b.ty.elt) (x : r.shape.Idx) :
    ((View.whole b).slice r).write Val f w Finset.univ (r.emb x) = w x :=
  View.read_slice_write_emb (v := View.whole b) r f w (Finset.mem_univ x)

/-- What device `c`'s store of its row sums leaves in its own slot, over any prior contents. -/
theorem stored_own (c : Dev nD) (f0 : Buf (Elt F) ((c : Thread nD τ).loc cc0_scratch0)) (i : Idx ((c : Thread nD τ).loc cc0_scratch0))
    (hi : (i (0 : Fin 3)).val = c.val) :
    ((gM : Memref sig .tc .vmem S4x1x512 .f32).access (Rect.unit (s := S4x1x512) (k0_off1 c) S1x1x512.size (k0_off1_inb c)) : View sig .tc _ _ _).write (Elt F) f0
        (k0_pay2 (xs m ρ c)) Finset.univ i = gathB m ρ c i := by
  have h1 : (i (1 : Fin 3)).val < 1 := (i (1 : Fin 3)).isLt
  have h2 : (i (2 : Fin 3)).val < 512 := (i (2 : Fin 3)).isLt
  -- the index of the stored row that lands at i: (0, 0, i's last coordinate)
  let x : S1x1x512.Idx := ValueIdx.ix3 (0 : Fin 1) (0 : Fin 1) (⟨(i (2 : Fin 3)).val, h2⟩ : Fin 512)
  have e0 : k0_off1 c = ![c.val, 0, 0] := k0_off1_eq c
  -- the row's rectangle starts at (c, 0, 0) with unit strides, so x lands at (c, 0, i's last coordinate) = i
  have hx : (Rect.unit (s := S4x1x512) (k0_off1 c) S1x1x512.size (k0_off1_inb c)).emb x = i := by
    funext a
    apply Fin.ext
    match a with
    | ⟨0, _⟩ =>
      show k0_off1 c (0 : Fin 3) + 1 * 0 = (i (0 : Fin 3)).val
      rw [e0]
      show c.val + 1 * 0 = (i (0 : Fin 3)).val
      omega
    | ⟨1, _⟩ =>
      show k0_off1 c (1 : Fin 3) + 1 * 0 = (i (1 : Fin 3)).val
      rw [e0]
      show 0 + 1 * 0 = (i (1 : Fin 3)).val
      omega
    | ⟨2, _⟩ =>
      show k0_off1 c (2 : Fin 3) + 1 * (i (2 : Fin 3)).val = (i (2 : Fin 3)).val
      rw [e0]
      show 0 + 1 * (i (2 : Fin 3)).val = (i (2 : Fin 3)).val
      omega
  -- the store leaves its payload there
  have hw := write_slice_whole_emb (Elt F) cc0_scratch0
    (Rect.unit (s := S4x1x512) (k0_off1 c) S1x1x512.size (k0_off1_inb c)) f0 (k0_pay2 (xs m ρ c)) x
  rw [hx] at hw
  refine hw.trans ?_
  have hc : (⟨(i (0 : Fin 3)).val, (i (0 : Fin 3)).isLt⟩ : Dev nD) = c := Fin.ext hi
  have hg : gathB m ρ c i = Out.gath (xs m ρ) i := rfl
  rw [hg]
  unfold Out.gath
  rw [hc]

/-- What the landing of device `p`'s copy of its slot `p` leaves in slot `p` of device `c`, over any prior contents. -/
theorem landed_slot (c p : Dev nD) (fd : Buf (Elt F) ((c : Thread nD τ).loc cc0_scratch0)) (i : Idx ((c : Thread nD τ).loc cc0_scratch0))
    (hi : (i (0 : Fin 3)).val = p.val) :
    (slotM p : Memref sig .tc .vmem S1x512 .f32).view.write (Elt F) fd ((slotM p : Memref sig .tc .vmem S1x512 .f32).view.read (Elt F) (gathB m ρ p)) Finset.univ i
      = gathB m ρ c i := by
  -- writing what the slot reads off the sender's gathered sums pieces those in on the slot, and i lies in it;
  -- the gathered sums are one function of the four input blocks on every device
  rw [View.write_read_eq_piecewise, View.setOn_univ, Finset.piecewise_eq_of_mem _ _ _ ((mem_slot c p i).mpr hi)]
  rfl

/-- The whole scratch read back is the gathered sums. -/
theorem read_gath (c : Dev nD) :
    (gM : Memref sig .tc .vmem S4x1x512 .f32).view.readAt (Elt F) (Rect.unit (s := S4x1x512) ![0, 0, 0] S4x1x512.size inb_S4x1x512_S4x1x512_0_0_0).toLoadRect (gathB m ρ c)
      = Out.gath (xs m ρ) := by
  have hz : (![0, 0, 0] : Fin 3 → Nat) = fun _ => 0 := by
    funext a
    match a with
    | ⟨0, _⟩ => rfl
    | ⟨1, _⟩ => rfl
    | ⟨2, _⟩ => rfl
  exact Memref.readAt_unit_zero (Elt F) cc0_scratch0 hz inb_S4x1x512_S4x1x512_0_0_0 (gathB m ρ c)

end Cert.KernelIdeal.Proto

end
-- ==== Proof.KI.Ghost.lean ====
/-
  The rounds' ghost state at launch: the twenty-eight cells the protocol runs on (seven a device), the duty tokens as
  minted for each device's OWN cells (its barrier's three, its three send cells', its three receive cells'), what the
  launch element deals each device, the allocation of a device's seven invariants over its own semaphores and the
  runtime's barrier semaphore, and the dealing of each token to the device that PAYS its duty (a barrier duty and a
  receive duty go `d + 1` places back around the mesh).
-/
import proofs.«900605_g7700000000000606_dist_softmax_colshard_i_m512_n256_v7x_i4_bf16_1_alg».proof.Proof.KI.Proto
import proofs.«900605_g7700000000000606_dist_softmax_colshard_i_m512_n256_v7x_i4_bf16_1_alg».proof.Proof.KI.Tables

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- Four things indexed by the slots, regrouped as device `c`'s own and its three peers'. -/
theorem slots_perm (c : Dev nD) (Φ : Fin 4 → sProp 𝕄) :
    iprop(Φ 0 ∗ Φ 1 ∗ Φ 2 ∗ Φ 3) ⊣⊢ iprop(Φ c ∗ Φ (peer c 0) ∗ Φ (peer c 1) ∗ Φ (peer c 2)) := by
  fin_cases c
  · exact .rfl
  · show iprop(Φ 0 ∗ Φ 1 ∗ Φ 2 ∗ Φ 3) ⊣⊢ iprop(Φ 1 ∗ Φ 2 ∗ Φ 3 ∗ Φ 0)
    constructor
    · iintro ⟨H0, H1, H2, H3⟩
      isplitl [H1]; · iexact H1
      isplitl [H2]; · iexact H2
      isplitl [H3]; · iexact H3
      iexact H0
    · iintro ⟨H1, H2, H3, H0⟩
      isplitl [H0]; · iexact H0
      isplitl [H1]; · iexact H1
      isplitl [H2]; · iexact H2
      iexact H3
  · show iprop(Φ 0 ∗ Φ 1 ∗ Φ 2 ∗ Φ 3) ⊣⊢ iprop(Φ 2 ∗ Φ 3 ∗ Φ 0 ∗ Φ 1)
    constructor
    · iintro ⟨H0, H1, H2, H3⟩
      isplitl [H2]; · iexact H2
      isplitl [H3]; · iexact H3
      isplitl [H0]; · iexact H0
      iexact H1
    · iintro ⟨H2, H3, H0, H1⟩
      isplitl [H0]; · iexact H0
      isplitl [H1]; · iexact H1
      isplitl [H2]; · iexact H2
      iexact H3
  · show iprop(Φ 0 ∗ Φ 1 ∗ Φ 2 ∗ Φ 3) ⊣⊢ iprop(Φ 3 ∗ Φ 0 ∗ Φ 1 ∗ Φ 2)
    constructor
    · iintro ⟨H0, H1, H2, H3⟩
      isplitl [H3]; · iexact H3
      isplitl [H0]; · iexact H0
      isplitl [H1]; · iexact H1
      iexact H2
    · iintro ⟨H3, H0, H1, H2⟩
      isplitl [H0]; · iexact H0
      isplitl [H1]; · iexact H1
      isplitl [H2]; · iexact H2
      iexact H3

theorem ownSemFacts : Pipeline.OwnSemFacts cfg0.spec osem := by decide

omit [FloatOps F] in
theorem kcell_injective : Function.Injective (kcell : Dev nD × Fin 7 → GSem nD τ sig) := by decide
def ringCells : Finset (GSem nD τ sig) := Finset.univ.map ⟨kcell, kcell_injective⟩

/-- A device's own cells' duty tokens as minted: (device, which): its barrier's three duties, its three send cells' duty 0,
    its three receive cells' duty 0. -/
abbrev tokOf (cj : Dev nD × Fin 9) : GSem nD τ sig × ℕ × Fin 3 := match cj.2 with
  | 0 => (barCell cj.1, 0, 0) | 1 => (barCell cj.1, 0, 1) | 2 => (barCell cj.1, 0, 2)
  | 3 => (sendCell cj.1 0, 0, 0) | 4 => (sendCell cj.1 1, 0, 0) | 5 => (sendCell cj.1 2, 0, 0)
  | 6 => (recvCell cj.1 (peer cj.1 0), 0, 0) | 7 => (recvCell cj.1 (peer cj.1 1), 0, 0) | 8 => (recvCell cj.1 (peer cj.1 2), 0, 0)
omit [FloatOps F] in
theorem tokOf_injective : Function.Injective (tokOf : Dev nD × Fin 9 → GSem nD τ sig × ℕ × Fin 3) := by decide
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun d : Fin 3 => dutyTok ER (barCell c) 0 d)
    ∗ (bigSep Finset.univ fun k : Fin 3 => dutyTok ER (sendCell c k) 0 (0 : Fin 3))
    ∗ (bigSep Finset.univ fun d : Fin 3 => dutyTok ER (recvCell c (peer c d)) 0 (0 : Fin 3)))

/-- What the launch element deals device `c`. -/
def G (c : Dev nD) : sProp 𝕄 :=
  iprop((bigSep Finset.univ fun k : Fin 7 => roundState ER (Rd m ρ) (kcell (c, k)) 0)
    ∗ (bigSep Finset.univ fun k : Fin 7 => iprop(atPos ER (kcell (c, k)) 0 ∅ 0 ∗ reached ER (kcell (c, k)) 0)) ∗ toks c)

/-- What the global step makes of it: the device's ghost state, and its one untouched own semaphore at zero. -/
def G' (c : Dev nD) : sProp 𝕄 := iprop((∃ K, ghost m ρ K c) ∗ semVal (recvCell c c) 0)

omit [FloatOps F] in
private theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
private theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
private theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The rounds' launch element funds every device's share. -/
theorem fund_rounds : BI.own (ER (initOf ringCells ringToks)) ⊢ (|==> bigSep Finset.univ (G m ρ) : sProp 𝕄) := by
  have hX (Φ : GSem nD τ sig → sProp 𝕄) :
      bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    refine bigSep_mono fun c _ => ?_
    unfold toks
    rw [bigSep_fin9, bigSep_fin3, bigSep_fin3, bigSep_fin3]
    show iprop(dutyTok ER (barCell c) 0 (0 : Fin 3) ∗ dutyTok ER (barCell c) 0 (1 : Fin 3) ∗ dutyTok ER (barCell c) 0 (2 : Fin 3)
        ∗ dutyTok ER (sendCell c 0) 0 (0 : Fin 3) ∗ dutyTok ER (sendCell c 1) 0 (0 : Fin 3) ∗ dutyTok ER (sendCell c 2) 0 (0 : Fin 3)
        ∗ dutyTok ER (recvCell c (peer c 0)) 0 (0 : Fin 3) ∗ dutyTok ER (recvCell c (peer c 1)) 0 (0 : Fin 3)
        ∗ dutyTok ER (recvCell c (peer c 2)) 0 (0 : Fin 3)) ⊢ _
    iintro ⟨H0, H1, H2, H3, H4, H5, H6, H7, H8⟩
    isplitl [H0 H1 H2]
    · isplitl [H0]; · iexact H0
      isplitl [H1]; · iexact H1
      iexact H2
    isplitl [H3 H4 H5]
    · isplitl [H3]; · iexact H3
      isplitl [H4]; · iexact H4
      iexact H5
    isplitl [H6]; · iexact H6
    isplitl [H7]; · iexact H7
    iexact H8
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
private theorem ownSems0_chain (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0 ∗ semVal (recvCell c 3) 0) := by
  rw [Pipeline.ownSems0_eq_of_list c osem [0, 1, 2, 3, 4, 5, 6] (by decide) (by decide)]; rfl

omit [FloatOps F] in
/-- The barrier semaphore is the launch's one unscoped semaphore. -/
private theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's eight semaphores at zero: the seven its cells stand on, and its own slot's receive semaphore. -/
private theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 7 => semVal (kcell (c, k)) 0) ∗ semVal (recvCell c c) 0) : sProp 𝕄) := by
  rw [ownSems0_chain, unscopedSems0_eq, bigSep_fin7]
  iintro ⟨⟨HS0, HS1, HS2, HR⟩, HB⟩
  ihave HR' := (slots_perm c (fun s : Fin 4 => (semVal (recvCell c s) 0 : sProp 𝕄))).1 $$ HR
  icases HR' with ⟨HRc, HR0, HR1, HR2⟩
  isplitr [HRc]
  · isplitl [HB]; · iexact HB
    isplitl [HS0]; · iexact HS0
    isplitl [HS1]; · iexact HS1
    isplitl [HS2]; · iexact HS2
    isplitl [HR0]; · iexact HR0
    isplitl [HR1]; · iexact HR1
    iexact HR2
  iexact HRc

/-- One device's seven invariants, allocated over its semaphores at zero and what the launch element dealt it. -/
private theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 7 => iprop(∃ κ : ℕ, cellInv ER (Rd m ρ) κ (kcell (c, k))))
          ∗ (bigSep Finset.univ fun k : Fin 7 => iprop(atPos ER (kcell (c, k)) 0 ∅ 0 ∗ reached ER (kcell (c, k)) 0)) ∗ toks c
          ∗ semVal (recvCell c c) 0) := by
  unfold G
  iintro ⟨Hos, Hus, Hst, Hat, Htok⟩
  ihave Hv := (sems0_eq (F := F) c) $$ [Hos Hus]
  · isplitl [Hos] <;> iassumption
  icases Hv with ⟨Hv, Hcc⟩
  imod (show iprop((bigSep Finset.univ fun k : Fin 7 => semVal (kcell (c, k)) 0) ∗ bigSep Finset.univ fun k : Fin 7 => roundState ER (Rd m ρ) (kcell (c, k)) 0)
      ⊢ (|={Set.univ}=> bigSep Finset.univ fun k : Fin 7 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hcc

private theorem records_persistent (K : Dev nD × Fin 7 → ℕ) : BI.Persistent (records m ρ K) := by
  unfold records; infer_instance

omit [FloatOps F] in
/-- A barrier duty's tokens, one a device, dealt `d + 1` places back: each to the device that pays it. -/
private theorem bar_around (d : Fin 3) :
    bigSep Finset.univ (fun c : Dev nD => (dutyTok ER (barCell c) 0 d : sProp 𝕄))
      = bigSep Finset.univ (fun c : Dev nD => (dutyTok ER (barCell (peer c d)) 0 d : sProp 𝕄)) :=
  bigSep_univ_equiv (turn d) (fun c : Dev nD => (dutyTok ER (barCell c) 0 d : sProp 𝕄))

omit [FloatOps F] in
/-- Anything indexed by a device and the device `d + 1` places before it, re-indexed from the latter. -/
private theorem turn_bigSep (d : Fin 3) (R : Dev nD → Dev nD → sProp 𝕄) :
    bigSep Finset.univ (fun c : Dev nD => R c (back c d)) = bigSep Finset.univ (fun c : Dev nD => R (peer c d) c) := by
  rw [bigSep_univ_equiv (turn d) (fun c : Dev nD => R c (back c d))]
  exact bigSep_congr fun c _ => by show R (peer c d) (back (peer c d) d) = _; rw [back_peer]

omit [FloatOps F] in
/-- A device's receive token for the slot of the device `d' + 1` places after it goes to that device, which sees the
    receiver `d + 1` places after itself: the two offsets are complementary. -/
private theorem recv_around (d d' : Fin 3) (hd : ∀ c : Dev nD, peer c d' = back c d) :
    bigSep Finset.univ (fun c : Dev nD => (dutyTok ER (recvCell c (peer c d')) 0 (0 : Fin 3) : sProp 𝕄))
      = bigSep Finset.univ (fun c : Dev nD => (dutyTok ER (recvCell (peer c d) c) 0 (0 : Fin 3) : sProp 𝕄)) := by
  have e : (fun c : Dev nD => (dutyTok ER (recvCell c (peer c d')) 0 (0 : Fin 3) : sProp 𝕄))
      = fun c : Dev nD => dutyTok ER (recvCell c (back c d)) 0 (0 : Fin 3) := funext fun c => by rw [hd c]
  rw [e]
  exact turn_bigSep d (fun c s : Dev nD => (dutyTok ER (recvCell c s) 0 (0 : Fin 3) : sProp 𝕄))

omit [FloatOps F] in
/-- The tokens dealt around the mesh: every duty's token to the device that pays it. -/
private theorem toks_around : (bigSep Finset.univ fun c : Dev nD => (toks c : sProp 𝕄)) ⊢ bigSep Finset.univ fun c : Dev nD => payToks c := by
  unfold toks payToks
  simp only [bigSep_fin3, bigSep_sep']
  iintro ⟨⟨HB0, HB1, HB2⟩, HS, HR0, HR1, HR2⟩
  isplitl [HB0 HB1 HB2]
  · isplitl [HB0]; · iapply (Entails.of_eq (bar_around (F := F) 0)); iexact HB0
    isplitl [HB1]; · iapply (Entails.of_eq (bar_around (F := F) 1)); iexact HB1
    iapply (Entails.of_eq (bar_around (F := F) 2)); iexact HB2
  isplitr [HS]
  · isplitl [HR2]; · iapply (Entails.of_eq (recv_around (F := F) 0 2 (by decide))); iexact HR2
    isplitl [HR1]; · iapply (Entails.of_eq (recv_around (F := F) 1 1 (by decide))); iexact HR1
    iapply (Entails.of_eq (recv_around (F := F) 2 0 (by decide))); iexact HR0
  iexact HS

omit [FloatOps F] in
private theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

private theorem ghost_intro (K : Dev nD × Fin 7 → ℕ) (c : Dev nD) :
    iprop(records m ρ K ∗ (linear c ∗ semVal (recvCell c c) 0)) ⊢ G' m ρ c := by
  unfold G' ghost
  iintro ⟨HR, Hl, Hs⟩
  isplitl [HR Hl]
  · iexists K
    isplitl [HR]; · iexact HR
    iexact Hl
  iexact Hs

private theorem regroup :
    (bigSep Finset.univ fun c : Dev nD => iprop((bigSep Finset.univ fun k : Fin 7 => iprop(∃ κ : ℕ, cellInv ER (Rd m ρ) κ (kcell (c, k))))
          ∗ (bigSep Finset.univ fun k : Fin 7 => iprop(atPos ER (kcell (c, k)) 0 ∅ 0 ∗ reached ER (kcell (c, k)) 0)) ∗ toks c
          ∗ semVal (recvCell c c) 0) : sProp 𝕄)
      ⊢ bigSep Finset.univ (G' m ρ) := by
  rw [bigSep_sep', bigSep_sep', bigSep_sep', ← bigSep_univ_prod (fun ck : Dev nD × Fin 7 => iprop(∃ κ : ℕ, cellInv ER (Rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, Hcc⟩
  ihave HK := (BI.bigSep_exists_pi Finset.univ (fun (ck : Dev nD × Fin 7) (κ : ℕ) => (cellInv ER (Rd m ρ) κ (kcell ck) : sProp 𝕄))) $$ HI
  icases HK with ⟨%K, #HI⟩
  ihave Htk := (toks_around (F := F)) $$ Htok
  haveI := records_persistent m ρ K
  iapply (bigSep_with_persistent (R := records m ρ K) fun c _ => ghost_intro m ρ K c)
  isplitr
  · unfold records; isplitl; · iexact HI
    iexact HR
  · iapply (show iprop((bigSep Finset.univ fun c : Dev nD => bigSep Finset.univ fun k : Fin 7 => (atPos ER (kcell (c, k)) 0 ∅ 0 : sProp 𝕄))
          ∗ (bigSep Finset.univ fun c : Dev nD => (payToks c : sProp 𝕄))
          ∗ bigSep Finset.univ fun c : Dev nD => (semVal (recvCell c c) 0 : sProp 𝕄))
        ⊢ bigSep Finset.univ fun c : Dev nD => iprop(linear c ∗ semVal (recvCell c c) 0) from by
          unfold linear
          rw [bigSep_sep', bigSep_sep']
          iintro ⟨H1, H2, H3⟩
          isplitl [H1 H2]
          · isplitl [H1] <;> iassumption
          iexact H3)
    isplitl [Hat]; · iexact Hat
    isplitl [Htk]; · iexact Htk
    iexact Hcc

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

omit [FloatOps F] in
/-- The seven own semaphores of a device, one by one. -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0 ∗ semVal (recvCell c 3) 0) := by
  rw [Pipeline.ownSems0_eq_of_list c osem [0, 1, 2, 3, 4, 5, 6] (by decide) (by decide)]; rfl

end Cert.KernelIdeal.Proto

end
-- ==== Proof.KI.Body.lean ====
/-
  One device's kernel body, stepped once at a symbolic device `c`: the three entry signals (each handing a peer the slot
  it will write), the block's exponentials and row sums stored into the device's own slot, the barrier wait (the three
  peers' slots come with it), the three copies of the own slot (each through a quarter share of it), the three receive
  waits (the peers' sums land), the whole scratch read through the kept quarter, the result stored, the three send
  waits (the quarters come back), and the scratch whole again.
-/
import proofs.«900605_g7700000000000606_dist_softmax_colshard_i_m512_n256_v7x_i4_bf16_1_alg».proof.Proof.KI.Proto
import proofs.«900605_g7700000000000606_dist_softmax_colshard_i_m512_n256_v7x_i4_bf16_1_alg».proof.Proof.KI.Tables
import proofs.«900605_g7700000000000606_dist_softmax_colshard_i_m512_n256_v7x_i4_bf16_1_alg».proof.Proof.KI.Geom
import proofs.«900605_g7700000000000606_dist_softmax_colshard_i_m512_n256_v7x_i4_bf16_1_alg».proof.Proof.KI.Ghost

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Small facts about the mesh and the cells -/

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The device `d + 1` places back is the device `3 - d` places on; going on from a peer by the complementary number of
    places comes back. -/
theorem back0 (c : Dev nD) : back c 0 = peer c 2 := by revert c; decide
theorem back1 (c : Dev nD) : back c 1 = peer c 1 := by revert c; decide
theorem back2 (c : Dev nD) : back c 2 = peer c 0 := by revert c; decide
theorem pp0 (c : Dev nD) : peer (peer c 0) 2 = c := by revert c; decide
theorem pp1 (c : Dev nD) : peer (peer c 1) 1 = c := by revert c; decide
theorem pp2 (c : Dev nD) : peer (peer c 2) 0 = c := by revert c; decide

theorem inv_at (K : Dev nD × Fin 7 → ℕ) (ck : Dev nD × Fin 7) :
    (bigSep Finset.univ fun ck : Dev nD × Fin 7 => (cellInv ER (Rd m ρ) (K ck) (kcell ck) : sProp 𝕄)) ⊢ cellInv ER (Rd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-! ## The program's own spelling of its slots and semaphores -/

theorem slot_of_off (off : Fin 3 → Nat) (h : ∀ a, off a + S1x1x512.size a ≤ S4x1x512.size a) (s : Fin 4) (e : off = slotOff s) :
    (((gM : Memref sig .tc .vmem S4x1x512 .f32).slice (Rect.unit (s := S4x1x512) off S1x1x512.size h) (fun _ => rfl)).squeeze S1x512 squeezes_S1x1x512_S1x512
      : Memref sig .tc .vmem S1x512 .f32) = slotM s := by
  subst e; rfl
theorem recvQ_of_off (off : Fin 1 → Nat) (h : ∀ a, off a + S1.size a ≤ S4.size a) (s : Fin 4) (e : off = ![s.val]) :
    ((cc0_scratch2.slice (Rect.unit (s := S4) off S1.size h)).squeeze S_ squeezes_S1_S_).sem = recvQ s := by
  subst e; rfl

/-- A device's own slot and receive semaphore, and its peers', as the kernel computes them. -/
theorem own_slot_eq (c : Dev nD) :
    (((gM : Memref sig .tc .vmem S4x1x512 .f32).slice (Rect.unit (s := S4x1x512) (k0_off3 c) S1x1x512.size (k0_off3_inb c)) (fun _ => rfl)).squeeze S1x512 squeezes_S1x1x512_S1x512
      : Memref sig .tc .vmem S1x512 .f32) = slotM c := slot_of_off _ _ c (k0_off3_eq c)
theorem peer_slot_eq0 (c : Dev nD) :
    (((gM : Memref sig .tc .vmem S4x1x512 .f32).slice (Rect.unit (s := S4x1x512) (k0_off5 c 1#32) S1x1x512.size (k0_off5_inb c 0)) (fun _ => rfl)).squeeze S1x512 squeezes_S1x1x512_S1x512
      : Memref sig .tc .vmem S1x512 .f32) = slotM (peer c 0) := slot_of_off _ _ _ (k0_off5_eq c ⟨0, by decide⟩)
theorem peer_slot_eq1 (c : Dev nD) :
    (((gM : Memref sig .tc .vmem S4x1x512 .f32).slice (Rect.unit (s := S4x1x512) (k0_off5 c 2#32) S1x1x512.size (k0_off5_inb c 1)) (fun _ => rfl)).squeeze S1x512 squeezes_S1x1x512_S1x512
      : Memref sig .tc .vmem S1x512 .f32) = slotM (peer c 1) := slot_of_off _ _ _ (k0_off5_eq c ⟨1, by decide⟩)
theorem peer_slot_eq2 (c : Dev nD) :
    (((gM : Memref sig .tc .vmem S4x1x512 .f32).slice (Rect.unit (s := S4x1x512) (k0_off5 c 3#32) S1x1x512.size (k0_off5_inb c 2)) (fun _ => rfl)).squeeze S1x512 squeezes_S1x1x512_S1x512
      : Memref sig .tc .vmem S1x512 .f32) = slotM (peer c 2) := slot_of_off _ _ _ (k0_off5_eq c ⟨2, by decide⟩)
theorem recv_own_eq (c : Dev nD) :
    ((cc0_scratch2.slice (Rect.unit (s := S4) (k0_off2 c) S1.size (k0_off2_inb c))).squeeze S_ squeezes_S1_S_).sem = recvQ c :=
  recvQ_of_off _ _ c (k0_off2_eq c)
theorem recv_peer_eq0 (c : Dev nD) :
    ((cc0_scratch2.slice (Rect.unit (s := S4) (k0_off4 c 1#32) S1.size (k0_off4_inb c 0))).squeeze S_ squeezes_S1_S_).sem = recvQ (peer c 0) :=
  recvQ_of_off _ _ _ (k0_off4_eq c ⟨0, by decide⟩)
theorem recv_peer_eq1 (c : Dev nD) :
    ((cc0_scratch2.slice (Rect.unit (s := S4) (k0_off4 c 2#32) S1.size (k0_off4_inb c 1))).squeeze S_ squeezes_S1_S_).sem = recvQ (peer c 1) :=
  recvQ_of_off _ _ _ (k0_off4_eq c ⟨1, by decide⟩)
theorem recv_peer_eq2 (c : Dev nD) :
    ((cc0_scratch2.slice (Rect.unit (s := S4) (k0_off4 c 3#32) S1.size (k0_off4_inb c 2))).squeeze S_ squeezes_S1_S_).sem = recvQ (peer c 2) :=
  recvQ_of_off _ _ _ (k0_off4_eq c ⟨2, by decide⟩)

/-! ## Whole-buffer reads and the result's store -/

abbrev rX : Rect S512x256 := Rect.unit (s := S512x256) ![0, 0] S512x256.size inb_S512x256_S512x256_0_0
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x256 .f32).view.readAt (Elt F) rX.toLoadRect f = f :=
  Memref.readAt_unit_zero (Elt F) cc0_stg0_0 hz2 _ f
omit [FloatOps F] in
theorem write_out (f w : (cc0_stg1_0 : Ref sig .tc).ty.Contents (Elt F)) :
    ((oM : Memref sig .tc .vmem S512x256 .bf16).access rX : View sig .tc _ _ _).write (Elt F) f w Finset.univ = w :=
  Memref.write_access_unit_zero_univ (Elt F) cc0_stg1_0 hz2 _ f w

/-- A slot's copy credits the slot's units. -/
theorem slot_credit (s : Fin 4) : (slotM s : Memref sig .tc .vmem S1x512 .f32).view.dmaCredit = N := slot_amount s 0

set_option maxHeartbeats 1600000 in
/-- Copy number `d` of device `c`: its own slot, read through the quarter share `qs d`, into slot `c` of the device `peer c d`
    (the program's `n`), which `c` holds at any contents; the send cell's duty will hand the quarter back, the peer's receive
    cell's duty hands the peer its slot `c` holding the gathered sums. -/
theorem wp_send_slot (c n : Dev nD) (d : Fin 3) (hn : n = peer c d) (κ₁ κ₂ : ℕ)
    {hsc : (slotM c : Memref sig (Dev.tc n : Thread nD τ).2.kind .vmem S1x512 .f32).view.ref.isScScratch = false}
    {hsrc : (slotM c : Memref sig .tc .vmem S1x512 .f32).view.WordExact} {hdst : (slotM c : Memref sig .tc .vmem S1x512 .f32).view.WordExact}
    {hsem : DmaTarget.Typed .vmem (.dma (recvQ c)) (.remote (Dev.tc n : Thread nD τ) (slotM c : Memref sig .tc .vmem S1x512 .f32) (.dma (sendQ d)) hsc)}
    {α : Type} {Q : α → sProp 𝕄} {k : PUnit → Prog (TpuEff nD τ sig (Elt F) Λ₀ .tc) α}
    (fn : Buf (Elt F) ((peer c d : Thread nD τ).loc cc0_scratch0)) (O₀ O : CellTallies nD τ sig Unit)
    (hO : O₀ = O + tallyAt (recvCell (peer c d) c) () N) (W : Waits sig Unit) :
    iprop(cellInv ER (Rd m ρ) κ₁ (sendCell c d) ∗ cellInv ER (Rd m ρ) κ₂ (recvCell (peer c d) c)
        ∗ slotPts c c (qs d) (gathB m ρ c) ∗ slotPts (peer c d) c fullShare fn
        ∗ owes (c : Thread nD τ) O₀ W
        ∗ dutyTok ER (sendCell c d) 0 (0 : Fin 3) ∗ reached ER (sendCell c d) 0
        ∗ dutyTok ER (recvCell (peer c d) c) 0 (0 : Fin 3) ∗ reached ER (recvCell (peer c d) c) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc n : Thread nD τ) (slotM c) (.dma (sendQ d)) hsc) (.dma (recvQ c)) hsrc hdst hsem) k) Q) := by
  subst hn
  unfold slotPts
  exact Rounds.wp_send_pointsTo 𝒱₀ ER (Rd m ρ) (c : Thread nD τ) none
    (c' := (peer c d : Thread nD τ)) (src := (slotM c : Memref sig .tc .vmem S1x512 .f32)) (dst := (slotM c : Memref sig .tc .vmem S1x512 .f32))
    (sS := .dma (sendQ d)) (sem := .dma (recvQ c)) (hsc := hsc) (hsrc := hsrc) (hdst := hdst) (hsem := hsem) (k := k) (Q := Q)
    (κ₁ := κ₁) (κ₂ := κ₂) (r₁ := 0) (r₂ := 0) (d₁ := 0) (d₂ := 0) (fs := gathB m ρ c) (fd := fn) (q := qs d)
    (by rw [duties_send]; exact Finset.mem_singleton_self _) (by rw [duties_recv]; exact Finset.mem_singleton_self _)
    () () N (slot_amount c _) (amount_send m ρ c d 0) (amount_recv m ρ (peer c d) c 0) O hO (W := W)
    (by rw [payload_send]; exact BI.Entails.refl _)
    (by rw [payload_recv]; unfold recvPay slotPts
        exact Entails.of_eq (slot_congr (peer c d) c fullShare _ _ (fun i hi => landed_slot m ρ (peer c d) c fn i hi)))

set_option maxHeartbeats 800000 in
/-- The body, from `bodyPre` to `bodyPost`. -/
theorem sound_body (K : Dev nD × Fin 7 → ℕ) (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part1_eq_skeleton, k0_part2_eq_skeleton, k0_part3_eq_skeleton, k0_part4_eq_skeleton]
  unfold k0_part1_skel k0_part2_skel k0_part3_skel k0_part4_skel
  simp only [semSignalWord, semWaitWord, Prog.lift, Prog.bind_op, Prog.bind_ret, Prog.pure_eq_ret, wp_deviceId]
  -- the program's own spelling of its devices, slots and semaphores, in closed form
  have e1 : k0_off1 c = slotOff c := k0_off1_eq c
  have e3 : k0_off3 c = slotOff c := k0_off3_eq c
  have e2 : k0_off2 c = ![c.val] := k0_off2_eq c
  have e41 : k0_off4 c 1#32 = ![(peer c 0).val] := k0_off4_eq c ⟨0, by decide⟩
  have e42 : k0_off4 c 2#32 = ![(peer c 1).val] := k0_off4_eq c ⟨1, by decide⟩
  have e43 : k0_off4 c 3#32 = ![(peer c 2).val] := k0_off4_eq c ⟨2, by decide⟩
  have e51 : k0_off5 c 1#32 = slotOff (peer c 0) := k0_off5_eq c ⟨0, by decide⟩
  have e52 : k0_off5 c 2#32 = slotOff (peer c 1) := k0_off5_eq c ⟨1, by decide⟩
  have e53 : k0_off5 c 3#32 = slotOff (peer c 2) := k0_off5_eq c ⟨2, by decide⟩
  simp only [e1, e2, e3, e41, e42, e43, e51, e52, e53, dev1_eq c, dev2_eq c, dev3_eq c, dev4_eq c, dev5_eq c, dev6_eq c]
  unfold bodyPre ghost records linear payToks creds
  simp only [bigSep_fin3, bigSep_fin7]
  iintro ⟨⟨⟨⟨⟨#HI, #HR⟩, ⟨HaB, HaS0, HaS1, HaS2, HaV0, HaV1, HaV2⟩, ⟨HtB0, HtB1, HtB2⟩, ⟨HtV0, HtV1, HtV2⟩, ⟨HtS0, HtS1, HtS2⟩⟩,
      HzSelf, ⟨HcB, HcV0, HcV1, HcV2⟩, #Hlev, ⟨%f0, Hscr⟩⟩, Ho, ⟨%d0, %g0, %hg0, Hx⟩, ⟨%d1, %g1, %hg1, Hout⟩⟩, Hk⟩
  have hx : g0 = xs m ρ c := by rw [hg0]; unfold Dat.before; rw [if_pos (fetch0_0 t₀)]; rfl
  subst hx
  unfold Dat.owesAt Pipeline.owesWithin
  icases Ho with ⟨%W, %hW, HO⟩
  rw [show (dats m ρ 0 c).owed t₀.castSucc = O₀ c from rfl]
  -- the scratch by slots: the device's own, and the three it hands its peers
  unfold scrPts
  ihave Hs := (scr_split c fullShare f0).1 $$ Hscr
  ihave Hs' := (slots_perm c (fun s => (slotPts c s fullShare f0 : sProp 𝕄))).1 $$ Hs
  icases Hs' with ⟨Hown, Hp0, Hp1, Hp2⟩
  -- the three entry signals: signal `d` pays duty `d` of `peer c d`'s barrier cell with the slot that peer will write
  iapply (Rounds.wp_signal 𝒱₀ ER (Rd m ρ) (c : Thread nD τ) none (dst := (peer c 0 : Thread nD τ)) (κ := K (peer c 0, 0))
      (d := 0) (by rw [duties_bar]; exact Finset.mem_univ _) ((amount_bar m ρ (peer c 0) 0).trans (by decide)) () (A5 c) rfl)
    $$ [HO HtB0 Hp0]
  · isplitr; · iapply (inv_at m ρ K (peer c 0, 0)); iexact HI
    isplitl [HO]; · iexact HO
    isplitl [HtB0]; · iexact HtB0
    isplitl [Hp0]
    · rw [payload_bar]; unfold barPay; rw [back_peer]; iexists f0; iexact Hp0
    · iapply (reached_at (F := F) (peer c 0, 0)); iexact HR
  iintro HO
  iapply (Rounds.wp_signal 𝒱₀ ER (Rd m ρ) (c : Thread nD τ) none (dst := (peer c 1 : Thread nD τ)) (κ := K (peer c 1, 0))
      (d := 1) (by rw [duties_bar]; exact Finset.mem_univ _) ((amount_bar m ρ (peer c 1) 1).trans (by decide)) () (A4 c) rfl)
    $$ [HO HtB1 Hp1]
  · isplitr; · iapply (inv_at m ρ K (peer c 1, 0)); iexact HI
    isplitl [HO]; · iexact HO
    isplitl [HtB1]; · iexact HtB1
    isplitl [Hp1]
    · rw [payload_bar]; unfold barPay; rw [back_peer]; iexists f0; iexact Hp1
    · iapply (reached_at (F := F) (peer c 1, 0)); iexact HR
  iintro HO
  iapply (Rounds.wp_signal 𝒱₀ ER (Rd m ρ) (c : Thread nD τ) none (dst := (peer c 2 : Thread nD τ)) (κ := K (peer c 2, 0))
      (d := 2) (by rw [duties_bar]; exact Finset.mem_univ _) ((amount_bar m ρ (peer c 2) 2).trans (by decide)) () (A3 c) rfl)
    $$ [HO HtB2 Hp2]
  · isplitr; · iapply (inv_at m ρ K (peer c 2, 0)); iexact HI
    isplitl [HO]; · iexact HO
    isplitl [HtB2]; · iexact HtB2
    isplitl [Hp2]
    · rw [payload_bar]; unfold barPay; rw [back_peer]; iexists f0; iexact Hp2
    · iapply (reached_at (F := F) (peer c 2, 0)); iexact HR
  iintro HO
  -- the block, read; the own slot read (the value is not used) and stored with the block's row sums
  iapply (wp_load 𝒱₀ (c : Thread nD τ) none Set.univ (m := xM) (Finset.subset_univ _)) $$ Hx; iintro Hx
  rw [read_x]
  ihave Hown := (show (slotPts c c fullShare f0 : sProp 𝕄)
      ⊢ ((gM : Memref sig .tc .vmem S4x1x512 .f32).view.loc (c : Thread nD τ) ↦[(slotM c : Memref sig .tc .vmem S1x512 .f32).view.set]{fullShare} f0)
      from BI.Entails.refl _) $$ Hown
  iapply (wp_load 𝒱₀ (c : Thread nD τ) none Set.univ (m := gM) (S := (slotM c : Memref sig .tc .vmem S1x512 .f32).view.set) (own_load_sub c)) $$ Hown; iintro Hown
  iapply (wp_store 𝒱₀ (c : Thread nD τ) none Set.univ (m := gM) (r := Rect.unit (s := S4x1x512) (k0_off1 c) S1x1x512.size (k0_off1_inb c)) (Mk := Finset.univ)
      (S := (slotM c : Memref sig .tc .vmem S1x512 .f32).view.set) (own_store_sub c)) $$ Hown; iintro Hown
  ihave Hown := (show ((((gM : Memref sig .tc .vmem S4x1x512 .f32).access (Rect.unit (s := S4x1x512) (k0_off1 c) S1x1x512.size (k0_off1_inb c)) : View sig .tc _ _ _).loc (c : Thread nD τ))
        ↦[(slotM c : Memref sig .tc .vmem S1x512 .f32).view.set]{fullShare}
        (((gM : Memref sig .tc .vmem S4x1x512 .f32).access (Rect.unit (s := S4x1x512) (k0_off1 c) S1x1x512.size (k0_off1_inb c)) : View sig .tc _ _ _).write (Elt F) f0 (k0_pay2 (xs m ρ c)) Finset.univ) : sProp 𝕄)
      ⊢ slotPts c c fullShare (gathB m ρ c)
      from Entails.of_eq (slot_congr (F := F) c c fullShare _ (gathB m ρ c) (fun i hi => stored_own m ρ c f0 i hi))) $$ Hown
  -- the own slot's full share: a quarter per copy, a quarter kept
  ihave Hsh := (slot_shares (F := F) c c (gathB m ρ c)).1 $$ Hown
  icases Hsh with ⟨Hq0, Hq1, Hq2, HqK⟩
  -- the WAIT for 3 on the own barrier, owing the three receive credits: the three peers' slots `c` come with it
  iapply (Rounds.wp_wait_rest_token 𝒱₀ ER (Rd m ρ) (c : Thread nD τ) none (κ := K (c, 0))
      (wpE_semWait_eq 𝒱₀ (c : Thread nD τ) none Set.univ) (Set.mem_univ _) () (O := A3 c) (R := 0) (m := 0) (T := ∅)
      (by rw [expect_bar]; decide)) $$ [HcB HO HaB]
  · isplitr; · iapply (inv_at m ρ K (c, 0)); iexact HI
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  rw [back0, back1, back2]
  icases Hp with ⟨⟨%fn2, Hd2⟩, ⟨%fn1, Hd1⟩, ⟨%fn0, Hd0⟩⟩
  -- the program's slots and semaphores by their numbers
  simp only [own_slot_eq c, peer_slot_eq0 c, peer_slot_eq1 c, peer_slot_eq2 c, recv_own_eq c, recv_peer_eq0 c, recv_peer_eq1 c, recv_peer_eq2 c]
  -- the three COPIES of the own slot
  iapply (wp_send_slot m ρ c _ 0 (dev4_eq c) (K (c, 1)) (K (peer c 0, 6)) fn0 (A3 c) (A2 c) rfl _) $$ [Hq0 Hd0 HO HtS0 HtV0]
  · isplitr; · iapply (inv_at m ρ K (c, 1)); iexact HI
    isplitr
    · ihave Hi := (inv_at m ρ K (peer c 0, 6)) $$ HI
      rw [show kcell (peer c 0, 6) = recvCell (peer c 0) c from by show recvCell (peer c 0) (peer (peer c 0) 2) = _; rw [pp0]]
      iexact Hi
    isplitl [Hq0]; · iexact Hq0
    isplitl [Hd0]; · iexact Hd0
    isplitl [HO]; · iexact HO
    isplitl [HtS0]; · iexact HtS0
    isplitr; · iapply (reached_at (F := F) (c, 1)); iexact HR
    isplitl [HtV0]; · iexact HtV0
    ihave Hi := (reached_at (F := F) (peer c 0, 6)) $$ HR
    rw [show kcell (peer c 0, 6) = recvCell (peer c 0) c from by show recvCell (peer c 0) (peer (peer c 0) 2) = _; rw [pp0]]
    iexact Hi
  iintro ⟨HcS0, HO⟩
  -- (the rest of the chain)
  iapply (wp_send_slot m ρ c _ 1 (dev5_eq c) (K (c, 2)) (K (peer c 1, 5)) fn1 (A2 c) (A1 c) rfl _) $$ [Hq1 Hd1 HO HtS1 HtV1]
  · isplitr; · iapply (inv_at m ρ K (c, 2)); iexact HI
    isplitr
    · ihave Hi := (inv_at m ρ K (peer c 1, 5)) $$ HI
      rw [show kcell (peer c 1, 5) = recvCell (peer c 1) c from by show recvCell (peer c 1) (peer (peer c 1) 1) = _; rw [pp1]]
      iexact Hi
    isplitl [Hq1]; · iexact Hq1
    isplitl [Hd1]; · iexact Hd1
    isplitl [HO]; · iexact HO
    isplitl [HtS1]; · iexact HtS1
    isplitr; · iapply (reached_at (F := F) (c, 2)); iexact HR
    isplitl [HtV1]; · iexact HtV1
    ihave Hi := (reached_at (F := F) (peer c 1, 5)) $$ HR
    rw [show kcell (peer c 1, 5) = recvCell (peer c 1) c from by show recvCell (peer c 1) (peer (peer c 1) 1) = _; rw [pp1]]
    iexact Hi
  iintro ⟨HcS1, HO⟩
  iapply (wp_send_slot m ρ c _ 2 (dev6_eq c) (K (c, 3)) (K (peer c 2, 4)) fn2 (A1 c) 0 (by unfold A1; rw [zero_add]) _) $$ [Hq2 Hd2 HO HtS2 HtV2]
  · isplitr; · iapply (inv_at m ρ K (c, 3)); iexact HI
    isplitr
    · ihave Hi := (inv_at m ρ K (peer c 2, 4)) $$ HI
      rw [show kcell (peer c 2, 4) = recvCell (peer c 2) c from by show recvCell (peer c 2) (peer (peer c 2) 0) = _; rw [pp2]]
      iexact Hi
    isplitl [Hq2]; · iexact Hq2
    isplitl [Hd2]; · iexact Hd2
    isplitl [HO]; · iexact HO
    isplitl [HtS2]; · iexact HtS2
    isplitr; · iapply (reached_at (F := F) (c, 3)); iexact HR
    isplitl [HtV2]; · iexact HtV2
    ihave Hi := (reached_at (F := F) (peer c 2, 4)) $$ HR
    rw [show kcell (peer c 2, 4) = recvCell (peer c 2) c from by show recvCell (peer c 2) (peer (peer c 2) 0) = _; rw [pp2]]
    iexact Hi
  iintro ⟨HcS2, HO⟩
  -- the three receive WAITS: each peer's sums land in its slot
  iapply (Rounds.wp_wait_rest_token 𝒱₀ ER (Rd m ρ) (c : Thread nD τ) none (κ := K (c, 4))
      (wpE_waitDma2_eq 𝒱₀ (c : Thread nD τ) none Set.univ) (Set.mem_univ _) () (O := 0) (R := 0) (m := 0) (T := ∅)
      (by rw [Nat.zero_add, expect_recv])) $$ [HcV0 HO HaV0]
  · isplitr; · iapply (inv_at m ρ K (c, 4)); iexact HI
    isplitl [HcV0]; · iexact HcV0
    isplitl [HO]; · iexact HO
    isplitr; · rw [MayWait_zero]; iempintro
    iexact HaV0
  iintro ⟨HO, HaV0, -, Hpay⟩
  ihave Hr0 := (Entails.of_eq (rest_recv m ρ c (peer c 0))) $$ Hpay
  iapply (Rounds.wp_wait_rest_token 𝒱₀ ER (Rd m ρ) (c : Thread nD τ) none (κ := K (c, 5))
      (wpE_waitDma2_eq 𝒱₀ (c : Thread nD τ) none Set.univ) (Set.mem_univ _) () (O := 0) (R := 0) (m := 0) (T := ∅)
      (by rw [Nat.zero_add, expect_recv])) $$ [HcV1 HO HaV1]
  · isplitr; · iapply (inv_at m ρ K (c, 5)); iexact HI
    isplitl [HcV1]; · iexact HcV1
    isplitl [HO]; · iexact HO
    isplitr; · rw [MayWait_zero]; iempintro
    iexact HaV1
  iintro ⟨HO, HaV1, -, Hpay⟩
  ihave Hr1 := (Entails.of_eq (rest_recv m ρ c (peer c 1))) $$ Hpay
  iapply (Rounds.wp_wait_rest_token 𝒱₀ ER (Rd m ρ) (c : Thread nD τ) none (κ := K (c, 6))
      (wpE_waitDma2_eq 𝒱₀ (c : Thread nD τ) none Set.univ) (Set.mem_univ _) () (O := 0) (R := 0) (m := 0) (T := ∅)
      (by rw [Nat.zero_add, expect_recv])) $$ [HcV2 HO HaV2]
  · isplitr; · iapply (inv_at m ρ K (c, 6)); iexact HI
    isplitl [HcV2]; · iexact HcV2
    isplitl [HO]; · iexact HO
    isplitr; · rw [MayWait_zero]; iempintro
    iexact HaV2
  iintro ⟨HO, HaV2, -, Hpay⟩
  ihave Hr2 := (Entails.of_eq (rest_recv m ρ c (peer c 2))) $$ Hpay
  unfold recvPay
  -- the whole scratch read through the kept quarter of every slot
  ihave Hs0 := (slot_shares (F := F) c (peer c 0) (gathB m ρ c)).1 $$ Hr0
  icases Hs0 with ⟨Ha0, Hb0, Hc0, Hk0⟩
  ihave Hs1 := (slot_shares (F := F) c (peer c 1) (gathB m ρ c)).1 $$ Hr1
  icases Hs1 with ⟨Ha1, Hb1, Hc1, Hk1⟩
  ihave Hs2 := (slot_shares (F := F) c (peer c 2) (gathB m ρ c)).1 $$ Hr2
  icases Hs2 with ⟨Ha2, Hb2, Hc2, Hk2⟩
  ihave Hall := (slots_perm c (fun s => (slotPts c s qK (gathB m ρ c) : sProp 𝕄))).2 $$ [HqK Hk0 Hk1 Hk2]
  · isplitl [HqK]; · iexact HqK
    isplitl [Hk0]; · iexact Hk0
    isplitl [Hk1]; · iexact Hk1
    iexact Hk2
  ihave Hwh := (scr_split c qK (gathB m ρ c)).2 $$ Hall
  iapply (wp_load 𝒱₀ (c : Thread nD τ) none Set.univ (m := gM) (Finset.subset_univ _)) $$ Hwh; iintro Hwh
  rw [read_gath]
  ihave Hall := (scr_split c qK (gathB m ρ c)).1 $$ Hwh
  ihave Hall' := (slots_perm c (fun s => (slotPts c s qK (gathB m ρ c) : sProp 𝕄))).1 $$ Hall
  icases Hall' with ⟨HqK, Hk0, Hk1, Hk2⟩
  ihave Hr0 := (slot_shares (F := F) c (peer c 0) (gathB m ρ c)).2 $$ [Ha0 Hb0 Hc0 Hk0]
  · isplitl [Ha0]; · iexact Ha0
    isplitl [Hb0]; · iexact Hb0
    isplitl [Hc0]; · iexact Hc0
    iexact Hk0
  ihave Hr1 := (slot_shares (F := F) c (peer c 1) (gathB m ρ c)).2 $$ [Ha1 Hb1 Hc1 Hk1]
  · isplitl [Ha1]; · iexact Ha1
    isplitl [Hb1]; · iexact Hb1
    isplitl [Hc1]; · iexact Hc1
    iexact Hk1
  ihave Hr2 := (slot_shares (F := F) c (peer c 2) (gathB m ρ c)).2 $$ [Ha2 Hb2 Hc2 Hk2]
  · isplitl [Ha2]; · iexact Ha2
    isplitl [Hb2]; · iexact Hb2
    isplitl [Hc2]; · iexact Hc2
    iexact Hk2
  -- the result: read (the value is not used) and stored
  iapply (wp_load 𝒱₀ (c : Thread nD τ) none Set.univ (m := oM) (Finset.subset_univ _)) $$ Hout; iintro Hout
  iapply (wp_store 𝒱₀ (c : Thread nD τ) none Set.univ (m := oM) (r := rX) (Mk := Finset.univ) (Finset.subset_univ _)) $$ Hout; iintro Hout
  rw [write_out]
  -- the three send WAITS: the quarters of the own slot come back
  iapply (Rounds.wp_wait_rest_token 𝒱₀ ER (Rd m ρ) (c : Thread nD τ) none (κ := K (c, 1))
      (wpE_waitDma2_eq 𝒱₀ (c : Thread nD τ) none Set.univ) (Set.mem_univ _) () (O := 0) (R := 0) (m := 0) (T := ∅)
      (by rw [Nat.zero_add]; exact (expect_send m ρ c 0).symm)) $$ [HcS0 HO HaS0]
  · isplitr; · iapply (inv_at m ρ K (c, 1)); iexact HI
    isplitl [HcS0]; · iexact HcS0
    isplitl [HO]; · iexact HO
    isplitr; · rw [MayWait_zero]; iempintro
    iexact HaS0
  iintro ⟨HO, HaS0, -, Hpay⟩
  ihave Hq0 := (Entails.of_eq (rest_send m ρ c 0)) $$ [Hpay]
  · iexact Hpay
  iapply (Rounds.wp_wait_rest_token 𝒱₀ ER (Rd m ρ) (c : Thread nD τ) none (κ := K (c, 2))
      (wpE_waitDma2_eq 𝒱₀ (c : Thread nD τ) none Set.univ) (Set.mem_univ _) () (O := 0) (R := 0) (m := 0) (T := ∅)
      (by rw [Nat.zero_add]; exact (expect_send m ρ c 1).symm)) $$ [HcS1 HO HaS1]
  · isplitr; · iapply (inv_at m ρ K (c, 2)); iexact HI
    isplitl [HcS1]; · iexact HcS1
    isplitl [HO]; · iexact HO
    isplitr; · rw [MayWait_zero]; iempintro
    iexact HaS1
  iintro ⟨HO, HaS1, -, Hpay⟩
  ihave Hq1 := (Entails.of_eq (rest_send m ρ c 1)) $$ [Hpay]
  · iexact Hpay
  iapply (Rounds.wp_wait_rest_token 𝒱₀ ER (Rd m ρ) (c : Thread nD τ) none (κ := K (c, 3))
      (wpE_waitDma2_eq 𝒱₀ (c : Thread nD τ) none Set.univ) (Set.mem_univ _) () (O := 0) (R := 0) (m := 0) (T := ∅)
      (by rw [Nat.zero_add]; exact (expect_send m ρ c 2).symm)) $$ [HcS2 HO HaS2]
  · isplitr; · iapply (inv_at m ρ K (c, 3)); iexact HI
    isplitl [HcS2]; · iexact HcS2
    isplitl [HO]; · iexact HO
    isplitr; · rw [MayWait_zero]; iempintro
    iexact HaS2
  iintro ⟨HO, HaS2, -, Hpay⟩
  ihave Hq2 := (Entails.of_eq (rest_send m ρ c 2)) $$ [Hpay]
  · iexact Hpay
  unfold sendPay
  ihave Hown := (slot_shares (F := F) c c (gathB m ρ c)).2 $$ [Hq0 Hq1 Hq2 HqK]
  · isplitl [Hq0]; · iexact Hq0
    isplitl [Hq1]; · iexact Hq1
    isplitl [Hq2]; · iexact Hq2
    iexact HqK
  ihave Hall := (slots_perm c (fun s => (slotPts c s fullShare (gathB m ρ c) : sProp 𝕄))).2 $$ [Hown Hr0 Hr1 Hr2]
  · isplitl [Hown]; · iexact Hown
    isplitl [Hr0]; · iexact Hr0
    isplitl [Hr1]; · iexact Hr1
    iexact Hr2
  ihave Hscr := (scr_split c fullShare (gathB m ρ c)).2 $$ Hall
  -- the six own cells close: their counters at zero are the device's again
  imod (Rounds.cell_close ER (Rd m ρ) (Set.mem_univ (K (c, 1))) (fun h => h) (R := 0 + 1) (duties_later m ρ (sendCell c 0))) $$ [HaS0] with HzS0
  · isplitr; · iapply (inv_at m ρ K (c, 1)); iexact HI
    iexact HaS0
  imod (Rounds.cell_close ER (Rd m ρ) (Set.mem_univ (K (c, 2))) (fun h => h) (R := 0 + 1) (duties_later m ρ (sendCell c 1))) $$ [HaS1] with HzS1
  · isplitr; · iapply (inv_at m ρ K (c, 2)); iexact HI
    iexact HaS1
  imod (Rounds.cell_close ER (Rd m ρ) (Set.mem_univ (K (c, 3))) (fun h => h) (R := 0 + 1) (duties_later m ρ (sendCell c 2))) $$ [HaS2] with HzS2
  · isplitr; · iapply (inv_at m ρ K (c, 3)); iexact HI
    iexact HaS2
  imod (Rounds.cell_close ER (Rd m ρ) (Set.mem_univ (K (c, 4))) (fun h => h) (R := 0 + 1) (duties_later m ρ (recvCell c (peer c 0)))) $$ [HaV0] with HzV0
  · isplitr; · iapply (inv_at m ρ K (c, 4)); iexact HI
    iexact HaV0
  imod (Rounds.cell_close ER (Rd m ρ) (Set.mem_univ (K (c, 5))) (fun h => h) (R := 0 + 1) (duties_later m ρ (recvCell c (peer c 1)))) $$ [HaV1] with HzV1
  · isplitr; · iapply (inv_at m ρ K (c, 5)); iexact HI
    iexact HaV1
  imod (Rounds.cell_close ER (Rd m ρ) (Set.mem_univ (K (c, 6))) (fun h => h) (R := 0 + 1) (duties_later m ρ (recvCell c (peer c 2)))) $$ [HaV2] with HzV2
  · isplitr; · iapply (inv_at m ρ K (c, 6)); iexact HI
    iexact HaV2
  rw [wp_ret]; imodintro
  iapply Hk
  unfold bodyPost Φ₁ Dat.owesAt Pipeline.owesWithin scrPts
  rw [show (dats m ρ 0 c).owed t₀.succ = 0 from rfl]
  simp only [bigSep_fin3]
  isplitl [Hscr HzSelf HzS0 HzS1 HzS2 HzV0 HzV1 HzV2]
  · isplitl [Hscr]; · iexact Hscr
    isplitl [HzSelf]; · iexact HzSelf
    isplitl [HzS0 HzS1 HzS2]
    · isplitl [HzS0]; · iexact HzS0
      isplitl [HzS1]; · iexact HzS1
      iexact HzS2
    · isplitl [HzV0]; · iexact HzV0
      isplitl [HzV1]; · iexact HzV1
      iexact HzV2
  isplitl [HO]
  · iexists _
    isplitr
    rotate_left
    · iexact HO
    · ipureintro; exact fun _ _ => Or.inl trivial
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  unfold bodyPre' Φ₀ start
  iintro ⟨⟨⟨⟨%K, Hg⟩, Hz, Hcr, Hlev⟩, Hscr⟩, Ho, Hx, Hout⟩
  iapply (sound_body m ρ K c fun _ => bodyPost m ρ c)
  unfold bodyPre
  isplitr []
  · isplitl [Hg Hz Hcr Hlev Hscr]
    · isplitl [Hg]; · iexact Hg
      isplitl [Hz]; · iexact Hz
      isplitl [Hcr]; · iexact Hcr
      isplitl [Hlev]; · iexact Hlev
      iexact Hscr
    isplitl [Ho]; · iexact Ho
    isplitl [Hx] <;> iassumption
  · iintro H; iexact H

/-- info: 'Cert.KernelIdeal.Proto.body_obligation' depends on axioms: [propext, Classical.choice, Quot.sound] -/
#guard_msgs in #print axioms body_obligation

end Cert.KernelIdeal.Proto

end
-- ==== Proof.KI.Launch.lean ====
/-
  The launch: from "each device's body is proved" to the run of the whole mesh. The rounds' ghost state is minted for
  all twenty-eight cells at once, each device's seven cells' invariants allocated over its own semaphores and the
  runtime's barrier semaphore, the duty tokens dealt to the devices that pay them, the launch credit read off what the
  devices owe each other; then every weakly fair execution terminates with each device's result block at its named
  value and its input block unchanged.
-/
import proofs.«900605_g7700000000000606_dist_softmax_colshard_i_m512_n256_v7x_i4_bf16_1_alg».proof.Proof.KI.Proto
import proofs.«900605_g7700000000000606_dist_softmax_colshard_i_m512_n256_v7x_i4_bf16_1_alg».proof.Proof.KI.Tables
import proofs.«900605_g7700000000000606_dist_softmax_colshard_i_m512_n256_v7x_i4_bf16_1_alg».proof.Proof.KI.Body
import proofs.«900605_g7700000000000606_dist_softmax_colshard_i_m512_n256_v7x_i4_bf16_1_alg».proof.Proof.KI.Ghost

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### Small regroupings -/

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

/-! ### The launch credit

Device `d` owes six one-cell tallies; the launch's credit splits along the sum, and each summand, summed over the
devices, puts its amount on exactly one cell of each device. -/

omit [FloatOps F] in
/-- Every device owing `n` on one cell of its choosing, no two devices the same cell: the device the cell of `d₀` sits on
    is dealt the matching credit on it. -/
theorem launchCred_cell (cell : Dev nD → GSem nD τ sig) (hinj : Function.Injective cell) (n : ℕ) (c d₀ : Dev nD)
    (h : (cell d₀).1 = (c : Thread nD τ)) :
    (Pipeline.launchCred (fun d => tallyAt (cell d) () n) c : sProp 𝕄) ⊢ cred (tallyAt (cell d₀) () n) := by
  refine (Pipeline.launchCred_elim _ c (cell d₀).2).trans (Entails.of_eq (congrArg cred ?_))
  rw [Pipeline.tallyOn_launchCredit_owing]
  have hg : ((c : Thread nD τ), (cell d₀).2) = cell d₀ := by rw [← h]
  rw [hg]
  unfold tallyAt
  refine congrArg _ ?_
  rw [Finset.sum_apply, Finset.sum_eq_single d₀ (fun d _ hd => ?_) (fun hn => absurd (Finset.mem_univ _) hn)]
  · exact tallyOn_self _ _
  · exact tallyOn_ne (fun e => hd (hinj e.symm)) _

omit [FloatOps F] in
theorem recvOf_inj (e : Fin 3) : Function.Injective (fun d : Dev nD => recvCell (peer d e) d) := fun a b h => by
  have h2 : (SemLoc.dma (recvQ a) : SemLoc sig) = .dma (recvQ b) := congrArg Prod.snd h
  have h3 : (recvQ a).val = (recvQ b).val := by injection h2 with h2; rw [h2]
  rw [recvQ_val, recvQ_val] at h3
  exact Fin.ext (by omega)

omit [FloatOps F] in
/-- The copies numbered `e`: device `peer c d'` is the one whose copy `e` names `c`, and its slot's credit lands on
    `c`'s receive cell of that slot. -/
theorem launch_recv (c : Dev nD) (e d' : Fin 3) (h : peer (peer c d') e = c) :
    (Pipeline.launchCred (fun d => tallyAt (recvCell (peer d e) d) () N) c : sProp 𝕄) ⊢ cred (tallyAt (recvCell c (peer c d')) () N) :=
  (launchCred_cell (fun d => recvCell (peer d e) d) (recvOf_inj e) N c (peer c d')
      (show ((peer (peer c d') e : Dev nD) : Thread nD τ) = _ by rw [h])).trans
    (Entails.of_eq (show cred (tallyAt (recvCell (peer (peer c d') e) (peer c d')) () N) = _ by rw [h]))

omit [FloatOps F] in
/-- The signals numbered `e`: one unit on each device's barrier cell. -/
theorem launch_bar (c : Dev nD) (e : Fin 3) :
    (Pipeline.launchCred (fun d => tallyAt (barCell (peer d e)) () 1) c : sProp 𝕄) ⊢ cred (tallyAt (barCell c) () 1) :=
  Pipeline.launchCred_tallyAt (.reg barS) (fun d => peer d e) (fun d => back d e) (fun d => peer_back d e) (fun d => back_peer d e) () 1 c

theorem peer_peer (c : Dev nD) : peer (peer c 2) 0 = c ∧ peer (peer c 1) 1 = c ∧ peer (peer c 0) 2 = c := by revert c; decide

omit [FloatOps F] in
theorem creds_intro (c : Dev nD) : (Pipeline.launchCred O₀ c : sProp 𝕄) ⊢ creds c := by
  have e6 : (Pipeline.launchCred O₀ c : sProp 𝕄) = iprop(Pipeline.launchCred A5 c ∗ Pipeline.launchCred (fun d => tallyAt (barCell (peer d 0)) () 1) c) :=
    Pipeline.launchCred_add A5 _ c
  have e5 : (Pipeline.launchCred A5 c : sProp 𝕄) = iprop(Pipeline.launchCred A4 c ∗ Pipeline.launchCred (fun d => tallyAt (barCell (peer d 1)) () 1) c) :=
    Pipeline.launchCred_add A4 _ c
  have e4 : (Pipeline.launchCred A4 c : sProp 𝕄) = iprop(Pipeline.launchCred A3 c ∗ Pipeline.launchCred (fun d => tallyAt (barCell (peer d 2)) () 1) c) :=
    Pipeline.launchCred_add A3 _ c
  have e3 : (Pipeline.launchCred A3 c : sProp 𝕄) = iprop(Pipeline.launchCred A2 c ∗ Pipeline.launchCred (fun d => tallyAt (recvCell (peer d 0) d) () N) c) :=
    Pipeline.launchCred_add A2 _ c
  have e2 : (Pipeline.launchCred A2 c : sProp 𝕄) = iprop(Pipeline.launchCred A1 c ∗ Pipeline.launchCred (fun d => tallyAt (recvCell (peer d 1) d) () N) c) :=
    Pipeline.launchCred_add A1 _ c
  have e1 : (Pipeline.launchCred A1 c : sProp 𝕄) = Pipeline.launchCred (fun d => tallyAt (recvCell (peer d 2) d) () N) c := rfl
  rw [e6, e5, e4, e3, e2, e1]
  unfold creds
  have h3 : (tallyAt (barCell c) () 3 : CellTallies nD τ sig Unit)
      = tallyAt (barCell c) () 1 + tallyAt (barCell c) () 1 + tallyAt (barCell c) () 1 := by rw [tallyAt_add, tallyAt_add]
  rw [bigSep_three, h3]
  iintro ⟨⟨⟨⟨⟨H1, H2⟩, H3⟩, H4⟩, H5⟩, H6⟩
  ihave B0 := (launch_bar (F := F) c 0) $$ H6
  ihave B1 := (launch_bar (F := F) c 1) $$ H5
  ihave B2 := (launch_bar (F := F) c 2) $$ H4
  ihave R2 := (launch_recv (F := F) c 0 2 (peer_peer c).1) $$ H3
  ihave R1 := (launch_recv (F := F) c 1 1 (peer_peer c).2.1) $$ H2
  ihave R0 := (launch_recv (F := F) c 2 0 (peer_peer c).2.2) $$ H1
  isplitl [B0 B1 B2]
  · iapply (cred_add _ _).2
    isplitl [B0 B1]
    · iapply (cred_add _ _).2
      isplitl [B0] <;> iassumption
    · iexact B2
  · isplitl [R0]; · iexact R0
    isplitl [R1] <;> iassumption

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  icases HG with ⟨HK, Hz⟩
  isplitl
  · isplitl [HK]; · iexact HK
    isplitl [Hz]; · iexact Hz
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁ scrPts
  rw [bigSep_three, bigSep_three]
  iintro ⟨Hr, Hc, ⟨S0, S1, S2⟩, ⟨R0, R1, R2⟩⟩
  isplitr; · iempintro
  isplitr [Hr]
  · isplitl [S0]; · iexact S0
    isplitl [S1]; · iexact S1
    isplitl [S2]; · iexact S2
    iapply (slots_perm (F := F) c (fun s => semVal (recvCell c s) 0)).2
    isplitl [Hc]; · iexact Hc
    isplitl [R0]; · iexact R0
    isplitl [R1] <;> iassumption
  · iexists (gathB m ρ c); iexact Hr

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

theorem share_eq (c : Dev nD) (w : Fin cfg0.W) : (dats m ρ 0 c).share w = fullShare := by unfold Dat.share; split <;> rfl

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- Every weakly fair execution of @main on the four devices terminates with every window's array at its final contents. -/
theorem run_main : θ_run defs (onTc (τ := τ) (main (F := F))) (s₀ m ρ) (QC m ρ) := by
  exact Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_rounds m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run holds the device's result block. -/
theorem finalA_out (c : Dev nD) : finalA m ρ c (1 : Fin 2) = outB m ρ c := by
  -- the one point writes the result window back; the block is the whole array, so the write leaves the payload
  have h1 : (dats m ρ 0 c).arrAt (1 : Fin 2) cfg0.N = (dats m ρ 0 c).arrAt (1 : Fin 2) (t₀.val + 1) :=
    congrArg ((dats m ρ 0 c).arrAt (1 : Fin 2)) (show cfg0.N = t₀.val + 1 from cfg0_N)
  unfold finalA
  rw [h1, Dat.arrAt_succ, flush0_1 t₀, if_pos rfl]
  exact Memref.write_access_unit_zero_univ (Elt F) main_v1 (funext fun a => Nat.zero_mul _) _ _ _

/-- A device's staged input block is its input array (no grid: the block is the whole array). -/
theorem xs_eq (c : Dev nD) : xs m ρ c = m ((c.tc : Thread nD τ).loc main_arg0) := by
  unfold xs
  exact Memref.read_access_unit_zero (Elt F) main_arg0 (funext fun a => Nat.zero_mul _) _ _

/-- The run with its values named: each device's result block is `outAt` of the four input blocks, its input unchanged. -/
theorem run : θ_run defs (onTc (τ := τ) (main (F := F))) ⟨m, fun _ => 0, ρ⟩ (fun r => ∀ c : Dev nD,
    r.2.mem ((c.tc : Thread nD τ).loc main_v1) = Out.outAt (fun c' => m ((c'.tc : Thread nD τ).loc main_arg0)) c
    ∧ r.2.mem ((c.tc : Thread nD τ).loc main_arg0) = m ((c.tc : Thread nD τ).loc main_arg0)) := by
  refine (θ_run defs _ _).mono (fun r h c => ⟨?_, ?_⟩) (run_main m ρ)
  · refine ((h c (1 : Fin 2)).trans (finalA_out m ρ c)).trans ?_
    unfold outB
    rw [show xs m ρ = fun c' : Dev nD => m ((c'.tc : Thread nD τ).loc main_arg0) from funext (xs_eq m ρ)]
  · exact (h c (0 : Fin 2)).trans (finalA_x m ρ c)

end Cert.KernelIdeal.Proto

end
-- ==== Proof.Spec.lean ====
/-
  The softmax of a row, as one function of the whole array over the reals.

  For a 512 × 1024 array `X` of finite entries, entry (r, k) of the result is
  exp (X r k) / Σ_k' exp (X r k').  Both programs compute it: the one-device program as
  exp (x - M) / Σ exp (x' - M) with M the row's maximum (any real M cancels), the four-device program as
  exp x · (1 / Σ_c Σ_j exp (x_c j)), the row's sum split into the four column blocks.
-/
import Idealize.ShloMosaic.PureOps.Ideal
import Idealize.ShloMosaic.Lib.ValueIdx

noncomputable section

open scoped BigOperators

namespace Cert.Softmax

open Idealize.ShloMosaic Idealize.ShloMosaic.ValueIdx

/-- The whole array's shape and one device's column block's. -/
abbrev SW : Shape := ⟨2, ![512, 1024]⟩
abbrev SB : Shape := ⟨2, ![512, 256]⟩

/-- Every entry is a real number (neither infinity). -/
def Finite {S : Shape} (X : S.Idx → EReal) : Prop := ∀ i, ∃ r : ℝ, X i = (r : EReal)

/-- Row `r`'s sum of exponentials. -/
def rowSum (X : SW.Idx → EReal) (r : Fin 512) : ℝ := ∑ k : Fin 1024, Real.exp (X (ix2 r k)).toReal

/-- The softmax along the rows, entry by entry. -/
def G (X : SW.Idx → EReal) : SW.Idx → EReal := fun i =>
  ((Real.exp (X i).toReal / rowSum X ⟨(i 0).val, (i 0).isLt⟩ : ℝ) : EReal)

end Cert.Softmax

end
-- ==== Proof.Finite.lean ====
/-
  From the printed precondition to real entries: `finite_inputs` of a device's block says |x| < +∞ at every
  entry, so every entry is a real; a whole array whose four column blocks are such has only real entries.
-/
import proofs.«900605_g7700000000000606_dist_softmax_colshard_i_m512_n256_v7x_i4_bf16_1_alg».proof.Defs
import proofs.«900605_g7700000000000606_dist_softmax_colshard_i_m512_n256_v7x_i4_bf16_1_alg».proof.Proof.Gen.Pre_finite_inputs_Kernel
import proofs.«900605_g7700000000000606_dist_softmax_colshard_i_m512_n256_v7x_i4_bf16_1_alg».proof.Proof.Spec
import Idealize.ShloMosaic.Lib.ReduceAll
import Idealize.ShloMosaic.Lib.Layout

noncomputable section

namespace Cert.Softmax

open Idealize.ShloMosaic Idealize.ShloMosaic.ValueIdx

/-- Among the extended reals only a real has an absolute value, max x (-x), below +∞: at either infinity
    that maximum is +∞ itself. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A block on which the printed predicate is all ones has only real entries. -/
theorem finite_of_pre [Cert.Pre_finite_inputs_Kernel.Facts] (x : FVec Ideal Cert.Pre_finite_inputs_Kernel.S512x256 .f32)
    (h : Cert.Pre_finite_inputs_Kernel.fn (F := Ideal) x = (fun _ => 1#1)) : Finite (S := SB) x := by
  intro i
  -- the predicate's one result, the conjunction over both axes of the entrywise tests, is 1
  have h0 := congrFun h ValueIdx.ix0
  dsimp only [Cert.Pre_finite_inputs_Kernel.fn] at h0
  haveI : Subsingleton Cert.Pre_finite_inputs_Kernel.S_.Idx := ⟨fun a b => funext fun d => d.elim0⟩
  -- so the test at entry i is 1: |x i| < +∞
  have hi := Host.reduce_andi_all _ _ _ _ _ h0 i
  change Ideal.cmp .olt (max (x i) (-(x i))) (Ideal.ofBits .f32 0x7F800000#32) = 1#1 at hi
  have htop : Ideal.ofBits .f32 0x7F800000#32 = (⊤ : EReal) := by simp [Ideal.ofBits, Ideal.ieee]
  rw [htop] at hi
  refine real_of_abs_lt_top (x i) ?_
  by_contra hn
  simp [Ideal.cmp, hn] at hi

/-- A whole array whose four column blocks have only real entries has only real entries. -/
theorem finite_of_blocks (X : SW.Idx → EReal)
    (h : ∀ c : Fin 4, Finite (S := SB) (Layout.block ⟨2, ![512, 256]⟩ ⟨2, ![512, 1024]⟩ 1 4 c X)) : Finite (S := SW) X := by
  intro i
  -- entry (r, k) of the whole array is entry (r, k mod 256) of column block k / 256
  have hk : (i 1).val < 1024 := idx2_lt1 i
  have hc : (i 1).val / 256 < 4 := by omega
  have hl : (i 1).val % 256 < 256 := Nat.mod_lt _ (by norm_num)
  obtain ⟨r, hr⟩ := h ⟨(i 1).val / 256, hc⟩ (ix2 ⟨(i 0).val, idx2_lt0 i⟩ ⟨(i 1).val % 256, hl⟩)
  refine ⟨r, ?_⟩
  rw [← hr, Layout.block_apply]
  refine congrArg X (funext fun b => Fin.ext ?_)
  match b with
  | ⟨0, _⟩ => rfl
  | ⟨1, _⟩ =>
    show (i 1).val = (i 1).val / 256 * 256 + (i 1).val % 256
    omega

end Cert.Softmax

end
-- ==== Proof.RefValue.lean ====
/-
  The reference side of the softmax certificate: what the one-device program computes, read back from its
  generated run one operation at a time, is the row softmax `G` of its argument whenever the argument's entries
  are real — the subtracted row maximum is then a real, and any real cancels between numerator and denominator.
-/
import proofs.«900605_g7700000000000606_dist_softmax_colshard_i_m512_n256_v7x_i4_bf16_1_alg».proof.Proof.Gen.ReferenceIdeal.Run
import proofs.«900605_g7700000000000606_dist_softmax_colshard_i_m512_n256_v7x_i4_bf16_1_alg».proof.Proof.Gen.ReferenceIdeal.Read
import proofs.«900605_g7700000000000606_dist_softmax_colshard_i_m512_n256_v7x_i4_bf16_1_alg».proof.Proof.Spec

noncomputable section

namespace Cert.Softmax

open Idealize.ShloMosaic Idealize.ShloMosaic.ValueIdx
open Cert.ReferenceIdeal Cert.ReferenceIdeal.Gen Cert.ReferenceIdeal.Read

/-- A finite sum of reals, read in the extended reals, is the sum of the readings. -/
private theorem coe_sum_real {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The larger of two reals, read in the extended reals, is again a real. -/
private theorem max_coe_real (r q : ℝ) : ∃ t : ℝ, max (r : EReal) (q : EReal) = (t : EReal) := by
  rcases le_total r q with h | h
  · exact ⟨q, max_eq_right (EReal.coe_le_coe_iff.2 h)⟩
  · exact ⟨r, max_eq_left (EReal.coe_le_coe_iff.2 h)⟩

/-- A running maximum started at −∞ over a family of reals is −∞ or a real. -/
private theorem fold_max_bot_or_real {ι : Type} [DecidableEq ι] (f : ι → EReal) (hf : ∀ i, ∃ r : ℝ, f i = (r : EReal))
    (s : Finset ι) : s.fold max (⊥ : EReal) f = ⊥ ∨ ∃ r : ℝ, s.fold max (⊥ : EReal) f = (r : EReal) := by
  induction s using Finset.induction_on with
  | empty => exact Or.inl Finset.fold_empty
  | insert a s ha ih =>
    right
    rw [Finset.fold_insert ha]
    obtain ⟨r, hr⟩ := hf a
    rcases ih with h | ⟨q, hq⟩
    · exact ⟨r, by rw [h, hr]; exact max_eq_left bot_le⟩
    · rw [hq, hr]; exact max_coe_real r q

/-- Over a nonempty family of reals the running maximum started at −∞ is a real. -/
private theorem fold_max_bot_real {ι : Type} [DecidableEq ι] (f : ι → EReal) (hf : ∀ i, ∃ r : ℝ, f i = (r : EReal))
    (s : Finset ι) (hs : s.Nonempty) : ∃ r : ℝ, s.fold max (⊥ : EReal) f = (r : EReal) := by
  obtain ⟨a, ha⟩ := hs
  rw [← Finset.insert_erase ha, Finset.fold_insert (Finset.notMem_erase a s)]
  obtain ⟨r, hr⟩ := hf a
  rcases fold_max_bot_or_real f hf (s.erase a) with h | ⟨q, hq⟩
  · exact ⟨r, by rw [h, hr]; exact max_eq_left bot_le⟩
  · rw [hq, hr]; exact max_coe_real r q

/-- The reduce stage, a running maximum from −∞ along each row, is a real at every row of a finite argument. -/
private theorem rowMax_real (X : SW.Idx → EReal) (hX : Finite (S := SW) X) (j : S512.Idx) :
    ∃ M : ℝ, val_main_v0 (F := Ideal) X j = (M : EReal) := by
  have h : S512x1024.Reduces [1] S512 := by decide
  have hb : val_main_cst (F := Ideal) (Shape.Idx.first h_S_) = (⊥ : EReal) := by
    rw [val_main_cst_apply]; simp [Ideal.ofBits, Ideal.ieee]
  have e := Host.reduce_eq_fold_single (FloatOps.maximumf (F := Ideal) (φ := .f32)) X (val_main_cst (F := Ideal))
    reducesTo_S512x1024_S512_d1 h h_S_ j
  rw [hb] at e
  obtain ⟨M, hM⟩ := fold_max_bot_real (X ∘ h.lift j) (fun k => hX _) Finset.univ ⟨⟨0, by decide⟩, Finset.mem_univ _⟩
  unfold val_main_v0
  exact ⟨M, e.trans hM⟩

/-- The one-device program's result stage is the row softmax of a finite argument. -/
theorem ref_eq_G (X : SW.Idx → EReal) (hX : Finite (S := SW) X) :
    Cert.ReferenceIdeal.Read.val_main_v9 (F := Ideal) X = G X := by
  refine funext fun (i : SW.Idx) => ?_
  -- the value subtracted along i's row is a real M
  obtain ⟨M, hM⟩ := rowMax_real X hX (idx_main_v1 (idx_main_v2 i))
  -- so every entry of the exponential stage in that row is exp (x − M), a real
  have h4 : ∀ i' : S512x1024.Idx, idx_main_v1 (idx_main_v2 i') = idx_main_v1 (idx_main_v2 i) →
      val_main_v4 (F := Ideal) X i' = ((Real.exp ((X i').toReal - M) : ℝ) : EReal) := by
    intro i' hi'
    obtain ⟨x, hx⟩ := hX i'
    rw [val_main_v4_apply, val_main_v3_apply, val_main_v2_apply, val_main_v1_apply, hi', hM, hx,
      Ideal.hostUnary_exp_def, Ideal.subf_def, ← EReal.coe_sub, Ideal.exp_coe, EReal.toReal_coe]
  rw [val_main_v9_apply, val_main_v8_apply, val_main_v7_apply, val_main_v6_apply, val_main_v5_apply,
    val_main_cst_0_apply, h4 i rfl]
  -- the row's sum of that stage is the real sum Σ_k exp (x_k − M), which is positive
  have hsum : ∑ k : Fin 1024, val_main_v4 (F := Ideal) X (idx_main_v5 (idx_main_v6 (idx_main_v7 i)) k)
      = ∑ k : Fin 1024, ((Real.exp ((X (ix2 (⟨(i 0).val, (i 0).isLt⟩ : Fin 512) k)).toReal - M) : ℝ) : EReal) := by
    refine Finset.sum_congr rfl fun k _ => ?_
    have hk : idx_main_v5 (idx_main_v6 (idx_main_v7 i)) k = ix2 (⟨(i 0).val, (i 0).isLt⟩ : Fin 512) k :=
      funext fun a => match a with | ⟨0, _⟩ => rfl | ⟨1, _⟩ => rfl
    rw [h4 (idx_main_v5 (idx_main_v6 (idx_main_v7 i)) k) (funext fun a => match a with | ⟨0, _⟩ => rfl), hk]
  have hpos : 0 < ∑ k : Fin 1024, Real.exp ((X (ix2 (⟨(i 0).val, (i 0).isLt⟩ : Fin 512) k)).toReal - M) :=
    Finset.sum_pos (fun k _ => Real.exp_pos _) ⟨⟨0, by decide⟩, Finset.mem_univ _⟩
  rw [hsum, ← coe_sum_real, Ideal.truncf_def, Ideal.hostDivf_def, Ideal.ofBits_def, Ideal.ofBits_zero_f32, zero_add,
    Ideal.div_coe hpos.ne', ← EReal.coe_mul]
  -- over the reals: exp (x − M) · (1 / Σ_k exp (x_k − M)) = exp x / Σ_k exp x_k, since exp M cancels
  show _ = ((Real.exp (X i).toReal / rowSum X ⟨(i 0).val, (i 0).isLt⟩ : ℝ) : EReal)
  unfold rowSum
  have hS : 0 < ∑ k : Fin 1024, Real.exp (X (ix2 (⟨(i 0).val, (i 0).isLt⟩ : Fin 512) k)).toReal :=
    Finset.sum_pos (fun k _ => Real.exp_pos _) ⟨⟨0, by decide⟩, Finset.mem_univ _⟩
  have hM0 : Real.exp M ≠ 0 := (Real.exp_pos M).ne'
  refine EReal.coe_eq_coe_iff.2 ?_
  simp only [Real.exp_sub]
  rw [← Finset.sum_div]
  field_simp

end Cert.Softmax

end
-- ==== Proof.KValue.lean ====
/-
  The four-device side of the softmax certificate, as values: when the devices' input blocks are the four column
  blocks of one finite array `X`, device `c`'s result block is column block `c` of the row softmax of `X` —
  the four slots of the gathered scratch add up to the whole row's sum of exponentials.
-/
import proofs.«900605_g7700000000000606_dist_softmax_colshard_i_m512_n256_v7x_i4_bf16_1_alg».proof.Proof.KI.Out
import proofs.«900605_g7700000000000606_dist_softmax_colshard_i_m512_n256_v7x_i4_bf16_1_alg».proof.Proof.Spec
import Idealize.ShloMosaic.Lib.Layout
import Idealize.ShloMosaic.Lib.Pipeline.Value
import Idealize.ShloMosaic.Lib.ValueLayout
import Idealize.ShloMosaic.PureOps.Ideal.Laws
import Mathlib.Logic.Equiv.Fin.Basic
import Mathlib.Data.Fintype.BigOperators

noncomputable section

namespace Cert.Softmax

open Idealize.ShloMosaic Idealize.ShloMosaic.ValueIdx Cert.KernelIdeal Cert.KernelIdeal.Gen Cert.KernelIdeal.Out

open scoped BigOperators

/-! ## Layout operations read at coordinates: the column forms

A vector set up as a column, a column spread over the rows' entries, and a stack of rows with a unit middle axis dropped;
each is the general reading of a shape cast or broadcast at an index, with both indices written by coordinates. -/

section LayoutAtCoordinates
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[m, 1, b]` array cast to `[m, b]` reads, at `(p, j)`, the operand at `(p, 0, j)`. -/
theorem shapeCast_a1b_ab_apply {m b : ℕ} (x : (⟨3, ![m, 1, b]⟩ : Shape).Idx → α) (h : (⟨3, ![m, 1, b]⟩ : Shape).ShapeCasts ⟨2, ![m, b]⟩)
    (p : Fin m) (j : Fin b) : shapeCast ⟨2, ![m, b]⟩ x h (ix2 p j) = x (ix3 p (0 : Fin 1) j) :=
  shapeCast_apply x h _ _ (by
    rw [Shape.rowMajor_val_three, Shape.rowMajor_val_two]
    show (p.val * 1 + 0) * b + j.val = p.val * b + j.val
    rw [Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end LayoutAtCoordinates

/-- Row `r` with column `k` put back on the summed axis is the entry `(r, k)`. -/
theorem lift_row (h : Shape.Reduces ⟨2, ![512, 256]⟩ [1] ⟨1, ![512]⟩) (r : Fin 512) (k : Fin 256) :
    h.lift (ix1 r) k = ix2 r k := by
  funext c; match c with | ⟨0, _⟩ => rfl | ⟨1, _⟩ => rfl

/-- Row `r` with slot `p` put back on the summed axis is the entry `(p, r)`. -/
theorem lift_slot (h : Shape.Reduces ⟨2, ![4, 512]⟩ [0] ⟨1, ![512]⟩) (r : Fin 512) (p : Fin 4) :
    h.lift (ix1 r) p = ix2 p r := by
  funext c; match c with | ⟨0, _⟩ => rfl | ⟨1, _⟩ => rfl

/-! ## The kernel's three values, entry by entry

With the formats' changes the identity on extended reals: the exponentials of the block; the block's row sums, as stored in
one slot of the scratch; and the result, the exponentials times the reciprocal of the four slots' sum. -/

/-- The first value at an entry is the exponential of the block's entry. -/
theorem pay1_apply [Cert.KernelIdeal.Facts] (x : Vec Ideal S512x256 .f32) (i : S512x256.Idx) :
    k0_pay1 (F := Ideal) x i = Ideal.exp (x i) := by
  unfold k0_pay1
  rw [shapeCast_self]
  rfl

/-- The second value, the one-slot row vector, holds at `r` the sum of row `r`'s exponentials over the block's columns. -/
theorem pay2_apply [Cert.KernelIdeal.Facts] (x : Vec Ideal S512x256 .f32) (r : Fin 512) :
    k0_pay2 (F := Ideal) x (ix3 (0 : Fin 1) (0 : Fin 1) r) = ∑ l : Fin 256, Ideal.exp (x (ix2 r l)) := by
  unfold k0_pay2
  rw [shapeCast_self, shapeCast_ab_1ab_apply, shapeCast_a_1a_apply, shapeCast_shapeCast]
  refine (Ideal.multiReduction_add_single _ _ _ _ _ (ix1 r)).trans ?_
  refine Finset.sum_congr rfl fun (k : Fin 256) _ => ?_
  rw [lift_row, extf_apply, pay1_apply]

/-- The third value at `(r, l)`: the given entry times one over the sum of the four slots' entries of row `r`. -/
theorem pay3_apply [Cert.KernelIdeal.Facts] (e : FVec Ideal S512x256 .bf16) (g : Vec Ideal S4x1x512 .f32) (r : Fin 512) (l : Fin 256) :
    k0_pay3 (F := Ideal) e g (ix2 r l)
      = e (ix2 r l) * Ideal.div (Ideal.ofBits .f32 0x3F800000#32) (∑ p : Fin 4, g (ix3 p (0 : Fin 1) r)) := by
  unfold k0_pay3
  rw [mulf_apply, broadcastTo_a1_ab_apply, shapeCast_a_a1_apply, truncf_apply, divf_apply, broadcast_apply]
  refine congrArg (fun s => e (ix2 r l) * Ideal.div (Ideal.ofBits .f32 0x3F800000#32) s) ?_
  refine (Ideal.multiReduction_add_single _ _ _ _ _ (ix1 r)).trans ?_
  refine Finset.sum_congr rfl fun (p : Fin 4) _ => ?_
  rw [lift_slot, shapeCast_a1b_ab_apply]

/-! ## The row's sum, block by block -/

/-- A finite sum of reals, read in the extended reals, is the sum of the terms read there. -/
theorem coe_sum_real {ι : Type*} (s : Finset ι) (g : ι → ℝ) :
    (∑ i ∈ s, (g i : EReal)) = ((∑ i ∈ s, g i : ℝ) : EReal) := by
  classical
  induction s using Finset.induction_on with
  | empty => simp
  | insert a s ha ih => rw [Finset.sum_insert ha, Finset.sum_insert ha, ih, EReal.coe_add]

/-- A row of 1024 entries summed as four blocks of 256: column `256 p + l` is column `l` of block `p`. -/
theorem sum_blocks (f : Fin 1024 → ℝ) :
    ∑ p : Fin 4, ∑ l : Fin 256, f ⟨p.val * 256 + l.val, by omega⟩ = ∑ k : Fin 1024, f k := by
  rw [← Fintype.sum_prod_type' (fun (p : Fin 4) (l : Fin 256) => f ⟨p.val * 256 + l.val, by omega⟩)]
  exact Fintype.sum_equiv (finProdFinEquiv (m := 4) (n := 256)) _ _ (fun x => congrArg f (Fin.ext (by
    show x.1.val * 256 + x.2.val = x.2.val + 256 * x.1.val
    omega)))

/-- Entry `(r, l)` of column block `p` is entry `(r, 256 p + l)` of the whole array. -/
theorem block_idx (h : Layout.Tiles SB SW 1 4) (p : Fin 4) (r : Fin 512) (l : Fin 256) :
    h.idx p (ix2 r l) = ix2 r (⟨p.val * 256 + l.val, by omega⟩ : Fin 1024) := by
  funext a; match a with | ⟨0, _⟩ => rfl | ⟨1, _⟩ => rfl

/-- The word of `1.0` is the real one. -/
theorem ofBits_one_f32 : Ideal.ofBits .f32 0x3F800000#32 = 1 :=
  Idealize.ShloMosaic.IdealRules.sign_bit.ideal_onePat .f32

/-- Device `c`'s result block is block `c` of the softmax of the whole array. -/
theorem out_eq_block [Cert.KernelIdeal.Facts] (X : SW.Idx → EReal) (hX : Finite (S := SW) X) (xs : Dev nD → Vec Ideal S512x256 .f32)
    (hx : ∀ c : Dev nD, xs c = Layout.block ⟨2, ![512, 256]⟩ ⟨2, ![512, 1024]⟩ 1 4 c X) (c : Dev nD) :
    outAt (F := Ideal) xs c = Layout.block ⟨2, ![512, 256]⟩ ⟨2, ![512, 1024]⟩ 1 4 c (G X) := by
  -- every entry of the array is a real
  obtain ⟨w, rfl⟩ : ∃ w : SW.Idx → ℝ, X = fun i => (w i : EReal) :=
    ⟨fun i => (hX i).choose, funext fun i => (hX i).choose_spec⟩
  funext j
  obtain ⟨r, l, rfl⟩ : ∃ (r : Fin 512) (l : Fin 256), j = ix2 r l := ⟨j 0, j 1, eq_ix2 j⟩
  -- device p's entry (r, l') is the array's entry (r, 256 p + l')
  have hin : ∀ (p : Fin 4) (l' : Fin 256),
      xs p (ix2 r l') = ((w (ix2 r (⟨p.val * 256 + l'.val, by omega⟩ : Fin 1024)) : ℝ) : EReal) := by
    intro p l'
    rw [hx p, Layout.block_apply, block_idx]
  -- slot p of the scratch holds, at r, block p's part of row r's sum of exponentials
  have hg : ∀ p : Fin 4, gath (F := Ideal) xs (ix3 p (0 : Fin 1) r)
      = ((∑ l' : Fin 256, Real.exp (w (ix2 r (⟨p.val * 256 + l'.val, by omega⟩ : Fin 1024))) : ℝ) : EReal) := by
    intro p
    show k0_pay2 (F := Ideal) (xs p) (ix3 (0 : Fin 1) (0 : Fin 1) r) = _
    rw [pay2_apply, ← coe_sum_real]
    refine Finset.sum_congr rfl fun l' _ => ?_
    rw [hin p l', Ideal.exp_coe]
  -- the four slots add up to the whole row's sum, which is positive
  have hsum : (∑ p : Fin 4, gath (F := Ideal) xs (ix3 p (0 : Fin 1) r))
      = ((∑ k : Fin 1024, Real.exp (w (ix2 r k)) : ℝ) : EReal) := by
    rw [Finset.sum_congr rfl fun p _ => hg p, coe_sum_real, sum_blocks fun k => Real.exp (w (ix2 r k))]
  have hpos : (∑ k : Fin 1024, Real.exp (w (ix2 r k))) ≠ 0 :=
    (Finset.sum_pos (fun k _ => Real.exp_pos _) Finset.univ_nonempty).ne'
  -- the kernel's entry: exp x · (1 / s) = exp x / s
  show k0_pay3 (F := Ideal) (k0_pay1 (F := Ideal) (xs c)) (gath (F := Ideal) xs) (ix2 r l) = _
  rw [pay3_apply, pay1_apply, hin c l, Ideal.exp_coe, hsum, ofBits_one_f32, Ideal.div_coe hpos, one_mul, ← EReal.coe_mul,
    mul_one_div, Layout.block_apply, block_idx]
  rfl

end Cert.Softmax

end
-- ==== Proof.lean ====
/-
  The column-sharded softmax on four devices against the row softmax on one.

  Each device `c` holds the column block `c` (256 of 1024 columns) of a 512 × 1024 array `X`. It computes the block's
  exponentials and their row sums, gathers the four devices' row sums into a four-slot scratch by three copies each way
  behind an entry handshake on the runtime's barrier semaphore, and scales its exponentials by the reciprocal of the four
  slots' sum: entry (r, j) of its result is exp (X r (256 c + j)) · (1 / Σ_p Σ_j' exp (X r (256 p + j'))). The one-device
  program computes exp (x - M) / Σ exp (x' - M) with M the row's maximum. For finite entries both are
  exp (X r k) / Σ_k' exp (X r k'): any real M cancels, the double sum is the row's sum re-indexed, and the product with a
  reciprocal of a nonzero real is the quotient. Finiteness is the precondition; it is used for exactly that.

  The three frames are the runs with the values dropped: the four-device programs' run (the protocol's launch, proved once
  for any float instance) at the word level and at the extended reals, the one-device program's generated run. The ideal pass
  rewrote nothing, so the idealization claim is trivial.
-/
import proofs.«900605_g7700000000000606_dist_softmax_colshard_i_m512_n256_v7x_i4_bf16_1_alg».proof.Defs
import proofs.«900605_g7700000000000606_dist_softmax_colshard_i_m512_n256_v7x_i4_bf16_1_alg».proof.Proof.Gen.Kernel
import proofs.«900605_g7700000000000606_dist_softmax_colshard_i_m512_n256_v7x_i4_bf16_1_alg».proof.Proof.Gen.KernelIdeal
import proofs.«900605_g7700000000000606_dist_softmax_colshard_i_m512_n256_v7x_i4_bf16_1_alg».proof.Proof.Gen.ReferenceIdeal
import proofs.«900605_g7700000000000606_dist_softmax_colshard_i_m512_n256_v7x_i4_bf16_1_alg».proof.Proof.Gen.Pre_finite_inputs_Kernel
import proofs.«900605_g7700000000000606_dist_softmax_colshard_i_m512_n256_v7x_i4_bf16_1_alg».proof.Proof.Gen.Pre_finite_inputs_ReferenceIdeal
import proofs.«900605_g7700000000000606_dist_softmax_colshard_i_m512_n256_v7x_i4_bf16_1_alg».proof.Proof.Gen.ReferenceIdeal.Run
import proofs.«900605_g7700000000000606_dist_softmax_colshard_i_m512_n256_v7x_i4_bf16_1_alg».proof.Proof.Gen.ReferenceIdeal.Read
import proofs.«900605_g7700000000000606_dist_softmax_colshard_i_m512_n256_v7x_i4_bf16_1_alg».proof.Proof.K.Launch
import proofs.«900605_g7700000000000606_dist_softmax_colshard_i_m512_n256_v7x_i4_bf16_1_alg».proof.Proof.KI.Launch
import proofs.«900605_g7700000000000606_dist_softmax_colshard_i_m512_n256_v7x_i4_bf16_1_alg».proof.Proof.Spec
import proofs.«900605_g7700000000000606_dist_softmax_colshard_i_m512_n256_v7x_i4_bf16_1_alg».proof.Proof.Finite
import proofs.«900605_g7700000000000606_dist_softmax_colshard_i_m512_n256_v7x_i4_bf16_1_alg».proof.Proof.RefValue
import proofs.«900605_g7700000000000606_dist_softmax_colshard_i_m512_n256_v7x_i4_bf16_1_alg».proof.Proof.KValue
import Idealize.ShloMosaic.Adequacy
import Idealize.ShloMosaic.Init

noncomputable section

namespace Cert.Proof

open Idealize.ShloMosaic Idealize.SL.Sem

/-- The word-level program runs and leaves each device's input block as it was. -/
theorem frame_k : Cert.frame_Kernel := fun m ρ _ =>
  (θ_run Cert.Kernel.defs _ _).mono (fun _ h c => (h c).2) (Cert.Kernel.Proto.run (F := Bits) m ρ)

/-- So does the idealized program. -/
theorem frame_ki : Cert.frame_KernelIdeal := fun m ρ _ =>
  (θ_run Cert.KernelIdeal.defs _ _).mono (fun _ h c => (h c).2) (Cert.KernelIdeal.Proto.run (F := Ideal) m ρ)

/-- The one-device program runs and leaves its argument as it was: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories where device `c`'s block is column block `c` of the one-device program's argument `X`, all blocks finite:
    the one-device program's result is the row softmax of `X`, and device `c`'s result is its column block `c`. -/
theorem algebraic : Cert.algebraic_KernelIdeal_ReferenceIdeal := by
  intro m ρ m' ρ' hpre hagree
  have hfin : Cert.Softmax.Finite (S := Cert.Softmax.SW)
      (m' (((0 : Dev Cert.ReferenceIdeal.nD).tc : Thread Cert.ReferenceIdeal.nD Cert.ReferenceIdeal.τ).loc Cert.ReferenceIdeal.main_arg0)) :=
    Cert.Softmax.finite_of_blocks _ (fun c => by rw [← hagree c]; exact Cert.Softmax.finite_of_pre _ (hpre c))
  refine ⟨Cert.Softmax.G (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun _ h c => ⟨(h c).1.trans ?_, (h c).2⟩) (Cert.KernelIdeal.Proto.run (F := Ideal) m ρ)
    exact Cert.Softmax.out_eq_block _ hfin _ hagree c
  · refine (θ_run Cert.ReferenceIdeal.defs _ _).mono (fun _ h => ⟨(h 0).1.trans ?_, (h 0).2⟩) (Cert.ReferenceIdeal.Value.run (F := Ideal) m' ρ')
    rw [Cert.ReferenceIdeal.Read.val_main_v9_eq]
    exact Cert.Softmax.ref_eq_G _ hfin

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
